-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000x16 : Shape := ⟨2, ![3200000, 16]⟩
abbrev S80x16 : Shape := ⟨2, ![80, 16]⟩
abbrev S16 : Shape := ⟨1, ![16]⟩
abbrev S64x16 : Shape := ⟨2, ![64, 16]⟩
abbrev S32x16 : Shape := ⟨2, ![32, 16]⟩
abbrev S16x16 : Shape := ⟨2, ![16, 16]⟩
abbrev S16x64 : Shape := ⟨2, ![16, 64]⟩
abbrev S64 : Shape := ⟨1, ![64]⟩
abbrev S_ : Shape := ⟨0, ![]⟩
abbrev S1x3200000 : Shape := ⟨2, ![1, 3200000]⟩
abbrev S3200000 : Shape := ⟨1, ![3200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S80x16 : S_.BroadcastsInDim S80x16 (![] : Fin 0 → Fin S80x16.rank)
  reducesTo_S80x16_S_d0_1 : S80x16.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S32x16 : S_.BroadcastsInDim S32x16 (![] : Fin 0 → Fin S32x16.rank)
  reducesTo_S32x16_S_d0_1 : S32x16.ReducesTo [0, 1] S_
  bcast_S_S16x16 : S_.BroadcastsInDim S16x16 (![] : Fin 0 → Fin S16x16.rank)
  reducesTo_S16x16_S_d0_1 : S16x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x3200000 32) (main_arg12 : FVec F S64 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x3200000 32 := (extractStridedSlice S1x3200000 ![0, 0] · slices_S2x3200000_S1x3200000_0_0) main_arg1
  let main_v60 : IVec S3200000 32 := shapeCast S3200000 main_v59 shapeCasts_S1x3200000_S3200000
  let main_c_22 : IVec S_ 32 := constantI S_ 32 4294867296#32
  let main_v61 : IVec S3200000 32 := broadcastInDim S3200000 ![] bcast_S_S3200000 main_c_22
  let main_v62 : IVec S3200000 1 := cmpi .sge main_v60 main_v61
  let main_v63 : IVec S1x3200000 32 := (extractStridedSlice S1x3200000 ![0, 0] · slices_S2x3200000_S1x3200000_0_0) main_arg1
  let main_v64 : IVec S3200000 32 := shapeCast S3200000 main_v63 shapeCasts_S1x3200000_S3200000
  let main_c_23 : IVec S_ 32 := constantI S_ 32 100000#32
  let main_v65 : IVec S3200000 32 := broadcastInDim S3200000 ![] bcast_S_S3200000 main_c_23
  let main_v66 : IVec S3200000 1 := cmpi .slt main_v64 main_v65
  let main_v67 : IVec S3200000 1 := andi main_v62 main_v66
  let main_c_24 : IVec S_ 1 := constantI S_ 1 1#1
  let main_v68 : IVec S_ 1 := (fun x v => Host.reduce IntOp.andi x v reducesTo_S3200000_S_d0 h_S_) main_v67 main_c_24
  fn_part4 (F := F) main_v58 main_v68

def fn_part2 {F : FTy → Type} [FloatOps F] (main_arg1 : IVec S2x3200000 32) (main_arg8 : FVec F S16 .f32) (main_arg9 : FVec F S16x16 .f32) (main_arg10 : FVec F S16 .f32) (main_arg11 : FVec F S16x64 .f32) (main_arg12 : FVec F S64 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x64 .f32 := Host.absf main_arg11
  let main_cst_18 : FVec F S_ .f32 := constant S_ .f32 0x7F800000#32
  let main_v50 : FVec F S16x64 .f32 := broadcastInDim S16x64 ![] bcast_S_S16x64 main_cst_18
  fn_part3 (F := F) main_arg1 main_arg12 main_v48 main_v49 main_v50

def fn_part1 {F : FTy → Type} [FloatOps F] (main_arg1 : IVec S2x3200000 32) (main_arg5 : FVec F S64x16 .f32) (main_arg6 : FVec F S16 .f32) (main_arg7 : FVec F S32x16 .f32) (main_arg8 : FVec F S16 .f32) (main_arg9 : FVec F S16x16 .f32) (main_arg10 : FVec F S16 .f32) (main_arg11 : FVec F S16x64 .f32) (main_arg12 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x64 .f32) (main_arg1 : IVec S2x3200000 32) (main_arg2 : FVec F S3200000x16 .f32) (main_arg3 : FVec F S80x16 .f32) (main_arg4 : FVec F S16 .f32) (main_arg5 : FVec F S64x16 .f32) (main_arg6 : FVec F S16 .f32) (main_arg7 : FVec F S32x16 .f32) (main_arg8 : FVec F S16 .f32) (main_arg9 : FVec F S16x16 .f32) (main_arg10 : FVec F S16 .f32) (main_arg11 : FVec F S16x64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S80x16 .f32 := Host.absf main_arg3
  let main_cst_2 : FVec F S_ .f32 := constant S_ .f32 0x7F800000#32
  let main_v10 : FVec F S80x16 .f32 := broadcastInDim S80x16 ![] bcast_S_S80x16 main_cst_2
  let main_v11 : IVec S80x16 1 := cmpf .olt main_v9 main_v10
  let main_c_3 : IVec S_ 1 := constantI S_ 1 1#1
  let main_v12 : IVec S_ 1 := (fun x v => Host.reduce IntOp.andi x v reducesTo_S80x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_v13 main_v16
-- ==== Kernel.lean ====
abbrev S100000x64 : Shape := ⟨2, ![100000, 64]⟩
abbrev S2x3200000 : Shape := ⟨2, ![2, 3200000]⟩
abbrev S3200000x16 : Shape := ⟨2, ![3200000, 16]⟩
abbrev S80x16 : Shape := ⟨2, ![80, 16]⟩
abbrev S16 : Shape := ⟨1, ![16]⟩
abbrev S64x16 : Shape := ⟨2, ![64, 16]⟩
abbrev S32x16 : Shape := ⟨2, ![32, 16]⟩
abbrev S16x16 : Shape := ⟨2, ![16, 16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S100000x16 : Shape := ⟨2, ![100000, 16]⟩
abbrev S3200000x1 : Shape := ⟨2, ![3200000, 1]⟩
abbrev S100000x1 : Shape := ⟨2, ![100000, 1]⟩
abbrev S5000x64 : Shape := ⟨2, ![5000, 64]⟩
abbrev S5000x16 : Shape := ⟨2, ![5000, 16]⟩
abbrev S1x16 : Shape := ⟨2, ![1, 16]⟩
abbrev S1 : Shape := ⟨1, ![1]⟩
abbrev S1x1 : Shape := ⟨2, ![1, 1]⟩
abbrev S5000x1 : Shape := ⟨2, ![5000, 1]⟩
abbrev S1x64 : Shape := ⟨2, ![1, 64]⟩

abbrev nBuf : Space → Nat
  | .hbm => 91
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000x16, .f32⟩
  | .hbm, ⟨3, _⟩ => ⟨S80x16, .f32⟩
  | .hbm, ⟨4, _⟩ => ⟨S16, .f32⟩
  | .hbm, ⟨5, _⟩ => ⟨S64x16, .f32⟩
  | .hbm, ⟨6, _⟩ => ⟨S16, .f32⟩
  | .hbm, ⟨7, _⟩ => ⟨S32x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x64, .f32⟩
  | .hbm, ⟨12, _⟩ => ⟨S64, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S64x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S_, .f32⟩
  | .hbm, ⟨26, _⟩ => ⟨S3200000x1, .f32⟩
  | .hbm, ⟨27, _⟩ => ⟨S_, .f32⟩
  | .hbm, ⟨28, _⟩ => ⟨S100000x1, .f32⟩
  | .hbm, ⟨29, _⟩ => ⟨S3200000x1, .i32⟩
  | .hbm, ⟨30, _⟩ => ⟨S100000x1, .f32⟩
  | .hbm, ⟨31, _⟩ => ⟨S100000x16, .f32⟩
  | .hbm, ⟨32, _⟩ => ⟨S100000x16, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S1, .i32⟩
  | .hbm, ⟨42, _⟩ => ⟨S_, .i32⟩
  | .hbm, ⟨43, _⟩ => ⟨S3200000x1, .i32⟩
  | .hbm, ⟨44, _⟩ => ⟨S3200000x1, .i1⟩
  | .hbm, ⟨45, _⟩ => ⟨S1x1, .i32⟩
  | .hbm, ⟨46, _⟩ => ⟨S3200000x1, .i32⟩
  | .hbm, ⟨47, _⟩ => ⟨S3200000x1, .i1⟩
  | .hbm, ⟨48, _⟩ => ⟨S3200000x1, .i1⟩
  | .hbm, ⟨49, _⟩ => ⟨S_, .i1⟩
  | .hbm, ⟨50, _⟩ => ⟨S3200000, .i1⟩
  | .hbm, ⟨51, _⟩ => ⟨S3200000x16, .f32⟩
  | .hbm, ⟨52, _⟩ => ⟨S3200000x16, .i1⟩
  | .hbm, ⟨53, _⟩ => ⟨S_, .f32⟩
  | .hbm, ⟨54, _⟩ => ⟨S3200000x16, .f32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S100000x16, .f32⟩
  | .hbm, ⟨61, _⟩ => ⟨S100000x16, .f32⟩
  | .hbm, ⟨62, _⟩ => ⟨S100000x16, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S1, .i32⟩
  | .hbm, ⟨72, _⟩ => ⟨S_, .i32⟩
  | .hbm, ⟨73, _⟩ => ⟨S3200000x1, .i32⟩
  | .hbm, ⟨74, _⟩ => ⟨S3200000x1, .i1⟩
  | .hbm, ⟨75, _⟩ => ⟨S1x1, .i32⟩
  | .hbm, ⟨76, _⟩ => ⟨S3200000x1, .i32⟩
  | .hbm, ⟨77, _⟩ => ⟨S3200000x1, .i1⟩
  | .hbm, ⟨78, _⟩ => ⟨S3200000x1, .i1⟩
  | .hbm, ⟨79, _⟩ => ⟨S_, .i1⟩
  | .hbm, ⟨80, _⟩ => ⟨S3200000, .i1⟩
  | .hbm, ⟨81, _⟩ => ⟨S3200000x16, .f32⟩
  | .hbm, ⟨82, _⟩ => ⟨S3200000x16, .i1⟩
  | .hbm, ⟨83, _⟩ => ⟨S_, .f32⟩
  | .hbm, ⟨84, _⟩ => ⟨S3200000x16, .f32⟩
  | .hbm, ⟨85, _⟩ => ⟨S3200000x16, .f32⟩
  | .hbm, ⟨86, _⟩ => ⟨S_, .f32⟩
  | .hbm, ⟨87, _⟩ => ⟨S100000x16, .f32⟩
  | .hbm, ⟨88, _⟩ => ⟨S3200000x1, .i32⟩
  | .hbm, ⟨89, _⟩ => ⟨S100000x16, .f32⟩
  | .hbm, ⟨90, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S64x16, .f32⟩
  | .local _ .vmem, ⟨4, _⟩ => ⟨S16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S5000x16, .f32⟩
  | .local _ .vmem, ⟨16, _⟩ => ⟨S5000x16, .f32⟩
  | .local _ .vmem, ⟨17, _⟩ => ⟨S16x16, .f32⟩
  | .local _ .vmem, ⟨18, _⟩ => ⟨S16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S16x16, .f32⟩
  | .local _ .vmem, ⟨24, _⟩ => ⟨S16x16, .f32⟩
  | .local _ .vmem, ⟨25, _⟩ => ⟨S16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S5000x1, .f32⟩
  | .local _ .vmem, ⟨35, _⟩ => ⟨S5000x1, .f32⟩
  | .local _ .vmem, ⟨36, _⟩ => ⟨S5000x16, .f32⟩
  | .local _ .vmem, ⟨37, _⟩ => ⟨S5000x16, .f32⟩
  | .local _ .vmem, ⟨38, _⟩ => ⟨S16x16, .f32⟩
  | .local _ .vmem, ⟨39, _⟩ => ⟨S16, .f32⟩
  | .local _ .vmem, ⟨40, _⟩ => ⟨S16x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v16 : Ref sig .tc := ⟨.hbm, 55, rfl⟩
abbrev main_cst_2 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21_0 : Ref sig .tc := ⟨.hbm, 61, rfl⟩
abbrev main_v21_1 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v22 : Ref sig .tc := ⟨.hbm, 85, rfl⟩
abbrev main_cst_3 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S80x16_S64x16_0_0 : S80x16.Slices ![0, 0] S64x16
  slices_S80x16_S16x16_64_0 : S80x16.Slices ![64, 0] S16x16
  slices_S32x16_S16x16_0_0 : S32x16.Slices ![0, 0] S16x16
  slices_S32x16_S16x16_16_0 : S32x16.Slices ![16, 0] S16x16
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S_S100000x1 : S_.BroadcastsInDim S100000x1 (![] : Fin 0 → Fin S100000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S5000x16_S5000x16_0_0 : ∀ a, (![0, 0] : Fin 2 → Nat) a + S5000x16.size a ≤ S5000x16.size a
  h_S5000x16 : 0 < S5000x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  bcast_S_S3200000 : S_.BroadcastsInDim S3200000 (![] : Fin 0 → Fin S3200000.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000x16_S3200000x1_S3200000x16_1_0_0_1_wf : ScatterDims.WF S100000x16 S3200000x1 S3200000x16 [1] [0] [0] 1
  scatter_S100000x1_S3200000x1_S3200000x1_1_0_0_1_wf : ScatterDims.WF S100000x1 S3200000x1 S3200000x1 [1] [0] [0] 1
  dot_S5000x64_S64x16_S5000x16_1_0_0_1_n_n_wf : DotDims.WF S5000x64 S64x16 S5000x16 [1] [0] [0] [1] [] []
  gather_S100000x16_S3200000x1_S3200000x16_1_0_n_n_0_1_116_wf : GatherDims.WF S100000x16 S3200000x1 S3200000x16 [1] [0] [] [0] [] 1 ![1, 16]
  dot_S5000x16_S16x16_S5000x16_1_0_0_1_n_n_wf : DotDims.WF S5000x16 S16x16 S5000x16 [1] [0] [0] [1] [] []
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16.size a ≤ S16.size a
  hwx3_5 : ∀ i : grid3.Coords, EltTy.bits .f32 = 32 ∨ (Rect.block (s := S16) S16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x64.size a ≤ S16x64.size a
  hwx3_6 : ∀ i : grid3.Coords, EltTy.bits .f32 = 32 ∨ (Rect.block (s := S16x64) S16x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S5000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21_0) S5000x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v21_1) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21_1) S5000x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S16x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v26) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000x16 : Shape := ⟨2, ![3200000, 16]⟩
abbrev S80x16 : Shape := ⟨2, ![80, 16]⟩
abbrev S16 : Shape := ⟨1, ![16]⟩
abbrev S64x16 : Shape := ⟨2, ![64, 16]⟩
abbrev S32x16 : Shape := ⟨2, ![32, 16]⟩
abbrev S16x16 : Shape := ⟨2, ![16, 16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S3200000x80 : Shape := ⟨2, ![3200000, 80]⟩
abbrev S1x16 : Shape := ⟨2, ![1, 16]⟩
abbrev S100000x16 : Shape := ⟨2, ![100000, 16]⟩
abbrev S3200000x32 : Shape := ⟨2, ![3200000, 32]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000x16, .f32⟩
  | .hbm, ⟨3, _⟩ => ⟨S80x16, .f32⟩
  | .hbm, ⟨4, _⟩ => ⟨S16, .f32⟩
  | .hbm, ⟨5, _⟩ => ⟨S64x16, .f32⟩
  | .hbm, ⟨6, _⟩ => ⟨S16, .f32⟩
  | .hbm, ⟨7, _⟩ => ⟨S32x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x64, .f32⟩
  | .hbm, ⟨12, _⟩ => ⟨S64, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .f32⟩
  | .hbm, ⟨26, _⟩ => ⟨S3200000x80, .f32⟩
  | .hbm, ⟨27, _⟩ => ⟨S3200000x16, .f32⟩
  | .hbm, ⟨28, _⟩ => ⟨S1x16, .f32⟩
  | .hbm, ⟨29, _⟩ => ⟨S3200000x16, .f32⟩
  | .hbm, ⟨30, _⟩ => ⟨S3200000x16, .f32⟩
  | .hbm, ⟨31, _⟩ => ⟨S_, .f32⟩
  | .hbm, ⟨32, _⟩ => ⟨S100000x16, .f32⟩
  | .hbm, ⟨33, _⟩ => ⟨S3200000x1, .i32⟩
  | .hbm, ⟨34, _⟩ => ⟨S100000x16, .f32⟩
  | .hbm, ⟨35, _⟩ => ⟨S100000x16, .f32⟩
  | .hbm, ⟨36, _⟩ => ⟨S1x16, .f32⟩
  | .hbm, ⟨37, _⟩ => ⟨S100000x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x16, .f32⟩
  | .hbm, ⟨52, _⟩ => ⟨S3200000x32, .f32⟩
  | .hbm, ⟨53, _⟩ => ⟨S3200000x16, .f32⟩
  | .hbm, ⟨54, _⟩ => ⟨S1x16, .f32⟩
  | .hbm, ⟨55, _⟩ => ⟨S3200000x16, .f32⟩
  | .hbm, ⟨56, _⟩ => ⟨S3200000x16, .f32⟩
  | .hbm, ⟨57, _⟩ => ⟨S_, .f32⟩
  | .hbm, ⟨58, _⟩ => ⟨S100000x16, .f32⟩
  | .hbm, ⟨59, _⟩ => ⟨S3200000x1, .i32⟩
  | .hbm, ⟨60, _⟩ => ⟨S100000x16, .f32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S100000x16, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x64_S3200000x16_S3200000x80_d1 : Shape.Concatenates [S3200000x64, S3200000x16] S3200000x80 1
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S100000x16 : S_.BroadcastsInDim S100000x16 (![] : Fin 0 → Fin S100000x16.rank)
  bcast_S1x16_S100000x16_0_1 : S1x16.BroadcastsInDim S100000x16 (![0, 1] : Fin 2 → Fin S100000x16.rank)
  concatenates_S3200000x16_S3200000x16_S3200000x32_d1 : Shape.Concatenates [S3200000x16, S3200000x16] S3200000x32 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  dot_S3200000x80_S80x16_S3200000x16_1_0_0_1_n_n_wf : DotDims.WF S3200000x80 S80x16 S3200000x16 [1] [0] [0] [1] [] []
  scatter_S100000x16_S3200000x1_S3200000x16_1_0_0_1_wf : ScatterDims.WF S100000x16 S3200000x1 S3200000x16 [1] [0] [0] 1
  dot_S100000x64_S64x16_S100000x16_1_0_0_1_n_n_wf : DotDims.WF S100000x64 S64x16 S100000x16 [1] [0] [0] [1] [] []
  gather_S100000x16_S3200000x1_S3200000x16_1_0_n_n_0_1_116_wf : GatherDims.WF S100000x16 S3200000x1 S3200000x16 [1] [0] [] [0] [] 1 ![1, 16]
  dot_S3200000x32_S32x16_S3200000x16_1_0_0_1_n_n_wf : DotDims.WF S3200000x32 S32x16 S3200000x16 [1] [0] [0] [1] [] []
  dot_S100000x16_S16x16_S100000x16_1_0_0_1_n_n_wf : DotDims.WF S100000x16 S16x16 S100000x16 [1] [0] [0] [1] [] []
  dot_S100000x16_S16x64_S100000x64_1_0_0_1_n_n_wf : DotDims.WF S100000x16 S16x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def dot_S3200000x80_S80x16_S3200000x16_1_0_0_1_n_n : DotDims S3200000x80 S80x16 S3200000x16 where
  lhsContracting := [1]
  rhsContracting := [0]
  lhsNonContracting := [0]
  rhsNonContracting := [1]
  lhsBatch := []
  rhsBatch := []
  wf := dot_S3200000x80_S80x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x16_S3200000x16_1_0_0_1_n_n : DotDims S3200000x32 S32x16 S3200000x16 where
  lhsContracting := [1]
  rhsContracting := [0]
  lhsNonContracting := [0]
  rhsNonContracting := [1]
  lhsBatch := []
  rhsBatch := []
  wf := dot_S3200000x32_S32x16_S3200000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf

class Facts : Prop extends Facts₀ where

variable [Facts]
-- ==== Proof.Spec.lean ====
/-
  The mathematics of the two-layer edge convolution, with no program in sight.

  A graph has 100000 nodes and 3200000 edges; edge `r` goes from node `src r` to the node its destination word
  `dst r` names (an edge whose word names no node contributes to nothing).  A layer sends along every edge the
  affine image `[a (src r), ea r] · W + b` of the source's features joined with the edge's features, sums at each
  node what arrives, and adds a skip term `a n · Ws + bs`; layer 1 ends in `max · 0`, and a last affine map follows
  layer 2.  That is `outR`.

  `outK` computes the same thing another way: it splits `W` into the rows `Wt` that meet the node features and the
  rows `Wb` that meet the edge features, multiplies the node features by `Wt` BEFORE they travel along the edges,
  sums the edge features at each node once (`sea`) and multiplies the sum by `Wb`, and accounts for the bias by
  the number of arriving edges (`deg`) times `b`.

  Over the reals the two agree: sums of products distribute.  Over the extended reals they agree wherever every
  input is a real number, because every operation used here (`+`, `*`, `max`, finite sums) commutes with the
  inclusion of the reals.  The definitions are written once, over any scalar type with these operations.
-/
import Idealize.ShloMosaic.PureOps.Ideal

noncomputable section

namespace Cert.EdgeConv

/-- The number of nodes. -/
abbrev NN : ℕ := 100000
/-- The number of edges. -/
abbrev NE : ℕ := 3200000

/-- The inputs read index by index, over a scalar type `R`. -/
structure Inputs (R : Type) where
  /-- each edge's destination word, read as a signed integer -/
  dst : Fin NE → ℤ
  /-- each edge's source node -/
  src : Fin NE → Fin NN
  x : Fin NN → Fin 64 → R
  ea : Fin NE → Fin 16 → R
  W1 : Fin 80 → Fin 16 → R
  b1 : Fin 16 → R
  Ws1 : Fin 64 → Fin 16 → R
  bs1 : Fin 16 → R
  W2 : Fin 32 → Fin 16 → R
  b2 : Fin 16 → R
  Ws2 : Fin 16 → Fin 16 → R
  bs2 : Fin 16 → R
  W3 : Fin 16 → Fin 64 → R
  b3 : Fin 64 → R

section Defs
variable {R : Type} [AddCommMonoid R] [Mul R] [One R] [Max R] (I : Inputs R)

/-- The sum of `f` over the edges whose destination is node `n`. -/
def seg (f : Fin NE → R) (n : Fin NN) : R := ∑ r : Fin NE, if I.dst r = (n.val : ℤ) then f r else 0

/-- The rows of `W1` that meet the node features, and those that meet the edge features; the same for `W2`. -/
def W1t (k : Fin 64) (j : Fin 16) : R := I.W1 ⟨k.val, Nat.lt_of_lt_of_le k.isLt (by decide)⟩ j
def W1b (k : Fin 16) (j : Fin 16) : R := I.W1 ⟨64 + k.val, Nat.add_lt_add_left k.isLt 64⟩ j
def W2t (k : Fin 16) (j : Fin 16) : R := I.W2 ⟨k.val, Nat.lt_of_lt_of_le k.isLt (by decide)⟩ j
def W2b (k : Fin 16) (j : Fin 16) : R := I.W2 ⟨16 + k.val, Nat.add_lt_add_left k.isLt 16⟩ j

/-- The edge features summed at each node, and the number of edges arriving at it. -/
def sea (n : Fin NN) (k : Fin 16) : R := seg I (fun r => I.ea r k) n
def deg (n : Fin NN) : R := seg I (fun _ => 1) n

/-- Node features times a weight matrix; the same plus a bias. -/
def xw {K : ℕ} (a : Fin NN → Fin K → R) (W : Fin K → Fin 16 → R) (n : Fin NN) (j : Fin 16) : R := ∑ k : Fin K, a n k * W k j
def skp {K : ℕ} (a : Fin NN → Fin K → R) (Ws : Fin K → Fin 16 → R) (bs : Fin 16 → R) (n : Fin NN) (j : Fin 16) : R :=
  (∑ k : Fin K, a n k * Ws k j) + bs j

/-- What arrives at node `n`, the split way: projected node features summed over the arriving edges, the summed
    edge features times `Wb`, the bias once per arriving edge. -/
def aggK {K : ℕ} (a : Fin NN → Fin K → R) (Wt : Fin K → Fin 16 → R) (Wb : Fin 16 → Fin 16 → R) (b : Fin 16 → R)
    (n : Fin NN) (j : Fin 16) : R :=
  (seg I (fun r => xw a Wt (I.src r) j) n + ∑ k : Fin 16, sea I n k * Wb k j) + deg I n * b j

def h1K (n : Fin NN) (j : Fin 16) : R := max (aggK I I.x (W1t I) (W1b I) I.b1 n j + skp I.x I.Ws1 I.bs1 n j) 0
def h2K (n : Fin NN) (j : Fin 16) : R := aggK I (h1K I) (W2t I) (W2b I) I.b2 n j + skp (h1K I) I.Ws2 I.bs2 n j
def outK (n : Fin NN) (q : Fin 64) : R := (∑ j : Fin 16, h2K I n j * I.W3 j q) + I.b3 q

/-- What arrives at node `n`, the direct way: per edge the joined features times `W`, plus `b`, summed. -/
def aggR {K : ℕ} (a : Fin NN → Fin K → R) (W : Fin (K + 16) → Fin 16 → R) (b : Fin 16 → R) (n : Fin NN) (j : Fin 16) : R :=
  seg I (fun r => (∑ k : Fin (K + 16), Fin.addCases (fun k' => a (I.src r) k') (fun k' => I.ea r k') k * W k j) + b j) n

def h1R (n : Fin NN) (j : Fin 16) : R := max (aggR I I.x I.W1 I.b1 n j + skp I.x I.Ws1 I.bs1 n j) 0
def h2R (n : Fin NN) (j : Fin 16) : R := aggR I (h1R I) I.W2 I.b2 n j + skp (h1R I) I.Ws2 I.bs2 n j
def outR (n : Fin NN) (q : Fin 64) : R := (∑ j : Fin 16, h2R I n j * I.W3 j q) + I.b3 q

end Defs

/-- Real inputs read as extended reals. -/
def Inputs.toE (J : Inputs ℝ) : Inputs EReal where
  dst := J.dst
  src := J.src
  x n k := (J.x n k : EReal)
  ea r k := (J.ea r k : EReal)
  W1 k j := (J.W1 k j : EReal)
  b1 j := (J.b1 j : EReal)
  Ws1 k j := (J.Ws1 k j : EReal)
  bs1 j := (J.bs1 j : EReal)
  W2 k j := (J.W2 k j : EReal)
  b2 j := (J.b2 j : EReal)
  Ws2 k j := (J.Ws2 k j : EReal)
  bs2 j := (J.bs2 j : EReal)
  W3 k j := (J.W3 k j : EReal)
  b3 j := (J.b3 j : EReal)

/-- Every entry of every array is a real number. -/
def Inputs.IsReal (I : Inputs EReal) : Prop := ∃ J : Inputs ℝ, I = J.toE

/-- Arrays with no infinite entry are real. -/
theorem Inputs.isReal_of_finite (I : Inputs EReal)
    (hx : ∀ n k, I.x n k ≠ ⊤ ∧ I.x n k ≠ ⊥) (hea : ∀ r k, I.ea r k ≠ ⊤ ∧ I.ea r k ≠ ⊥)
    (hW1 : ∀ k j, I.W1 k j ≠ ⊤ ∧ I.W1 k j ≠ ⊥) (hb1 : ∀ j, I.b1 j ≠ ⊤ ∧ I.b1 j ≠ ⊥)
    (hWs1 : ∀ k j, I.Ws1 k j ≠ ⊤ ∧ I.Ws1 k j ≠ ⊥) (hbs1 : ∀ j, I.bs1 j ≠ ⊤ ∧ I.bs1 j ≠ ⊥)
    (hW2 : ∀ k j, I.W2 k j ≠ ⊤ ∧ I.W2 k j ≠ ⊥) (hb2 : ∀ j, I.b2 j ≠ ⊤ ∧ I.b2 j ≠ ⊥)
    (hWs2 : ∀ k j, I.Ws2 k j ≠ ⊤ ∧ I.Ws2 k j ≠ ⊥) (hbs2 : ∀ j, I.bs2 j ≠ ⊤ ∧ I.bs2 j ≠ ⊥)
    (hW3 : ∀ k j, I.W3 k j ≠ ⊤ ∧ I.W3 k j ≠ ⊥) (hb3 : ∀ j, I.b3 j ≠ ⊤ ∧ I.b3 j ≠ ⊥) : I.IsReal := by
  obtain ⟨dst, src, x, ea, W1, b1, Ws1, bs1, W2, b2, Ws2, bs2, W3, b3⟩ := I
  refine ⟨⟨dst, src, fun n k => (x n k).toReal, fun r k => (ea r k).toReal, fun k j => (W1 k j).toReal,
    fun j => (b1 j).toReal, fun k j => (Ws1 k j).toReal, fun j => (bs1 j).toReal, fun k j => (W2 k j).toReal,
    fun j => (b2 j).toReal, fun k j => (Ws2 k j).toReal, fun j => (bs2 j).toReal, fun k j => (W3 k j).toReal,
    fun j => (b3 j).toReal⟩, ?_⟩
  simp only [Inputs.toE, Inputs.mk.injEq, true_and]
  refine ⟨?_, ?_, ?_, ?_, ?_, ?_, ?_, ?_, ?_, ?_, ?_, ?_⟩
  · funext n k; exact (EReal.coe_toReal (hx n k).1 (hx n k).2).symm
  · funext r k; exact (EReal.coe_toReal (hea r k).1 (hea r k).2).symm
  · funext k j; exact (EReal.coe_toReal (hW1 k j).1 (hW1 k j).2).symm
  · funext j; exact (EReal.coe_toReal (hb1 j).1 (hb1 j).2).symm
  · funext k j; exact (EReal.coe_toReal (hWs1 k j).1 (hWs1 k j).2).symm
  · funext j; exact (EReal.coe_toReal (hbs1 j).1 (hbs1 j).2).symm
  · funext k j; exact (EReal.coe_toReal (hW2 k j).1 (hW2 k j).2).symm
  · funext j; exact (EReal.coe_toReal (hb2 j).1 (hb2 j).2).symm
  · funext k j; exact (EReal.coe_toReal (hWs2 k j).1 (hWs2 k j).2).symm
  · funext j; exact (EReal.coe_toReal (hbs2 j).1 (hbs2 j).2).symm
  · funext k j; exact (EReal.coe_toReal (hW3 k j).1 (hW3 k j).2).symm
  · funext j; exact (EReal.coe_toReal (hb3 j).1 (hb3 j).2).symm

/-! ### The inclusion of the reals commutes with every operation of the definitions -/

/-- A finite sum of real numbers, read in the extended reals, is the sum of the readings. -/
private theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, read in the extended reals, is the larger of the readings. -/
private theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- Joining two real rows and then reading is reading and then joining. -/
private theorem addCases_coe {K : ℕ} (f : Fin K → ℝ) (g : Fin 16 → ℝ) (k : Fin (K + 16)) :
    (Fin.addCases (fun k' => (f k' : EReal)) (fun k' => (g k' : EReal)) k : EReal)
      = ((Fin.addCases (motive := fun _ => ℝ) f g k : ℝ) : EReal) := by
  refine Fin.addCases (fun i => ?_) (fun i => ?_) k
  · rw [Fin.addCases_left, Fin.addCases_left]
  · rw [Fin.addCases_right, Fin.addCases_right]

private theorem seg_toE (J : Inputs ℝ) (f : Fin NE → ℝ) (n : Fin NN) :
    seg J.toE (fun r => (f r : EReal)) n = ((seg J f n : ℝ) : EReal) := by
  unfold seg
  rw [coe_sum]
  refine Finset.sum_congr rfl (fun r _ => ?_)
  change (if J.dst r = (n.val : ℤ) then (f r : EReal) else 0) = _
  split_ifs <;> rfl

private theorem sea_toE (J : Inputs ℝ) (n : Fin NN) (k : Fin 16) : sea J.toE n k = ((sea J n k : ℝ) : EReal) :=
  seg_toE J (fun r => J.ea r k) n

private theorem deg_toE (J : Inputs ℝ) (n : Fin NN) : deg J.toE n = ((deg J n : ℝ) : EReal) :=
  seg_toE J (fun _ => 1) n

private theorem xw_toE {K : ℕ} (a : Fin NN → Fin K → ℝ) (W : Fin K → Fin 16 → ℝ) (n : Fin NN) (j : Fin 16) :
    xw (fun n k => (a n k : EReal)) (fun k j => (W k j : EReal)) n j = ((xw a W n j : ℝ) : EReal) := by
  unfold xw
  rw [coe_sum]
  exact Finset.sum_congr rfl (fun k _ => (EReal.coe_mul _ _).symm)

private theorem skp_toE {K : ℕ} (a : Fin NN → Fin K → ℝ) (Ws : Fin K → Fin 16 → ℝ) (bs : Fin 16 → ℝ) (n : Fin NN) (j : Fin 16) :
    skp (fun n k => (a n k : EReal)) (fun k j => (Ws k j : EReal)) (fun j => (bs j : EReal)) n j
      = ((skp a Ws bs n j : ℝ) : EReal) := by
  unfold skp
  rw [EReal.coe_add, coe_sum]
  exact congrArg₂ (· + ·) (Finset.sum_congr rfl (fun k _ => (EReal.coe_mul _ _).symm)) rfl

private theorem aggK_toE (J : Inputs ℝ) {K : ℕ} (a : Fin NN → Fin K → ℝ) (Wt : Fin K → Fin 16 → ℝ) (Wb : Fin 16 → Fin 16 → ℝ)
    (b : Fin 16 → ℝ) (n : Fin NN) (j : Fin 16) :
    aggK J.toE (fun n k => (a n k : EReal)) (fun k j => (Wt k j : EReal)) (fun k j => (Wb k j : EReal))
        (fun j => (b j : EReal)) n j
      = ((aggK J a Wt Wb b n j : ℝ) : EReal) := by
  unfold aggK
  rw [EReal.coe_add, EReal.coe_add, EReal.coe_mul, coe_sum, ← deg_toE, ← seg_toE]
  refine congrArg₂ (· + ·) (congrArg₂ (· + ·) ?_ ?_) rfl
  · exact congrArg (fun f => seg J.toE f n) (funext fun r => xw_toE a Wt (J.src r) j)
  · exact Finset.sum_congr rfl (fun k _ => by rw [EReal.coe_mul, ← sea_toE])

private theorem aggR_toE (J : Inputs ℝ) {K : ℕ} (a : Fin NN → Fin K → ℝ) (W : Fin (K + 16) → Fin 16 → ℝ) (b : Fin 16 → ℝ)
    (n : Fin NN) (j : Fin 16) :
    aggR J.toE (fun n k => (a n k : EReal)) (fun k j => (W k j : EReal)) (fun j => (b j : EReal)) n j
      = ((aggR J a W b n j : ℝ) : EReal) := by
  unfold aggR
  rw [← seg_toE]
  congr 1
  funext r
  rw [EReal.coe_add, coe_sum]
  congr 1
  refine Finset.sum_congr rfl (fun k _ => ?_)
  rw [EReal.coe_mul, ← addCases_coe]
  rfl

private theorem h1K_toE (J : Inputs ℝ) (n : Fin NN) (j : Fin 16) : h1K J.toE n j = ((h1K J n j : ℝ) : EReal) := by
  unfold h1K
  rw [coe_max, EReal.coe_add, ← aggK_toE, ← skp_toE]
  rfl

private theorem h1R_toE (J : Inputs ℝ) (n : Fin NN) (j : Fin 16) : h1R J.toE n j = ((h1R J n j : ℝ) : EReal) := by
  unfold h1R
  rw [coe_max, EReal.coe_add, ← aggR_toE, ← skp_toE]
  rfl

private theorem h2K_toE (J : Inputs ℝ) (n : Fin NN) (j : Fin 16) : h2K J.toE n j = ((h2K J n j : ℝ) : EReal) := by
  have e : h1K J.toE = fun n k => ((h1K J n k : ℝ) : EReal) := by
    funext n k; exact h1K_toE J n k
  unfold h2K
  rw [e, EReal.coe_add, ← aggK_toE, ← skp_toE]
  rfl

private theorem h2R_toE (J : Inputs ℝ) (n : Fin NN) (j : Fin 16) : h2R J.toE n j = ((h2R J n j : ℝ) : EReal) := by
  have e : h1R J.toE = fun n k => ((h1R J n k : ℝ) : EReal) := by
    funext n k; exact h1R_toE J n k
  unfold h2R
  rw [e, EReal.coe_add, ← aggR_toE, ← skp_toE]
  rfl

/-- The split form commutes with the inclusion of the reals. -/
theorem outK_toE (J : Inputs ℝ) (n : Fin NN) (q : Fin 64) : outK J.toE n q = ((outK J n q : ℝ) : EReal) := by
  unfold outK
  rw [EReal.coe_add, coe_sum]
  refine congrArg₂ (· + ·) (Finset.sum_congr rfl (fun j _ => ?_)) rfl
  rw [EReal.coe_mul, ← h2K_toE]
  rfl

/-- The direct form commutes with the inclusion of the reals. -/
theorem outR_toE (J : Inputs ℝ) (n : Fin NN) (q : Fin 64) : outR J.toE n q = ((outR J n q : ℝ) : EReal) := by
  unfold outR
  rw [EReal.coe_add, coe_sum]
  refine congrArg₂ (· + ·) (Finset.sum_congr rfl (fun j _ => ?_)) rfl
  rw [EReal.coe_mul, ← h2R_toE]
  rfl

/-! ### Over the reals the two forms agree -/

/-- One layer: multiplying before travelling, summing the edge features once and counting the arriving edges
    gives what multiplying the joined features edge by edge gives.  Both sides are sums over the edges that arrive
    at the node; the sum over the joined row splits where the node features end, and sums of products distribute. -/
private theorem aggK_eq_aggR (J : Inputs ℝ) {K : ℕ} (a : Fin NN → Fin K → ℝ) (W : Fin (K + 16) → Fin 16 → ℝ) (b : Fin 16 → ℝ)
    (n : Fin NN) (j : Fin 16) :
    aggK J a (fun k j => W (Fin.castAdd 16 k) j) (fun k j => W (Fin.natAdd K k) j) b n j = aggR J a W b n j := by
  unfold aggK aggR sea deg seg xw
  simp only [← Finset.sum_filter]
  generalize (Finset.univ.filter fun r : Fin NE => J.dst r = (n.val : ℤ)) = S
  have hsplit : ∀ r : Fin NE,
      (∑ k : Fin (K + 16), Fin.addCases (motive := fun _ => ℝ) (fun k' => a (J.src r) k') (fun k' => J.ea r k') k * W k j)
        = (∑ k : Fin K, a (J.src r) k * W (Fin.castAdd 16 k) j) + ∑ k : Fin 16, J.ea r k * W (Fin.natAdd K k) j := by
    intro r
    rw [Fin.sum_univ_add]
    congr 1
    · exact Finset.sum_congr rfl (fun k _ => by rw [Fin.addCases_left])
    · exact Finset.sum_congr rfl (fun k _ => by rw [Fin.addCases_right])
  simp only [hsplit, Finset.sum_add_distrib, Finset.sum_mul, one_mul]
  congr 2
  exact Finset.sum_comm

private theorem W1t_eq (J : Inputs ℝ) : W1t J = fun k j => J.W1 (Fin.castAdd 16 k) j := rfl
private theorem W1b_eq (J : Inputs ℝ) : W1b J = fun k j => J.W1 (Fin.natAdd 64 k) j := rfl
private theorem W2t_eq (J : Inputs ℝ) : W2t J = fun k j => J.W2 (Fin.castAdd 16 k) j := rfl
private theorem W2b_eq (J : Inputs ℝ) : W2b J = fun k j => J.W2 (Fin.natAdd 16 k) j := rfl

private theorem h1K_eq_h1R (J : Inputs ℝ) : h1K J = h1R J := by
  funext n j
  unfold h1K h1R
  rw [W1t_eq, W1b_eq, aggK_eq_aggR J (K := 64) J.x J.W1 J.b1 n j]

private theorem h2K_eq_h2R (J : Inputs ℝ) : h2K J = h2R J := by
  funext n j
  unfold h2K h2R
  rw [h1K_eq_h1R, W2t_eq, W2b_eq, aggK_eq_aggR J (K := 16) (h1R J) J.W2 J.b2 n j]

/-- Over the reals the two forms agree. -/
theorem outK_eq_outR_real (J : Inputs ℝ) (n : Fin NN) (q : Fin 64) : outK J n q = outR J n q := by
  unfold outK outR
  rw [h2K_eq_h2R]

/-- Over the extended reals the two forms agree on real inputs. -/
theorem outK_eq_outR (I : Inputs EReal) (h : I.IsReal) (n : Fin NN) (q : Fin 64) : outK I n q = outR I n q := by
  obtain ⟨J, rfl⟩ := h
  rw [outK_toE, outR_toE, outK_eq_outR_real]

end Cert.EdgeConv

end
-- ==== Proof.Inputs.lean ====
/-
  The thirteen argument arrays read as the inputs of the specification.

  The edge array has two rows of 32-bit words: row 0 the sources, row 1 the destinations.  A destination word is read
  as a signed integer (a word that names no node lands nowhere).  A source word is first normalised the way both
  programs do it before they index (`w + 100000` when `w` is negative, `w` otherwise) and then read signed and clamped into
  `[0, 99999]`, which is how a row gather reads its index.  Under the range condition `SrcOk` the clamp never binds.
-/
import proofs.«431509_j48661979464283_3_alg».proof.Proof.Spec
import Idealize.ShloMosaic.Lib.ValueIdx

noncomputable section

namespace Cert.EdgeConv

open Idealize.ShloMosaic Idealize.ShloMosaic.ValueIdx

/-- An array of extended reals of a literal shape, read as such (so that arithmetic on its entries is found). -/
abbrev arr (S : Shape) (a : S.Idx → EReal) : S.Idx → EReal := a
/-- An array of 32-bit words of a literal shape, read as such. -/
abbrev warr (S : Shape) (a : S.Idx → BitVec 32) : S.Idx → BitVec 32 := a

/-- A source word as both programs normalise it before indexing: a negative word counts from the end. -/
def normW (w : BitVec 32) : BitVec 32 := Scalar.select (IntOp.cmpi .slt w 0#32) (IntOp.addi w 100000#32) w

/-- A source word names a node, counting from the front or from the end. -/
def SrcOk (w : BitVec 32) : Prop := (-100000 : ℤ) ≤ w.toInt ∧ w.toInt < 100000

/-- The inputs of the specification, read off the argument arrays. -/
def inputsOf
    (a0 : (⟨2, ![100000, 64]⟩ : Shape).Idx → EReal) (a1 : IVec (⟨2, ![2, 3200000]⟩ : Shape) 32)
    (a2 : (⟨2, ![3200000, 16]⟩ : Shape).Idx → EReal) (a3 : (⟨2, ![80, 16]⟩ : Shape).Idx → EReal)
    (a4 : (⟨1, ![16]⟩ : Shape).Idx → EReal) (a5 : (⟨2, ![64, 16]⟩ : Shape).Idx → EReal)
    (a6 : (⟨1, ![16]⟩ : Shape).Idx → EReal) (a7 : (⟨2, ![32, 16]⟩ : Shape).Idx → EReal)
    (a8 : (⟨1, ![16]⟩ : Shape).Idx → EReal) (a9 : (⟨2, ![16, 16]⟩ : Shape).Idx → EReal)
    (a10 : (⟨1, ![16]⟩ : Shape).Idx → EReal) (a11 : (⟨2, ![16, 64]⟩ : Shape).Idx → EReal)
    (a12 : (⟨1, ![64]⟩ : Shape).Idx → EReal) : Inputs EReal where
  dst r := (a1 (ix2 (1 : Fin 2) r)).toInt
  src r := (⟨min (normW (a1 (ix2 (0 : Fin 2) r))).toInt.toNat (100000 - 1), by omega⟩ : Fin 100000)
  x n k := a0 (ix2 n k)
  ea r k := a2 (ix2 r k)
  W1 k j := a3 (ix2 k j)
  b1 j := a4 (ix1 j)
  Ws1 k j := a5 (ix2 k j)
  bs1 j := a6 (ix1 j)
  W2 k j := a7 (ix2 k j)
  b2 j := a8 (ix1 j)
  Ws2 k j := a9 (ix2 k j)
  bs2 j := a10 (ix1 j)
  W3 k j := a11 (ix2 k j)
  b3 j := a12 (ix1 j)

/-- Under the range condition the normalised word, read signed, is a node's number. -/
theorem normW_range (w : BitVec 32) (h : SrcOk w) : (0 : ℤ) ≤ (normW w).toInt ∧ (normW w).toInt ≤ 99999 := by
  obtain ⟨h1, h2⟩ := h
  have h0 : (0#32 : BitVec 32).toInt = 0 := by decide
  have hk : (100000#32 : BitVec 32).toInt = 100000 := by decide
  unfold normW Scalar.select IntOp.cmpi IntOp.addi
  simp only [BitVec.slt_eq_decide, h0]
  by_cases hneg : w.toInt < 0
  · have hadd : (w + 100000#32).toInt = w.toInt + 100000 := by
      rw [BitVec.toInt_add, hk]
      exact Int.bmod_eq_of_le (by omega) (by omega)
    rw [decide_eq_true hneg, BitVec.ofBool_true, if_pos rfl, hadd]
    omega
  · rw [decide_eq_false hneg, BitVec.ofBool_false, if_neg (by decide)]
    omega

end Cert.EdgeConv

end
-- ==== Proof.Region2.lean ====
/-
  The second node projection, the first one's sibling at 16 input features: after the region its two output arrays
  hold, at node `n` and column `j`, the node's 16 hidden features times a 16×16 weight matrix, for the second output
  plus a bias.  Stated at any contents `V` of the buffers on entry.
-/
import proofs.«431509_j48661979464283_3_alg».proof.Proof.Gen.KernelIdeal.Frame
import proofs.«431509_j48661979464283_3_alg».proof.Proof.Inputs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Cert.EdgeConv Idealize.ShloMosaic Idealize.ShloMosaic.TcCoe Idealize.SL.Sem
open Idealize.ShloMosaic.ValueIdx
open Idealize.ShloMosaic.Pipeline (Dat)

/- the contents of the TensorCore's buffers when the region is entered: any -/
variable (V : (c : Dev nD) → (b : Ref sig .tc) → Buf (Elt Ideal) ((c : Thread nD τ).loc b))

/-! ## The matrix product of a block, entry by entry -/

theorem proj2_lhs_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem proj2_lhs_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
theorem proj2_rhs_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
theorem proj2_rhs_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- A 5000×16 block times a 16×16 matrix into the zero accumulator, at row `p` and column `q`. -/
theorem proj2_matmul_apply (a : FVec Ideal S5000x16 .bf16) (b : FVec Ideal S16x16 .bf16) (p : Fin 5000) (q : Fin 16) :
    matmul dot_S5000x16_S16x16_S5000x16_1_0_0_1_n_n none a b (constant (F := Ideal) S5000x16 .f32 0x00000000#32) (ix2 p q)
      = ∑ k : Fin 16, a (ix2 p k) * b (ix2 k q) := by
  simp only [matmul]
  rw [Ideal.matmul_constant_zero_apply, ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q) ((ValueIdx.contrEquiv1 dot_S5000x16_S16x16_S5000x16_1_0_0_1_n_n 16 rfl rfl).symm k) = ix2 p k := funext fun a => Fin.ext (by
    match a with
    | ⟨0, _⟩ => exact proj2_lhs_0 _ _
    | ⟨1, _⟩ => exact (proj2_lhs_1 _ _).trans hk)
  have er : dot_S5000x16_S16x16_S5000x16_1_0_0_1_n_n.rhsIdx (ix2 p q) ((ValueIdx.contrEquiv1 dot_S5000x16_S16x16_S5000x16_1_0_0_1_n_n 16 rfl rfl).symm k) = ix2 k q := funext fun a => Fin.ext (by
    match a with
    | ⟨0, _⟩ => exact (proj2_rhs_0 _ _).trans hk
    | ⟨1, _⟩ => exact proj2_rhs_1 _ _)
  rw [el, er]

/-- The first output's payload: the block of hidden features times the weight matrix. -/
theorem proj2_pay2_apply (x0 : Vec Ideal S5000x16 .f32) (x1 : Vec Ideal S16x16 .f32) (p : Fin 5000) (q : Fin 16) :
    k2_pay2 x0 x1 (ix2 p q) = ∑ k : Fin 16, arr S5000x16 x0 (ix2 p k) * arr S16x16 x1 (ix2 k q) := by
  unfold k2_pay2 k2_pay1
  simp only [shapeCast_self]
  exact proj2_matmul_apply _ _ p q

/-- The second output's payload: the block of hidden features times the weight matrix, plus the bias row. -/
theorem proj2_pay3_apply (x0 : Vec Ideal S5000x16 .f32) (x2 : Vec Ideal S16x16 .f32) (x3 : Vec Ideal S16 .f32) (p : Fin 5000) (q : Fin 16) :
    k2_pay3 x0 x2 x3 (ix2 p q) = (∑ k : Fin 16, arr S5000x16 x0 (ix2 p k) * arr S16x16 x2 (ix2 k q)) + arr S16 x3 (ix1 q) := by
  unfold k2_pay3 k2_pay1
  simp only [shapeCast_self]
  show matmul dot_S5000x16_S16x16_S5000x16_1_0_0_1_n_n none _ _ (constant (F := Ideal) S5000x16 .f32 0x00000000#32) (ix2 p q) + broadcastTo S5000x16 (shapeCast S1x16 x3 shapeCasts_S16_S1x16) broadcasts_S1x16_S5000x16 (ix2 p q) = _
  rw [proj2_matmul_apply, broadcastTo_1b_ab_apply]
  congr 1
  refine (shapeCast_addUnit_apply ![16] x3 shapeCasts_S16_S1x16 (ix2 (0 : Fin 1) q)).trans ?_
  exact congrArg x3 (funext fun a => by match a with | ⟨0, _⟩ => rfl)

/-! ## From the blocks to the arrays -/

theorem proj2_zero2 : (![0, 0] : Fin 2 → Nat) = fun _ => 0 := funext fun a => by fin_cases a <;> rfl
theorem proj2_zero1 : (![0] : Fin 1 → Nat) = fun _ => 0 := funext fun a => by fin_cases a; rfl

/-- What the first output array ends holding: each node's hidden features times the weight matrix. -/
abbrev proj2G (x : S100000x16.Idx → EReal) (w : S16x16.Idx → EReal) : S100000x16.Idx → EReal :=
  fun i => ∑ k : Fin 16, x (ix2 (i 0) k) * w (ix2 k (i 1))

/-- What the second output array ends holding: the same product plus the bias of the column. -/
abbrev proj2BiasG (x : S100000x16.Idx → EReal) (w : S16x16.Idx → EReal) (b : S16.Idx → EReal) : S100000x16.Idx → EReal :=
  fun i => (∑ k : Fin 16, x (ix2 (i 0) k) * w (ix2 k (i 1))) + b (ix1 (i 1))

/-- The printed index maps, decided over the 20 points: the row-blocked windows are at block `t` on the rows and
    block 0 on the columns, the weights and the bias at block 0. -/
theorem proj2_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The first output's block after the body, from the input blocks, entry by entry. -/
theorem proj2_block4 (x0 : Vec Ideal S5000x16 .f32) (x1 x2 : Vec Ideal S16x16 .f32) (x3 : Vec Ideal S16 .f32) (p : Fin 5000) (q : Fin 16) :
    out2_4 x0 x1 x2 x3 (ix2 p q) = ∑ k : Fin 16, arr S5000x16 x0 (ix2 p k) * arr S16x16 x1 (ix2 k q) := by
  unfold out2_4
  rw [View.canon_unit_zero proj2_zero2]
  simp only [View.ld_unit_zero (S := S5000x16) proj2_zero2, View.ld_unit_zero (S := S16x16) proj2_zero2]
  exact proj2_pay2_apply x0 x1 p q

/-- What point `t` writes back to the first output is block `t` of `proj2G` of the arrays as the region finds them. -/
theorem proj2_flushed4 (c : Dev nD) (t : Fin cfg2.N) :
    (dat2 (F := Ideal) V c).flushed 4 t
      = ((cfg2.win 4).blk t).view.read (Elt Ideal) (proj2G (V c main_v20) (V c main_v6)) := by
  show (cfg2.win 4).cut (grid2.coords t) ((dat2 (F := Ideal) V c).after 4 t) = _
  rw [after2_4]
  obtain ⟨e00, e01, e10, e11, e20, e21, e30, e40, e41, e50, e51⟩ := proj2_index t
  funext y
  obtain ⟨p, q, rfl⟩ : ∃ (p : Fin 5000) (q : Fin 16), y = ix2 p q := ⟨y 0, y 1, eq_ix2 y⟩
  refine (proj2_block4 _ _ _ _ p q).trans ?_
  show (∑ k : Fin 16, arr S100000x16 (V c main_v20) (((cfg2.win 0).blk t).view.emb (ix2 p k)) * arr S16x16 (V c main_v6) (((cfg2.win 1).blk t).view.emb (ix2 k q)))
    = ∑ k : Fin 16, arr S100000x16 (V c main_v20) (ix2 ((((cfg2.win 4).blk t).view.emb (ix2 p q) : S100000x16.Idx) 0) k)
        * arr S16x16 (V c main_v6) (ix2 k ((((cfg2.win 4).blk t).view.emb (ix2 p q) : S100000x16.Idx) 1))
  refine Finset.sum_congr rfl fun k _ => ?_
  have h0 : (((cfg2.win 0).blk t).view.emb (ix2 p k) : S100000x16.Idx) = ix2 ((((cfg2.win 4).blk t).view.emb (ix2 p q) : S100000x16.Idx) 0) k := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 16 + 1 * k.val = k.val; omega
  have h1 : (((cfg2.win 1).blk t).view.emb (ix2 k q) : S16x16.Idx) = ix2 k ((((cfg2.win 4).blk t).view.emb (ix2 p q) : S100000x16.Idx) 1) := by
    funext a; apply Fin.ext
    match a with
    | ⟨0, _⟩ => show win2_1.index t (0 : Fin 2) * 16 + 1 * k.val = k.val; omega
    | ⟨1, _⟩ => show win2_1.index t (1 : Fin 2) * 16 + 1 * q.val = win2_4.index t (1 : Fin 2) * 16 + 1 * q.val; omega
  exact congr (congrArg _ (congrArg (arr S100000x16 (V c main_v20)) h0)) (congrArg (arr S16x16 (V c main_v6)) h1)

/-- An index of the first output array is in point `t`'s block iff each coordinate is in the block's range. -/
theorem proj2_mem_blk4 (t : Fin cfg2.N) (i : S100000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v21_0).slice (win2_4.rect t)).set ↔ _
  rw [View.set_slice_whole, Rect.mem_set_unit]
  exact Iff.rfl

/-- Every row is in the block of the point `row / 5000`. -/
theorem proj2_cover4 (i : S100000x16.Idx) :
    ∃ t : Fin cfg2.N, (cfg2.win 4).flush t = true ∧ i ∈ ((cfg2.win 4).blk t).view.set := by
  have hi0 : (i 0).val < 100000 := (i 0).isLt
  have hi1 : (i 1).val < 16 := (i 1).isLt
  have hN : grid2.N = 20 := N_2
  obtain ⟨t, ht⟩ : ∃ t : Fin cfg2.N, t.val = (i 0).val / 5000 := ⟨⟨(i 0).val / 5000, by show _ < grid2.N; omega⟩, rfl⟩
  obtain ⟨e00, e01, e10, e11, e20, e21, e30, e40, e41, e50, e51⟩ := proj2_index t
  refine ⟨t, flush2_4 t, ?_⟩
  rw [proj2_mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- The first output array after the region. -/
theorem proj2_final4 (c : Dev nD) :
    (dat2 (F := Ideal) V c).arrAt 4 cfg2.N = proj2G (V c main_v20) (V c main_v6) :=
  (dat2 (F := Ideal) V c).arrAt_eq_of_cover 4 (proj2G (V c main_v20) (V c main_v6)) (fun t _ => proj2_flushed4 V c t) proj2_cover4

/-- The second output's block after the body, from the input blocks, entry by entry. -/
theorem proj2_block5 (x0 : Vec Ideal S5000x16 .f32) (x1 x2 : Vec Ideal S16x16 .f32) (x3 : Vec Ideal S16 .f32) (p : Fin 5000) (q : Fin 16) :
    out2_5 x0 x1 x2 x3 (ix2 p q)
      = (∑ k : Fin 16, arr S5000x16 x0 (ix2 p k) * arr S16x16 x2 (ix2 k q)) + arr S16 x3 (ix1 q) := by
  unfold out2_5
  rw [View.canon_unit_zero proj2_zero2]
  simp only [View.ld_unit_zero (S := S5000x16) proj2_zero2, View.ld_unit_zero (S := S16x16) proj2_zero2,
    View.ld_unit_zero (S := S16) proj2_zero1]
  exact proj2_pay3_apply x0 x2 x3 p q

/-- What point `t` writes back to the second output is block `t` of `proj2BiasG` of the arrays as the region finds them. -/
theorem proj2_flushed5 (c : Dev nD) (t : Fin cfg2.N) :
    (dat2 (F := Ideal) V c).flushed 5 t
      = ((cfg2.win 5).blk t).view.read (Elt Ideal) (proj2BiasG (V c main_v20) (V c main_arg9) (V c main_arg10)) := by
  show (cfg2.win 5).cut (grid2.coords t) ((dat2 (F := Ideal) V c).after 5 t) = _
  rw [after2_5]
  obtain ⟨e00, e01, e10, e11, e20, e21, e30, e40, e41, e50, e51⟩ := proj2_index t
  funext y
  obtain ⟨p, q, rfl⟩ : ∃ (p : Fin 5000) (q : Fin 16), y = ix2 p q := ⟨y 0, y 1, eq_ix2 y⟩
  refine (proj2_block5 _ _ _ _ p q).trans ?_
  show (∑ k : Fin 16, arr S100000x16 (V c main_v20) (((cfg2.win 0).blk t).view.emb (ix2 p k)) * arr S16x16 (V c main_arg9) (((cfg2.win 2).blk t).view.emb (ix2 k q)))
        + arr S16 (V c main_arg10) (((cfg2.win 3).blk t).view.emb (ix1 q))
    = (∑ k : Fin 16, arr S100000x16 (V c main_v20) (ix2 ((((cfg2.win 5).blk t).view.emb (ix2 p q) : S100000x16.Idx) 0) k)
        * arr S16x16 (V c main_arg9) (ix2 k ((((cfg2.win 5).blk t).view.emb (ix2 p q) : S100000x16.Idx) 1)))
        + arr S16 (V c main_arg10) (ix1 ((((cfg2.win 5).blk t).view.emb (ix2 p q) : S100000x16.Idx) 1))
  have h3 : (((cfg2.win 3).blk t).view.emb (ix1 q) : S16.Idx) = ix1 ((((cfg2.win 5).blk t).view.emb (ix2 p q) : S100000x16.Idx) 1) := by
    funext a; apply Fin.ext
    match a with
    | ⟨0, _⟩ => show win2_3.index t (0 : Fin 1) * 16 + 1 * q.val = win2_5.index t (1 : Fin 2) * 16 + 1 * q.val; omega
  refine congr (congrArg _ (Finset.sum_congr rfl fun k _ => ?_)) (congrArg (arr S16 (V c main_arg10)) h3)
  have h0 : (((cfg2.win 0).blk t).view.emb (ix2 p k) : S100000x16.Idx) = ix2 ((((cfg2.win 5).blk t).view.emb (ix2 p q) : S100000x16.Idx) 0) k := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 16 + 1 * k.val = k.val; omega
  have h2 : (((cfg2.win 2).blk t).view.emb (ix2 k q) : S16x16.Idx) = ix2 k ((((cfg2.win 5).blk t).view.emb (ix2 p q) : S100000x16.Idx) 1) := by
    funext a; apply Fin.ext
    match a with
    | ⟨0, _⟩ => show win2_2.index t (0 : Fin 2) * 16 + 1 * k.val = k.val; omega
    | ⟨1, _⟩ => show win2_2.index t (1 : Fin 2) * 16 + 1 * q.val = win2_5.index t (1 : Fin 2) * 16 + 1 * q.val; omega
  exact congr (congrArg _ (congrArg (arr S100000x16 (V c main_v20)) h0)) (congrArg (arr S16x16 (V c main_arg9)) h2)

/-- An index of the second output array is in point `t`'s block iff each coordinate is in the block's range. -/
theorem proj2_mem_blk5 (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v21_1).slice (win2_5.rect t)).set ↔ _
  rw [View.set_slice_whole, Rect.mem_set_unit]
  exact Iff.rfl

/-- Every row is in the block of the point `row / 5000`. -/
theorem proj2_cover5 (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : grid2.N = 20 := N_2
  obtain ⟨t, ht⟩ : ∃ t : Fin cfg2.N, t.val = (i 0).val / 5000 := ⟨⟨(i 0).val / 5000, by show _ < grid2.N; omega⟩, rfl⟩
  obtain ⟨e00, e01, e10, e11, e20, e21, e30, e40, e41, e50, e51⟩ := proj2_index t
  refine ⟨t, flush2_5 t, ?_⟩
  rw [proj2_mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

/-- The second output array after the region. -/
theorem proj2_final5 (c : Dev nD) :
    (dat2 (F := Ideal) V c).arrAt 5 cfg2.N = proj2BiasG (V c main_v20) (V c main_arg9) (V c main_arg10) :=
  (dat2 (F := Ideal) V c).arrAt_eq_of_cover 5 (proj2BiasG (V c main_v20) (V c main_arg9) (V c main_arg10)) (fun t _ => proj2_flushed5 V c t) proj2_cover5

/-! ## The region's two outputs -/

/-- Output window 4: hidden features times the first weight window. -/
theorem reg2_xw (c : Dev nD) (n : Fin 100000) (j : Fin 16) :
    arr S100000x16 ((dat2 (F := Ideal) V c).arrAt 4 cfg2.N) (ix2 n j)
      = ∑ k : Fin 16, arr S100000x16 (V c main_v20) (ix2 n k) * arr S16x16 (V c main_v6) (ix2 k j) := by
  rw [proj2_final4]

/-- Output window 5: hidden features times the second weight window, plus the bias. -/
theorem reg2_skip (c : Dev nD) (n : Fin 100000) (j : Fin 16) :
    arr S100000x16 ((dat2 (F := Ideal) V c).arrAt 5 cfg2.N) (ix2 n j)
      = (∑ k : Fin 16, arr S100000x16 (V c main_v20) (ix2 n k) * arr S16x16 (V c main_arg9) (ix2 k j))
        + arr S16 (V c main_arg10) (ix1 j) := by
  rw [proj2_final5]

end Cert.KernelIdeal.Regions

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region3.lean ====
/-
  The end of layer 2 and the last affine map: with `h2 n j = ((sg + sea · Wb) + deg · b) + skip` as in layer 1 (no
  `max`), the output holds at node `n` and column `q` the sum over `j` of `h2 n j` times a 16×64 matrix, plus a bias.
  Stated at any contents `V` of the buffers on entry.
-/
import proofs.«431509_j48661979464283_3_alg».proof.Proof.Gen.KernelIdeal.Frame
import proofs.«431509_j48661979464283_3_alg».proof.Proof.Inputs
import proofs.«431509_j48661979464283_3_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Cert.EdgeConv Idealize.ShloMosaic Idealize.ShloMosaic.TcCoe Idealize.SL.Sem
open Idealize.ShloMosaic.ValueIdx
open Idealize.ShloMosaic.Pipeline (Dat)

/-! ## The two products of the body, read at an index -/

/-- The summed edge features times Wb: the left operand is read along its row. -/
theorem seaWb_lhs_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem seaWb_lhs_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
theorem seaWb_rhs_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
theorem seaWb_rhs_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- The product into a zero accumulator, at row p and column j, is the sum over k of a (p, k) * b (k, j). -/
theorem seaWb_apply (a : FVec Ideal S5000x16 .bf16) (b : FVec Ideal S16x16 .bf16) (p : Fin 5000) (j : Fin 16) :
    matmul dot_S5000x16_S16x16_S5000x16_1_0_0_1_n_n none a b (constant (F := Ideal) S5000x16 .f32 0x00000000#32) (ix2 p j)
      = ∑ k : Fin 16, a (ix2 p k) * b (ix2 k j) := by
  refine (Ideal.matmul_constant_zero_apply dot_S5000x16_S16x16_S5000x16_1_0_0_1_n_n none a b (ix2 p j)).trans ?_
  rw [← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p j) ((ValueIdx.contrEquiv1 dot_S5000x16_S16x16_S5000x16_1_0_0_1_n_n 16 rfl rfl).symm k) = ix2 p k := funext fun ax => Fin.ext (by
    match ax with
    | ⟨0, _⟩ => exact seaWb_lhs_0 _ _
    | ⟨1, _⟩ => exact (seaWb_lhs_1 _ _).trans hk)
  have er : dot_S5000x16_S16x16_S5000x16_1_0_0_1_n_n.rhsIdx (ix2 p j) ((ValueIdx.contrEquiv1 dot_S5000x16_S16x16_S5000x16_1_0_0_1_n_n 16 rfl rfl).symm k) = ix2 k j := funext fun ax => Fin.ext (by
    match ax with
    | ⟨0, _⟩ => exact (seaWb_rhs_0 _ _).trans hk
    | ⟨1, _⟩ => exact seaWb_rhs_1 _ _)
  rw [el, er]

/-- The last product, layer 2's features times the 16×64 matrix: the left operand is read along its row. -/
theorem h2W3_lhs_0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem h2W3_lhs_1 (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
theorem h2W3_rhs_0 (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
theorem h2W3_rhs_1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The product into a zero accumulator, at row p and column q, is the sum over j of a (p, j) * b (j, q). -/
theorem h2W3_apply (a : FVec Ideal S5000x16 .bf16) (b : FVec Ideal S16x64 .bf16) (p : Fin 5000) (q : Fin 64) :
    matmul dot_S5000x16_S16x64_S5000x64_1_0_0_1_n_n none a b (constant (F := Ideal) S5000x64 .f32 0x00000000#32) (ix2 p q)
      = ∑ j : Fin 16, a (ix2 p j) * b (ix2 j q) := by
  refine (Ideal.matmul_constant_zero_apply dot_S5000x16_S16x64_S5000x64_1_0_0_1_n_n none a b (ix2 p q)).trans ?_
  rw [← Equiv.sum_comp (ValueIdx.contrEquiv1 dot_S5000x16_S16x64_S5000x64_1_0_0_1_n_n 16 rfl rfl).symm]
  refine Finset.sum_congr rfl fun k _ => ?_
  have hk := ValueIdx.contrEquiv1_symm_val dot_S5000x16_S16x64_S5000x64_1_0_0_1_n_n 16 rfl rfl k
  have el : dot_S5000x16_S16x64_S5000x64_1_0_0_1_n_n.lhsIdx (ix2 p q) ((ValueIdx.contrEquiv1 dot_S5000x16_S16x64_S5000x64_1_0_0_1_n_n 16 rfl rfl).symm k) = ix2 p k := funext fun ax => Fin.ext (by
    match ax with
    | ⟨0, _⟩ => exact h2W3_lhs_0 _ _
    | ⟨1, _⟩ => exact (h2W3_lhs_1 _ _).trans hk)
  have er : dot_S5000x16_S16x64_S5000x64_1_0_0_1_n_n.rhsIdx (ix2 p q) ((ValueIdx.contrEquiv1 dot_S5000x16_S16x64_S5000x64_1_0_0_1_n_n 16 rfl rfl).symm k) = ix2 k q := funext fun ax => Fin.ext (by
    match ax with
    | ⟨0, _⟩ => exact (h2W3_rhs_0 _ _).trans hk
    | ⟨1, _⟩ => exact h2W3_rhs_1 _ _)
  rw [el, er]

/-! ## The body's value at an index -/

/-- A bias of 16 entries, given a leading unit axis and broadcast over 5000 rows, reads its entry at the column. -/
theorem rowBias16_apply (v : Vec Ideal S16 .f32) (p : Fin 5000) (j : Fin 16) :
    broadcastTo S5000x16 (shapeCast S1x16 v shapeCasts_S16_S1x16) broadcasts_S1x16_S5000x16 (ix2 p j) = v (ix1 j) := by
  refine (broadcastTo_1b_ab_apply _ broadcasts_S1x16_S5000x16 p j).trans ?_
  refine (shapeCast_addUnit_apply ![16] v shapeCasts_S16_S1x16 (ix2 (0 : Fin 1) j)).trans ?_
  exact congrArg v (funext fun d => by match d with | ⟨0, _⟩ => rfl)

/-- A bias of 64 entries, given a leading unit axis and broadcast over 5000 rows, reads its entry at the column. -/
theorem rowBias64_apply (v : Vec Ideal S64 .f32) (p : Fin 5000) (q : Fin 64) :
    broadcastTo S5000x64 (shapeCast S1x64 v shapeCasts_S64_S1x64) broadcasts_S1x64_S5000x64 (ix2 p q) = v (ix1 q) := by
  refine (broadcastTo_1b_ab_apply _ broadcasts_S1x64_S5000x64 p q).trans ?_
  refine (shapeCast_addUnit_apply ![64] v shapeCasts_S64_S1x64 (ix2 (0 : Fin 1) q)).trans ?_
  exact congrArg v (funext fun d => by match d with | ⟨0, _⟩ => rfl)

/-- The body's stored value at row p and column q of its block. -/
theorem pay_apply (v0 : Vec Ideal S5000x16 .f32) (v3 : Vec Ideal S16x16 .f32) (v7 : Vec Ideal S5000x1 .f32) (v9 : Vec Ideal S16 .f32)
    (v10 : Vec Ideal S5000x16 .f32) (v18 : Vec Ideal S5000x16 .f32) (v22 : Vec Ideal S16x64 .f32) (v25 : Vec Ideal S64 .f32)
    (p : Fin 5000) (q : Fin 64) :
    k3_pay1 (F := Ideal) v0 v3 v7 v9 v10 v18 v22 v25 (ix2 p q)
      = (∑ j : Fin 16,
          ((((arr S5000x16 v10 (ix2 p j)
              + ∑ k : Fin 16, arr S5000x16 v0 (ix2 p k) * arr S16x16 v3 (ix2 k j))
            + arr S5000x1 v7 (ix2 p (0 : Fin 1)) * arr S16 v9 (ix1 j))
          + arr S5000x16 v18 (ix2 p j))) * arr S16x64 v22 (ix2 j q))
        + arr S64 v25 (ix1 q) := by
  unfold k3_pay1
  simp only [shapeCast_self]
  refine (addf_apply _ _ (ix2 p q)).trans ?_
  refine congrArg₂ (· + ·) ?_ (rowBias64_apply v25 p q)
  refine (h2W3_apply _ _ p q).trans ?_
  refine Finset.sum_congr rfl fun j _ => ?_
  refine congrArg₂ (· * ·) ?_ rfl
  refine (truncf_apply (φ := .f32) (ψ := .bf16) _ bitsLt_bf16_f32 (ix2 p j)).trans ?_
  refine (addf_apply _ _ (ix2 p j)).trans ?_
  refine congrArg₂ (· + ·) ?_ rfl
  refine (addf_apply _ _ (ix2 p j)).trans ?_
  refine congrArg₂ (· + ·) ?_ ?_
  · refine (addf_apply _ _ (ix2 p j)).trans ?_
    refine congrArg₂ (· + ·) rfl ?_
    exact seaWb_apply _ _ p j
  · refine (mulf_apply _ _ (ix2 p j)).trans ?_
    exact congrArg₂ (· * ·) (broadcastTo_a1_ab_apply v7 broadcasts_S5000x1_S5000x16 p j) (rowBias16_apply v9 p j)

/-! ## From the twenty blocks to the array -/

/-- Zero offsets, however they are spelt. -/
theorem zeroOff2 : (![0, 0] : Fin 2 → Nat) = fun _ => 0 := funext fun a => by fin_cases a <;> rfl
theorem zeroOff1 : (![0] : Fin 1 → Nat) = fun _ => 0 := funext fun a => by fin_cases a <;> rfl

/-- The output at node n and column q, from the eight arrays the region reads: layer 2's features
    ((sg + sea · wb) + dg · b) + sk at node n, times the 16×64 matrix wl, plus the bias bl. -/
def finalAt (sg sea : S100000x16.Idx → EReal) (dg : S100000x1.Idx → EReal) (sk : S100000x16.Idx → EReal)
    (wb : S16x16.Idx → EReal) (b : S16.Idx → EReal) (wl : S16x64.Idx → EReal) (bl : S64.Idx → EReal)
    (n : Fin 100000) (q : Fin 64) : EReal :=
  (∑ j : Fin 16,
      ((((sg (ix2 n j) + ∑ k : Fin 16, sea (ix2 n k) * wb (ix2 k j)) + dg (ix2 n (0 : Fin 1)) * b (ix1 j)) + sk (ix2 n j)))
        * wl (ix2 j q))
    + bl (ix1 q)

/-- The same as one array of 100000 × 64 entries. -/
def finalMap (sg sea : S100000x16.Idx → EReal) (dg : S100000x1.Idx → EReal) (sk : S100000x16.Idx → EReal)
    (wb : S16x16.Idx → EReal) (b : S16.Idx → EReal) (wl : S16x64.Idx → EReal) (bl : S64.Idx → EReal) :
    S100000x64.Idx → EReal :=
  fun i => finalAt sg sea dg sk wb b wl bl (i 0) (i 1)

/-! The printed index maps, decided over the twenty grid points: the output's row block is the point's number, the
    four row-blocked inputs move with it, and the small arrays stay at block zero. -/

theorem idx_out : ∀ t : Fin cfg3.N, win3_8.index t (0 : Fin 2) = t.val ∧ win3_8.index t (1 : Fin 2) = 0 :=
  (by decide +kernel : ∀ t : Fin grid3.N, _)
theorem idx_sg : ∀ t : Fin cfg3.N, win3_0.index t (0 : Fin 2) = t.val ∧ win3_0.index t (1 : Fin 2) = 0 :=
  (by decide +kernel : ∀ t : Fin grid3.N, _)
theorem idx_sea : ∀ t : Fin cfg3.N, win3_1.index t (0 : Fin 2) = t.val ∧ win3_1.index t (1 : Fin 2) = 0 :=
  (by decide +kernel : ∀ t : Fin grid3.N, _)
theorem idx_dg : ∀ t : Fin cfg3.N, win3_2.index t (0 : Fin 2) = t.val ∧ win3_2.index t (1 : Fin 2) = 0 :=
  (by decide +kernel : ∀ t : Fin grid3.N, _)
theorem idx_sk : ∀ t : Fin cfg3.N, win3_3.index t (0 : Fin 2) = t.val ∧ win3_3.index t (1 : Fin 2) = 0 :=
  (by decide +kernel : ∀ t : Fin grid3.N, _)
theorem idx_wb : ∀ t : Fin cfg3.N, win3_4.index t (0 : Fin 2) = 0 ∧ win3_4.index t (1 : Fin 2) = 0 :=
  (by decide +kernel : ∀ t : Fin grid3.N, _)
theorem idx_b : ∀ t : Fin cfg3.N, win3_5.index t (0 : Fin 1) = 0 :=
  (by decide +kernel : ∀ t : Fin grid3.N, _)
theorem idx_wl : ∀ t : Fin cfg3.N, win3_6.index t (0 : Fin 2) = 0 ∧ win3_6.index t (1 : Fin 2) = 0 :=
  (by decide +kernel : ∀ t : Fin grid3.N, _)
theorem idx_bl : ∀ t : Fin cfg3.N, win3_7.index t (0 : Fin 1) = 0 :=
  (by decide +kernel : ∀ t : Fin grid3.N, _)

/-- A point's number is below twenty. -/
theorem point_lt (t : Fin cfg3.N) : t.val < 20 := lt_of_lt_of_eq t.isLt N_3

/- the contents of the TensorCore's buffers when the region is entered: any -/
variable (V : (c : Dev nD) → (b : Ref sig .tc) → Buf (Elt Ideal) ((c : Thread nD τ).loc b))

/-! Each staged block read at an index is its array read at the row 5000 t + p (the row-blocked windows) or at the
    same index (the arrays staged whole). -/

theorem blk_sg (c : Dev nD) (t : Fin cfg3.N) (p : Fin 5000) (j : Fin 16) (h : t.val * 5000 + p.val < 100000) :
    arr S5000x16 (iblk3 (F := Ideal) V c 0 t) (ix2 p j)
      = arr S100000x16 (V c main_v25) (ix2 (⟨t.val * 5000 + p.val, h⟩ : Fin 100000) j) := by
  obtain ⟨e0, e1⟩ := idx_sg t
  show V c main_v25 (((cfg3.win 0).blk t).view.emb (ix2 p j)) = V c main_v25 (ix2 (⟨t.val * 5000 + p.val, h⟩ : Fin 100000) j)
  refine congrArg (V c main_v25) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 16 + 1 * j.val = j.val; rw [e1]; omega

theorem blk_sea (c : Dev nD) (t : Fin cfg3.N) (p : Fin 5000) (j : Fin 16) (h : t.val * 5000 + p.val < 100000) :
    arr S5000x16 (iblk3 (F := Ideal) V c 1 t) (ix2 p j)
      = arr S100000x16 (V c main_v10) (ix2 (⟨t.val * 5000 + p.val, h⟩ : Fin 100000) j) := by
  obtain ⟨e0, e1⟩ := idx_sea t
  show V c main_v10 (((cfg3.win 1).blk t).view.emb (ix2 p j)) = V c main_v10 (ix2 (⟨t.val * 5000 + p.val, h⟩ : Fin 100000) j)
  refine congrArg (V c main_v10) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 16 + 1 * j.val = j.val; rw [e1]; omega

theorem blk_dg (c : Dev nD) (t : Fin cfg3.N) (p : Fin 5000) (h : t.val * 5000 + p.val < 100000) :
    arr S5000x1 (iblk3 (F := Ideal) V c 2 t) (ix2 p (0 : Fin 1))
      = arr S100000x1 (V c main_v14) (ix2 (⟨t.val * 5000 + p.val, h⟩ : Fin 100000) (0 : Fin 1)) := by
  obtain ⟨e0, e1⟩ := idx_dg t
  show V c main_v14 (((cfg3.win 2).blk t).view.emb (ix2 p (0 : Fin 1))) = V c main_v14 (ix2 (⟨t.val * 5000 + p.val, h⟩ : Fin 100000) (0 : Fin 1))
  refine congrArg (V c main_v14) (funext fun a => Fin.ext ?_)
  match a with
  | ⟨0, _⟩ => show win3_2.index t (0 : Fin 2) * 5000 + 1 * p.val = t.val * 5000 + p.val; rw [e0]; omega
  | ⟨1, _⟩ => show win3_2.index t (1 : Fin 2) * 1 + 1 * 0 = 0; rw [e1]

theorem blk_sk (c : Dev nD) (t : Fin cfg3.N) (p : Fin 5000) (j : Fin 16) (h : t.val * 5000 + p.val < 100000) :
    arr S5000x16 (iblk3 (F := Ideal) V c 3 t) (ix2 p j)
      = arr S100000x16 (V c main_v21_1) (ix2 (⟨t.val * 5000 + p.val, h⟩ : Fin 100000) j) := by
  obtain ⟨e0, e1⟩ := idx_sk t
  show V c main_v21_1 (((cfg3.win 3).blk t).view.emb (ix2 p j)) = V c main_v21_1 (ix2 (⟨t.val * 5000 + p.val, h⟩ : Fin 100000) j)
  refine congrArg (V c main_v21_1) (funext fun a => Fin.ext ?_)
  match a with
  | ⟨0, _⟩ => show win3_3.index t (0 : Fin 2) * 5000 + 1 * p.val = t.val * 5000 + p.val; rw [e0]; omega
  | ⟨1, _⟩ => show win3_3.index t (1 : Fin 2) * 16 + 1 * j.val = j.val; rw [e1]; omega

theorem blk_wb (c : Dev nD) (t : Fin cfg3.N) (k j : Fin 16) :
    arr S16x16 (iblk3 (F := Ideal) V c 4 t) (ix2 k j) = arr S16x16 (V c main_v7) (ix2 k j) := by
  obtain ⟨e0, e1⟩ := idx_wb t
  show V c main_v7 (((cfg3.win 4).blk t).view.emb (ix2 k j)) = V c main_v7 (ix2 k j)
  refine congrArg (V c main_v7) (funext fun a => Fin.ext ?_)
  match a with
  | ⟨0, _⟩ => show win3_4.index t (0 : Fin 2) * 16 + 1 * k.val = k.val; rw [e0]; omega
  | ⟨1, _⟩ => show win3_4.index t (1 : Fin 2) * 16 + 1 * j.val = j.val; rw [e1]; omega

theorem blk_b (c : Dev nD) (t : Fin cfg3.N) (j : Fin 16) :
    arr S16 (iblk3 (F := Ideal) V c 5 t) (ix1 j) = arr S16 (V c main_arg8) (ix1 j) := by
  have e0 := idx_b t
  show V c main_arg8 (((cfg3.win 5).blk t).view.emb (ix1 j)) = V c main_arg8 (ix1 j)
  refine congrArg (V c main_arg8) (funext fun a => Fin.ext ?_)
  match a with
  | ⟨0, _⟩ => show win3_5.index t (0 : Fin 1) * 16 + 1 * j.val = j.val; rw [e0]; omega

theorem blk_wl (c : Dev nD) (t : Fin cfg3.N) (j : Fin 16) (q : Fin 64) :
    arr S16x64 (iblk3 (F := Ideal) V c 6 t) (ix2 j q) = arr S16x64 (V c main_arg11) (ix2 j q) := by
  obtain ⟨e0, e1⟩ := idx_wl t
  show V c main_arg11 (((cfg3.win 6).blk t).view.emb (ix2 j q)) = V c main_arg11 (ix2 j q)
  refine congrArg (V c main_arg11) (funext fun a => Fin.ext ?_)
  match a with
  | ⟨0, _⟩ => show win3_6.index t (0 : Fin 2) * 16 + 1 * j.val = j.val; rw [e0]; omega
  | ⟨1, _⟩ => show win3_6.index t (1 : Fin 2) * 64 + 1 * q.val = q.val; rw [e1]; omega

theorem blk_bl (c : Dev nD) (t : Fin cfg3.N) (q : Fin 64) :
    arr S64 (iblk3 (F := Ideal) V c 7 t) (ix1 q) = arr S64 (V c main_arg12) (ix1 q) := by
  have e0 := idx_bl t
  show V c main_arg12 (((cfg3.win 7).blk t).view.emb (ix1 q)) = V c main_arg12 (ix1 q)
  refine congrArg (V c main_arg12) (funext fun a => Fin.ext ?_)
  match a with
  | ⟨0, _⟩ => show win3_7.index t (0 : Fin 1) * 64 + 1 * q.val = q.val; rw [e0]; omega

/-- What point t writes back is block t of finalMap of the arrays as the region finds them. -/
theorem flushed_eq (c : Dev nD) (t : Fin cfg3.N) :
    (dat3 (F := Ideal) V c).flushed 8 t
      = ((cfg3.win 8).blk t).view.read (Elt Ideal)
          (finalMap (V c main_v25) (V c main_v10) (V c main_v14) (V c main_v21_1) (V c main_v7) (V c main_arg8)
            (V c main_arg11) (V c main_arg12)) := by
  show (cfg3.win 8).cut (grid3.coords t) ((dat3 (F := Ideal) V c).after 8 t) = _
  rw [after3_8]
  unfold out3_8
  rw [View.canon_unit_zero zeroOff2]
  simp only [View.ld_unit_zero (S := S5000x16) zeroOff2, View.ld_unit_zero (S := S16x16) zeroOff2,
    View.ld_unit_zero (S := S5000x1) zeroOff2, View.ld_unit_zero (S := S16) zeroOff1,
    View.ld_unit_zero (S := S16x64) zeroOff2, View.ld_unit_zero (S := S64) zeroOff1]
  funext y
  obtain ⟨p, q, rfl⟩ : ∃ (p : Fin 5000) (q : Fin 64), y = ix2 p q := ⟨y 0, y 1, eq_ix2 y⟩
  refine (pay_apply (iblk3 V c 1 t) (iblk3 V c 4 t) (iblk3 V c 2 t) (iblk3 V c 5 t) (iblk3 V c 0 t) (iblk3 V c 3 t)
    (iblk3 V c 6 t) (iblk3 V c 7 t) p q).trans ?_
  have ht := point_lt t
  have hr : t.val * 5000 + p.val < 100000 := by have := p.isLt; omega
  obtain ⟨o0, o1⟩ := idx_out t
  have ho : ((cfg3.win 8).blk t).view.emb (ix2 p q) = ix2 (⟨t.val * 5000 + p.val, hr⟩ : Fin 100000) q := by
    funext a; apply Fin.ext
    match a with
    | ⟨0, _⟩ => show win3_8.index t (0 : Fin 2) * 5000 + 1 * p.val = t.val * 5000 + p.val; rw [o0]; omega
    | ⟨1, _⟩ => show win3_8.index t (1 : Fin 2) * 64 + 1 * q.val = q.val; rw [o1]; omega
  show _ = finalMap (V c main_v25) (V c main_v10) (V c main_v14) (V c main_v21_1) (V c main_v7) (V c main_arg8)
      (V c main_arg11) (V c main_arg12) (((cfg3.win 8).blk t).view.emb (ix2 p q))
  rw [ho]
  show _ = finalAt (V c main_v25) (V c main_v10) (V c main_v14) (V c main_v21_1) (V c main_v7) (V c main_arg8)
      (V c main_arg11) (V c main_arg12) (⟨t.val * 5000 + p.val, hr⟩ : Fin 100000) q
  unfold finalAt
  refine congrArg₂ (· + ·) (Finset.sum_congr rfl fun j _ => ?_) (blk_bl V c t q)
  refine congrArg₂ (· * ·) ?_ (blk_wl V c t j q)
  refine congrArg₂ (· + ·) (congrArg₂ (· + ·) (congrArg₂ (· + ·) (blk_sg V c t p j hr) ?_) ?_) (blk_sk V c t p j hr)
  · exact Finset.sum_congr rfl fun k _ => congrArg₂ (· * ·) (blk_sea V c t p k hr) (blk_wb V c t k j)
  · exact congrArg₂ (· * ·) (blk_dg V c t p hr) (blk_b V c t j)

/-- An index of the output array is in point t's block iff each coordinate is in the block's range on its axis. -/
theorem mem_blk (t : Fin cfg3.N) (i : S100000x64.Idx) :
    i ∈ ((cfg3.win 8).blk t).view.set
      ↔ ∀ a : Fin 2, win3_8.index t a * S5000x64.size a ≤ (i a).val ∧ (i a).val < win3_8.index t a * S5000x64.size a + S5000x64.size a := by
  show i ∈ ((View.whole main_v26).slice (win3_8.rect t)).set ↔ _
  rw [View.set_slice_whole, Rect.mem_set_unit]
  exact Iff.rfl

/-- Every index of the output array is in some point's block: row r is in the block of point r / 5000. -/
theorem covered (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  have ht : (i 0).val / 5000 < cfg3.N := lt_of_lt_of_eq (show (i 0).val / 5000 < 20 by omega) N_3.symm
  refine ⟨⟨(i 0).val / 5000, ht⟩, flush3_8 _, ?_⟩
  rw [mem_blk]
  have o0 : win3_8.index ⟨(i 0).val / 5000, ht⟩ (0 : Fin 2) = (i 0).val / 5000 := (idx_out ⟨(i 0).val / 5000, ht⟩).1
  have o1 : win3_8.index ⟨(i 0).val / 5000, ht⟩ (1 : Fin 2) = 0 := (idx_out ⟨(i 0).val / 5000, ht⟩).2
  intro a
  match a with
  | ⟨0, _⟩ =>
    show win3_8.index ⟨(i 0).val / 5000, ht⟩ (0 : Fin 2) * 5000 ≤ (i 0).val
      ∧ (i 0).val < win3_8.index ⟨(i 0).val / 5000, ht⟩ (0 : Fin 2) * 5000 + 5000
    rw [o0]; omega
  | ⟨1, _⟩ =>
    show win3_8.index ⟨(i 0).val / 5000, ht⟩ (1 : Fin 2) * 64 ≤ (i 1).val
      ∧ (i 1).val < win3_8.index ⟨(i 0).val / 5000, ht⟩ (1 : Fin 2) * 64 + 64
    rw [o1]; omega

/-- The output array after the region: finalMap of the eight arrays as the region finds them. -/
theorem final (c : Dev nD) :
    (dat3 (F := Ideal) V c).arrAt 8 cfg3.N
      = finalMap (V c main_v25) (V c main_v10) (V c main_v14) (V c main_v21_1) (V c main_v7) (V c main_arg8)
          (V c main_arg11) (V c main_arg12) :=
  (dat3 (F := Ideal) V c).arrAt_eq_of_cover 8
    (finalMap (V c main_v25) (V c main_v10) (V c main_v14) (V c main_v21_1) (V c main_v7) (V c main_arg8)
      (V c main_arg11) (V c main_arg12))
    (fun t _ => flushed_eq V c t) covered

/-- Output window 8. -/
theorem reg3_out (c : Dev nD) (n : Fin 100000) (q : Fin 64) :
    arr S100000x64 ((dat3 (F := Ideal) V c).arrAt 8 cfg3.N) (ix2 n q)
      = (∑ j : Fin 16,
          ((((arr S100000x16 (V c main_v25) (ix2 n j)
              + ∑ k : Fin 16, arr S100000x16 (V c main_v10) (ix2 n k) * arr S16x16 (V c main_v7) (ix2 k j))
            + arr S100000x1 (V c main_v14) (ix2 n (0 : Fin 1)) * arr S16 (V c main_arg8) (ix1 j))
          + arr S100000x16 (V c main_v21_1) (ix2 n j))) * arr S16x64 (V c main_arg11) (ix2 j q))
        + arr S64 (V c main_arg12) (ix1 q) := by
  exact congrFun (final V c) (ix2 n q)

end Cert.KernelIdeal.Regions

end
-- ==== Proof.LibScatterAdd.lean ====
/-
  The host's accumulating float scatter (`Host.scatterAdd`, at the ideal instance `Ideal.hostScatterAdd`) read at
  an index, at generic extents, for the two layouts a segment sum prints:
  `scatterAdd_rows` — an [N, D] matrix of updates scattered by rows onto a [C, D] operand, row `r` going to the row
  that entry `(r, 0)` of an [N, 1] column of 32-bit indices names (update window axis 1, inserted window axis 0,
  scatter axis 0, index vector axis 1): entry `(c, e)` of the result is the operand's plus the sum over the rows `r`
  whose index, read signed, is `c` of the update entry `(r, e)`;
  `scatterAdd_vec` — an [N] vector of updates scattered onto a [C] operand the same way.
  An index that, read signed, falls outside the operand's rows drops its update.
-/
import Idealize.ShloMosaic.PureOps.Ideal
import Idealize.ShloMosaic.Lib.ValueIdx
import Idealize.ShloMosaic.Lib.ValueIdxRank1

noncomputable section

namespace Cert.ScatterAdd

open Idealize.ShloMosaic Idealize.ShloMosaic.ValueIdx

/-! ## Rows of a matrix -/

section Rows
variable {C D N : ℕ}
  (wf : ScatterDims.WF (⟨2, ![C, D]⟩ : Shape) (⟨2, ![N, 1]⟩ : Shape) (⟨2, ![N, D]⟩ : Shape) [1] [0] [0] 1)

/-- The row scatter's dimension numbers: the updates' axis 1 is the window, the operand's axis 0 is inserted and is
    the one the index names. -/
abbrev rowsDims : ScatterDims (⟨2, ![C, D]⟩ : Shape) (⟨2, ![N, 1]⟩ : Shape) (⟨2, ![N, D]⟩ : Shape) :=
  ⟨[1], [0], [0], 1, wf⟩

/-- On the row axis the window starts at the row the index column names, read signed. -/
theorem rows_start0 (j : (⟨2, ![N, D]⟩ : Shape).Idx) (idx : IVec (⟨2, ![N, 1]⟩ : Shape) 32) :
    (rowsDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rows_start1 (j : (⟨2, ![N, D]⟩ : Shape).Idx) (idx : IVec (⟨2, ![N, 1]⟩ : Shape) 32) :
    (rowsDims wf).start j idx 1 = 0 := by
  unfold ScatterDims.start
  exact dif_neg (show (1 : Fin 2) ∉ ([0] : List (Fin 2)) by decide)

/-- The row axis is inserted: no window coordinate. -/
theorem rows_window0 (j : (⟨2, ![N, D]⟩ : Shape).Idx) : (rowsDims wf).window j 0 = 0 := by
  unfold ScatterDims.window
  exact dif_neg (show (0 : Fin 2) ∉ (List.finRange 2).filter (· ∉ ([0] : List (Fin 2))) by decide)

/-- The column axis carries the update's column. -/
theorem rows_window1 (j : (⟨2, ![N, D]⟩ : Shape).Idx) : (rowsDims wf).window j 1 = (j 1).val := by
  unfold ScatterDims.window
  exact (dif_pos (show (1 : Fin 2) ∈ (List.finRange 2).filter (· ∉ ([0] : List (Fin 2))) by decide)).trans rfl

/-- An update lands on entry `(c, e)` exactly when its row's index, read signed, is `c` and its column is `e`:
    the range conditions then hold because `c` is a row and `e` a column of the operand. -/
theorem rows_resultIdx_iff (j : (⟨2, ![N, D]⟩ : Shape).Idx) (idx : IVec (⟨2, ![N, 1]⟩ : Shape) 32)
    (c : Fin C) (e : Fin D) :
    (rowsDims wf).resultIdx? j idx = some (ix2 c e)
      ↔ (idx (ix2 (j 0) (0 : Fin 1))).toInt = (c.val : ℤ) ∧ (j 1).val = e.val := by
  have hs0 := rows_start0 wf j idx
  have hs1 := rows_start1 wf j idx
  have hw0 := rows_window0 wf j
  have hw1 := rows_window1 wf j
  have hj1 : (j 1).val < D := idx2_lt1 j
  have hc : c.val < C := c.isLt
  have he : e.val < D := e.isLt
  unfold ScatterDims.resultIdx?
  split
  · rename_i h
    rw [Option.some.injEq]
    constructor
    · intro hf
      have h0 : ((rowsDims wf).start j idx 0 + ((rowsDims wf).window j 0 : ℕ)).toNat = c.val :=
        congrArg Fin.val (congrFun hf 0)
      have h1 : ((rowsDims wf).start j idx 1 + ((rowsDims wf).window j 1 : ℕ)).toNat = e.val :=
        congrArg Fin.val (congrFun hf 1)
      have hh0 : 0 ≤ (rowsDims wf).start j idx 0 + ((rowsDims wf).window j 0 : ℕ) := (h 0).1
      rw [hs0, hw0] at h0 hh0
      rw [hs1, hw1] at h1
      omega
    · intro ⟨h0, h1⟩
      funext a
      refine Fin.ext ?_
      match a with
      | ⟨0, _⟩ =>
        show ((rowsDims wf).start j idx 0 + ((rowsDims wf).window j 0 : ℕ)).toNat = c.val
        rw [hs0, hw0]
        omega
      | ⟨1, _⟩ =>
        show ((rowsDims wf).start j idx 1 + ((rowsDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (rowsDims wf).start j idx 0 + ((rowsDims wf).window j 0 : ℕ)
          ∧ (rowsDims wf).start j idx 0 + ((rowsDims wf).window j 0 : ℕ) < (C : ℤ)
        rw [hs0, hw0]
        omega
      | ⟨1, _⟩ =>
        show 0 ≤ (rowsDims wf).start j idx 1 + ((rowsDims wf).window j 1 : ℕ)
          ∧ (rowsDims wf).start j idx 1 + ((rowsDims wf).window j 1 : ℕ) < (D : ℤ)
        rw [hs1, hw1]
        omega

end Rows

/-- Rows: update row `r` (all its columns) lands on operand row `idx r`; so entry `(c, e)` of the result is the
    operand's plus the sum of the entries `(r, e)` of the rows whose index is `c`. -/
theorem scatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Ideal.hostScatterAdd d x idx upd (ix2 c e)
      = x (ix2 c e) + ∑ r : Fin N, if (idx (ix2 r (0 : Fin 1))).toInt = (c.val : ℤ) then upd (ix2 r e) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun r _ => ?_
  refine ((Finset.sum_congr rfl fun e' _ => ?_).trans (Finset.sum_ite_eq' Finset.univ e
    (fun e' => if (idx (ix2 r (0 : Fin 1))).toInt = (c.val : ℤ) then upd (ix2 r e') else 0))).trans
    (if_pos (Finset.mem_univ e))
  have hiff : (rowsDims wf).resultIdx? (ix2 r e') idx = some (ix2 c e)
      ↔ (idx (ix2 r (0 : Fin 1))).toInt = (c.val : ℤ) ∧ e'.val = e.val :=
    rows_resultIdx_iff wf (ix2 r e') idx c e
  by_cases he : e' = e
  · subst he
    rw [if_pos rfl]
    exact if_congr (hiff.trans ⟨fun h => h.1, fun h => ⟨h, rfl⟩⟩) rfl rfl
  · rw [if_neg he]
    exact if_neg fun hh => he (Fin.ext (hiff.1 hh).2)

/-! ## Entries of a vector -/

section Vec
variable {C N : ℕ}
  (wf : ScatterDims.WF (⟨1, ![C]⟩ : Shape) (⟨2, ![N, 1]⟩ : Shape) (⟨1, ![N]⟩ : Shape) [] [0] [0] 1)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The entry scatter's dimension numbers: the updates have no window axis, the operand's one axis is inserted and
    is the one the index names. -/
abbrev vecDims : ScatterDims (⟨1, ![C]⟩ : Shape) (⟨2, ![N, 1]⟩ : Shape) (⟨1, ![N]⟩ : Shape) :=
  ⟨[], [0], [0], 1, wf⟩

/-- The window starts at the entry the index column names, read signed. -/
theorem vec_start0 (j : (⟨1, ![N]⟩ : Shape).Idx) (idx : IVec (⟨2, ![N, 1]⟩ : Shape) 32) :
    (vecDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's axis is inserted: no window coordinate. -/
theorem vec_window0 (j : (⟨1, ![N]⟩ : Shape).Idx) : (vecDims wf).window j 0 = 0 := by
  unfold ScatterDims.window
  exact dif_neg (show (0 : Fin 1) ∉ (List.finRange 1).filter (· ∉ ([0] : List (Fin 1))) by decide)

/-- An update lands on entry `c` exactly when its index, read signed, is `c`: the range condition then holds
    because `c` is an entry of the operand. -/
theorem vec_resultIdx_iff (j : (⟨1, ![N]⟩ : Shape).Idx) (idx : IVec (⟨2, ![N, 1]⟩ : Shape) 32) (c : Fin C) :
    (vecDims wf).resultIdx? j idx = some (ix1 c) ↔ (idx (ix2 (j 0) (0 : Fin 1))).toInt = (c.val : ℤ) := by
  have hs0 := vec_start0 wf j idx
  have hw0 := vec_window0 wf j
  have hc : c.val < C := c.isLt
  unfold ScatterDims.resultIdx?
  split
  · rename_i h
    rw [Option.some.injEq]
    constructor
    · intro hf
      have h0 : ((vecDims wf).start j idx 0 + ((vecDims wf).window j 0 : ℕ)).toNat = c.val :=
        congrArg Fin.val (congrFun hf 0)
      have hh0 : 0 ≤ (vecDims wf).start j idx 0 + ((vecDims wf).window j 0 : ℕ) := (h 0).1
      rw [hs0, hw0] at h0 hh0
      omega
    · intro h0
      funext a
      refine Fin.ext ?_
      match a with
      | ⟨0, _⟩ =>
        show ((vecDims wf).start j idx 0 + ((vecDims wf).window j 0 : ℕ)).toNat = c.val
        rw [hs0, hw0]
        omega
  · rename_i h
    constructor
    · intro hf
      exact absurd hf (by simp)
    · intro h0
      exfalso
      apply h
      intro a
      match a with
      | ⟨0, _⟩ =>
        show 0 ≤ (vecDims wf).start j idx 0 + ((vecDims wf).window j 0 : ℕ)
          ∧ (vecDims wf).start j idx 0 + ((vecDims wf).window j 0 : ℕ) < (C : ℤ)
        rw [hs0, hw0]
        omega

end Vec

/-- Entries of a vector: update entry `r` lands on operand entry `idx r`. -/
theorem scatterAdd_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → EReal) (idx : IVec (⟨2, ![N, 1]⟩ : Shape) 32)
    (upd : (⟨1, ![N]⟩ : Shape).Idx → EReal) (c : Fin C) :
    Ideal.hostScatterAdd d x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  unfold Ideal.hostScatterAdd
  congr 1
  rw [Finset.sum_filter, sum_idx1]
  refine Finset.sum_congr rfl fun r _ => ?_
  exact if_congr (vec_resultIdx_iff wf (ix1 r) idx c) rfl rfl

end Cert.ScatterAdd

end
-- ==== Proof.LibGatherRows.lean ====
/-
  The host's gather of whole rows, read at an index, at generic extents.
  `gather_rows_apply` — an [R, D] matrix indexed by an [N, 1] column of 32-bit words (`x[idx]` of a matrix: axis 1
  of the result an offset axis running over the whole row, the operand's axis 0 collapsed and named by the start
  index, the index vector on axis 1 of the start indices, slices of one row): entry `(n, j)` of the result is the
  operand at row `idx (n, 0)`, read signed and clamped into `[0, R - 1]`, and column `j`.
-/
import Idealize.ShloMosaic.PureOps.ShapeOps
import Idealize.ShloMosaic.Lib.ValueIdx

noncomputable section

namespace Cert.LibGatherRows

open Idealize.ShloMosaic Idealize.ShloMosaic.ValueIdx

/-- The dimension numbers of the row layout (operand `[R, D]`, start indices `[N, 1]`, result `[N, D]`). -/
private abbrev rowDims (R D N : ℕ)
    (wf : GatherDims.WF (⟨2, ![R, D]⟩ : Shape) (⟨2, ![N, 1]⟩ : Shape) (⟨2, ![N, D]⟩ : Shape) [1] [0] [] [0] [] 1 ![1, D]) :
    GatherDims (⟨2, ![R, D]⟩ : Shape) (⟨2, ![N, 1]⟩ : Shape) (⟨2, ![N, D]⟩ : Shape) :=
  ⟨[1], [0], [], [], [0], 1, ![1, D], wf⟩

/-- Rows of a matrix indexed by a column of words. Axis 0 of the operand is collapsed and named by the start index
    map (its start is the word `idx (n, 0)` read as a signed integer and clamped into `[0, R - 1]`, the slice being
    one row); axis 1 is the one kept axis, read by the result's offset axis 1 from start 0 (the slice is the whole
    row): entry `(n, j)` of the gather is the operand at that row and column `j`. -/
theorem gather_rows_apply {α : Type} {R D N : ℕ} (hR : 0 < R)
    (d : GatherDims (⟨2, ![R, D]⟩ : Shape) (⟨2, ![N, 1]⟩ : Shape) (⟨2, ![N, D]⟩ : Shape))
    (hod : d.offsetDims = [1]) (hcs : d.collapsedSliceDims = [0]) (hob : d.operandBatchingDims = [])
    (hsb : d.startIndicesBatchingDims = []) (hsim : d.startIndexMap = [0]) (hiv : d.indexVectorDim = 1)
    (hss : d.sliceSizes = ![1, D])
    (x : (⟨2, ![R, D]⟩ : Shape).Idx → α) (idx : IVec (⟨2, ![N, 1]⟩ : Shape) 32) (n : Fin N) (j : Fin D) :
    Host.gather d x idx (ix2 n j)
      = x (ix2 ⟨min (idx (ix2 n (0 : Fin 1))).toInt.toNat (R - 1), by omega⟩ j) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (rowDims R D N wf).start (ix2 n j) idx 0 + (rowDims R D N wf).batchCoord (ix2 n j) 0
      + (rowDims R D N wf).offCoord (ix2 n j) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R D N wf).startIndexMap from List.mem_singleton.mpr rfl)]
    have hsi : ∀ c, (rowDims R D N wf).siIdx (ix2 n j) c = ix2 n (0 : Fin 1) := by
      intro c
      funext b; refine Fin.ext ?_
      match b with
      | ⟨0, _⟩ => rfl
      | ⟨1, _⟩ => exact Nat.lt_one_iff.mp c.isLt
    rw [hsi]
    rfl
  | ⟨1, _⟩ =>
    show (rowDims R D N wf).start (ix2 n j) idx 1 + (rowDims R D N wf).batchCoord (ix2 n j) 1
      + (rowDims R D N wf).offCoord (ix2 n j) 1 = j.val
    have hns : (1 : Fin 2) ∉ (rowDims R D N wf).startIndexMap :=
      fun h => Nat.one_ne_zero (congrArg Fin.val (List.mem_singleton.mp h))
    rw [GatherDims.batchCoord_eq_zero _ _ _ List.not_mem_nil]
    unfold GatherDims.start
    rw [dif_neg hns]
    simp only [Nat.add_zero, Nat.zero_add]
    have hk : (1 : Fin 2) ∈ (rowDims R D N wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.LibGatherRows

end
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.KernelHost3.lean ====
/-
  The host operations between the third and the fourth region, read at an index, from any contents `W` of the
  buffers: the same masked row gather and row scatter-add as between the first two regions, of the second layer's
  projected features.
-/
import proofs.«431509_j48661979464283_3_alg».proof.Proof.Gen.KernelIdeal.Launch
import proofs.«431509_j48661979464283_3_alg».proof.Proof.Inputs
import proofs.«431509_j48661979464283_3_alg».proof.Proof.LibScatterAdd
import proofs.«431509_j48661979464283_3_alg».proof.Proof.LibGatherRows
import proofs.«431509_j48661979464283_3_alg».proof.Proof.LibCarry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host

open Cert.KernelIdeal Cert.KernelIdeal.Gen Cert.EdgeConv Idealize.ShloMosaic Idealize.ShloMosaic.TcCoe Idealize.SL.Sem
open Idealize.ShloMosaic.ValueIdx Idealize.ShloMosaic.StableHlo

/- the buffers' contents before the stretch: any -/
variable (W : Valuation τ sig (Elt Ideal))

/-! ## The stretch as a term over the contents before it -/

/-- The source words normalised (a negative word counted from the end), as a column. -/
private def colK (w : IVec S3200000 32) : IVec S3200000x1 32 :=
  broadcastInDim S3200000x1 ![0] bcast_S3200000_S3200000x1_0
    (select (cmpi .slt w (broadcastInDim S3200000 ![] bcast_S_S3200000 (constantI S_ 32 0#32)))
      (addi w (broadcastInDim S3200000 ![] bcast_S_S3200000 (constantI S_ 32 100000#32))) w)

/-- The range mask of the normalised words: `0 ≤ w ≤ 99999`, and-reduced over the unit axis. -/
private def maskK (w : IVec S3200000 32) : IVec S3200000 1 :=
  Host.reduce IntOp.andi
    (andi (cmpi .sge (colK w) (broadcastInDim S3200000x1 ![] bcast_S_S3200000x1 (constantI S_ 32 0#32)))
      (cmpi .sle (colK w) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The masked row gather: row `r` is the row of `x` the normalised word names where the mask is set, a
    not-a-number elsewhere. -/
private def takeK (x : FVec Ideal S100000x16 .f32) (w : IVec S3200000 32) : FVec Ideal S3200000x16 .f32 :=
  select (broadcastInDim S3200000x16 ![0] bcast_S3200000_S3200000x16_0 (maskK w))
    (Host.gather gather_S100000x16_S3200000x1_S3200000x16_1_0_n_n_0_1_116 x (colK w))
    (broadcastInDim S3200000x16 ![] bcast_S_S3200000x16 (constant (F := Ideal) S_ .f32 0x7FC00000#32))

/-- The gathered rows scatter-added onto zeros by the destination words. -/
private def sgK (x : FVec Ideal S100000x16 .f32) (w d : IVec S3200000 32) : FVec Ideal S100000x16 .f32 :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 d) (takeK x w)

/-! ## The term read at an index -/

/-- A fold by `and` over `i1` words that are all 1, from 1, is 1. -/
private theorem fold_andi_one {ι : Type} [DecidableEq ι] (S : Finset ι) (f : ι → BitVec 1)
    (h : ∀ i ∈ S, f i = 1#1) : S.fold IntOp.andi 1#1 f = 1#1 := by
  induction S using Finset.induction_on with
  | empty => rfl
  | insert a s ha ih =>
    rw [Finset.fold_insert ha, h a (Finset.mem_insert_self a s), ih fun i hi => h i (Finset.mem_insert_of_mem hi)]
    rfl

/-- A vector broadcast to a column reads, at `(r, 0)`, its entry `r`. -/
private theorem bcol_apply (d : IVec S3200000 32) (r : Fin 3200000) :
    broadcastInDim S3200000x1 ![0] bcast_S3200000_S3200000x1_0 d (ix2 r (0 : Fin 1)) = d (ix1 r) := by
  refine broadcastInDim_apply _ bcast_S3200000_S3200000x1_0 d (ix2 r (0 : Fin 1)) (ix1 r) fun a => ?_
  match a with
  | ⟨0, _⟩ => show r.val = if (3200000 : ℕ) = 1 then 0 else r.val; rw [if_neg (by decide)]

/-- Entry `(r, 0)` of the column is the source word of edge `r`, normalised. -/
private theorem colK_apply (w : IVec S3200000 32) (r : Fin 3200000) :
    colK w (ix2 r (0 : Fin 1)) = normW (w (ix1 r)) := by
  unfold colK
  rw [bcol_apply]
  rfl

/-- Where every source word names a node, the range mask is set at every edge: the normalised word lies in
    `[0, 99999]`, so both compares give 1 and the `and` over the unit axis, from 1, is 1. -/
private theorem maskK_apply (w : IVec S3200000 32) (hw : ∀ r : Fin 3200000, SrcOk (w (ix1 r))) (r : Fin 3200000) :
    maskK w (ix1 r) = 1#1 := by
  unfold maskK
  rw [Host.reduce_eq_fold]
  refine fold_andi_one _ _ fun i _ => ?_
  obtain ⟨a, b, rfl⟩ : ∃ a b, i = ix2 a b := ⟨i 0, i 1, eq_ix2 i⟩
  obtain rfl : b = 0 := Subsingleton.elim _ _
  have hr := normW_range _ (hw a)
  have h0 : (0#32 : BitVec 32).toInt = 0 := by decide
  have h9 : (99999#32 : BitVec 32).toInt = 99999 := by decide
  show IntOp.andi (IntOp.cmpi .sge (colK w (ix2 a (0 : Fin 1))) 0#32) (IntOp.cmpi .sle (colK w (ix2 a (0 : Fin 1))) 99999#32) = 1#1
  rw [colK_apply]
  exact IntOp.andi_eq_one.2 ⟨IntOp.cmpi_sge.2 (h0.trans_le hr.1), IntOp.cmpi_sle.2 (hr.2.trans_eq h9.symm)⟩

/-- Row `r` of the masked gather is the row of `x` that the normalised source word names. -/
private theorem takeK_apply (x : FVec Ideal S100000x16 .f32) (w : IVec S3200000 32)
    (hw : ∀ r : Fin 3200000, SrcOk (w (ix1 r))) (r : Fin 3200000) (j : Fin 16) :
    takeK x w (ix2 r j)
      = x (ix2 (⟨min (normW (w (ix1 r))).toInt.toNat (100000 - 1), by omega⟩ : Fin 100000) j) := by
  have hm : broadcastInDim S3200000x16 ![0] bcast_S3200000_S3200000x16_0 (maskK w) (ix2 r j) = 1#1 := by
    refine (broadcastInDim_apply _ bcast_S3200000_S3200000x16_0 (maskK w) (ix2 r j) (ix1 r) fun a => ?_).trans
      (maskK_apply w hw r)
    match a with
    | ⟨0, _⟩ => show r.val = if (3200000 : ℕ) = 1 then 0 else r.val; rw [if_neg (by decide)]
  unfold takeK
  show Scalar.select (broadcastInDim S3200000x16 ![0] bcast_S3200000_S3200000x16_0 (maskK w) (ix2 r j))
    (Host.gather gather_S100000x16_S3200000x1_S3200000x16_1_0_n_n_0_1_116 x (colK w) (ix2 r j)) _ = _
  rw [hm, Cert.LibGatherRows.gather_rows_apply (by decide) _ rfl rfl rfl rfl rfl rfl rfl]
  simp only [colK_apply]
  exact if_pos rfl

/-- At the ideal values the host's accumulating scatter is the sum form, for any shapes and dimension numbers. -/
private theorem hostScatterAdd_eq {s si su : Shape} {k : ℕ} (d : ScatterDims s si su) (x : FVec Ideal s .f32)
    (idx : IVec si k) (upd : FVec Ideal su .f32) :
    Host.scatterAdd d x idx upd = Ideal.hostScatterAdd d x idx upd := rfl

/-- The scatter-add of the gathered rows onto zeros, at `(n, j)`: the sum over the edges whose destination word is
    `n` of the gathered row's entry `j`. -/
private theorem sgK_apply (x : FVec Ideal S100000x16 .f32) (w d : IVec S3200000 32)
    (hw : ∀ r : Fin 3200000, SrcOk (w (ix1 r))) (n : Fin 100000) (j : Fin 16) :
    sgK x w d (ix2 n j)
      = ∑ r : Fin 3200000, if (d (ix1 r)).toInt = (n.val : ℤ)
          then x (ix2 (⟨min (normW (w (ix1 r))).toInt.toNat (100000 - 1), by omega⟩ : Fin 100000) j) else 0 := by
  unfold sgK
  rw [hostScatterAdd_eq, Cert.ScatterAdd.scatterAdd_rows _ rfl rfl rfl rfl]
  have hz : broadcastInDim S100000x16 ![] bcast_S_S100000x16 (constant (F := Ideal) S_ .f32 0x00000000#32) (ix2 n j) = 0 :=
    Ideal.ofBits_zero_f32
  rw [hz, zero_add]
  refine Finset.sum_congr rfl fun r _ => ?_
  rw [bcol_apply, takeK_apply x w hw r j]

/-- The result buffer of the two stretches is the scatter-add of the masked gather, as a term over the contents
    before them. -/
private theorem sg_eq : (after (hostOps3_1 (F := Ideal)) (after (hostOps3 (F := Ideal)) W) (Proc.devRef .tc main_v25) : FVec Ideal S100000x16 .f32)
    = sgK (W (Proc.devRef .tc main_v21_0)) (W (Proc.devRef .tc main_v1)) (W (Proc.devRef .tc main_v3)) := by
  unfold hostOps3
  simp only [TRef.nullary, TRef.unary, TRef.binary, TRef.ternary, TRef.toBuf, TRef.ofBuf, cast_eq]
  after_results_simp
  rfl

/-! ## The statement -/

/-- The gathered rows summed at each node.  Where every source word names a node the gather's range mask is all
    ones, so the masked gather is the gather: row `r` of it is the row of `main_v21_0` that the normalised source word
    names; the scatter-add onto zeros then sums, at node `n`, the rows of the edges whose destination word is `n`. -/
theorem host3_sg (hsrc : ∀ r : Fin 3200000, SrcOk (warr S3200000 (W (Proc.devRef .tc main_v1)) (ix1 r)))
    (n : Fin 100000) (j : Fin 16) :
    arr S100000x16 (after (hostOps3_1 (F := Ideal)) (after (hostOps3 (F := Ideal)) W) (Proc.devRef .tc main_v25)) (ix2 n j)
      = ∑ r : Fin 3200000, if (warr S3200000 (W (Proc.devRef .tc main_v3)) (ix1 r)).toInt = (n.val : ℤ)
          then arr S100000x16 (W (Proc.devRef .tc main_v21_0))
            (ix2 (⟨min (normW (warr S3200000 (W (Proc.devRef .tc main_v1)) (ix1 r))).toInt.toNat (100000 - 1), by omega⟩ : Fin 100000) j)
          else 0 := by
  exact (congrFun (sg_eq W) (ix2 n j)).trans (sgK_apply _ _ _ hsrc n j)

end Cert.KernelIdeal.Host

end
-- ==== Proof.Region0.lean ====
/-
  The first node projection (20 row blocks of 5000 nodes, weights staged whole): after the region its two output
  arrays hold, at node `n` and column `j`, the node's 64 features times a 64×16 weight matrix, for the second output
  plus a bias.  (A change of float format is the identity on the extended reals, and the matrix unit adds into a zero
  accumulator.)  Stated at any contents `V` of the buffers on entry.
-/
import proofs.«431509_j48661979464283_3_alg».proof.Proof.Gen.KernelIdeal.Frame
import proofs.«431509_j48661979464283_3_alg».proof.Proof.Inputs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Cert.EdgeConv Idealize.ShloMosaic Idealize.ShloMosaic.TcCoe Idealize.SL.Sem
open Idealize.ShloMosaic.ValueIdx
open Idealize.ShloMosaic.Pipeline (Dat)

/- the contents of the TensorCore's buffers when the region is entered: any -/
variable (V : (c : Dev nD) → (b : Ref sig .tc) → Buf (Elt Ideal) ((c : Thread nD τ).loc b))

/-! ## The matrix product of a block, entry by entry -/

theorem proj0_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem proj0_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem proj0_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem proj0_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- A 5000×64 block times a 64×16 matrix into the zero accumulator, at row `p` and column `q`. -/
theorem proj0_matmul_apply (a : FVec Ideal S5000x64 .bf16) (b : FVec Ideal S64x16 .bf16) (p : Fin 5000) (q : Fin 16) :
    matmul dot_S5000x64_S64x16_S5000x16_1_0_0_1_n_n none a b (constant (F := Ideal) S5000x16 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p q) ((ValueIdx.contrEquiv1 dot_S5000x64_S64x16_S5000x16_1_0_0_1_n_n 64 rfl rfl).symm k) = ix2 p k := funext fun a => Fin.ext (by
    match a with
    | ⟨0, _⟩ => exact proj0_lhs_0 _ _
    | ⟨1, _⟩ => exact (proj0_lhs_1 _ _).trans hk)
  have er : dot_S5000x64_S64x16_S5000x16_1_0_0_1_n_n.rhsIdx (ix2 p q) ((ValueIdx.contrEquiv1 dot_S5000x64_S64x16_S5000x16_1_0_0_1_n_n 64 rfl rfl).symm k) = ix2 k q := funext fun a => Fin.ext (by
    match a with
    | ⟨0, _⟩ => exact (proj0_rhs_0 _ _).trans hk
    | ⟨1, _⟩ => exact proj0_rhs_1 _ _)
  rw [el, er]

/-- The first output's payload: the block of features times the weight matrix. -/
theorem proj0_pay2_apply (x0 : Vec Ideal S5000x64 .f32) (x1 : Vec Ideal S64x16 .f32) (p : Fin 5000) (q : Fin 16) :
    k0_pay2 x0 x1 (ix2 p q) = ∑ k : Fin 64, arr S5000x64 x0 (ix2 p k) * arr S64x16 x1 (ix2 k q) := by
  unfold k0_pay2 k0_pay1
  rw [shapeCast_self]
  exact proj0_matmul_apply _ _ p q

/-- The second output's payload: the block of features times the weight matrix, plus the bias row. -/
theorem proj0_pay3_apply (x0 : Vec Ideal S5000x64 .f32) (x2 : Vec Ideal S64x16 .f32) (x3 : Vec Ideal S16 .f32) (p : Fin 5000) (q : Fin 16) :
    k0_pay3 x0 x2 x3 (ix2 p q) = (∑ k : Fin 64, arr S5000x64 x0 (ix2 p k) * arr S64x16 x2 (ix2 k q)) + arr S16 x3 (ix1 q) := by
  unfold k0_pay3 k0_pay1
  show matmul dot_S5000x64_S64x16_S5000x16_1_0_0_1_n_n none _ _ (constant (F := Ideal) S5000x16 .f32 0x00000000#32) (ix2 p q) + broadcastTo S5000x16 (shapeCast S1x16 x3 shapeCasts_S16_S1x16) broadcasts_S1x16_S5000x16 (ix2 p q) = _
  rw [proj0_matmul_apply, broadcastTo_1b_ab_apply]
  congr 1
  refine (shapeCast_addUnit_apply ![16] x3 shapeCasts_S16_S1x16 (ix2 (0 : Fin 1) q)).trans ?_
  exact congrArg x3 (funext fun a => by match a with | ⟨0, _⟩ => rfl)

/-! ## From the blocks to the arrays -/

theorem proj0_zero2 : (![0, 0] : Fin 2 → Nat) = fun _ => 0 := funext fun a => by fin_cases a <;> rfl
theorem proj0_zero1 : (![0] : Fin 1 → Nat) = fun _ => 0 := funext fun a => by fin_cases a; rfl

/-- What the first output array ends holding: each node's features times the weight matrix. -/
abbrev proj0G (x : S100000x64.Idx → EReal) (w : S64x16.Idx → EReal) : S100000x16.Idx → EReal :=
  fun i => ∑ k : Fin 64, x (ix2 (i 0) k) * w (ix2 k (i 1))

/-- What the second output array ends holding: the same product plus the bias of the column. -/
abbrev proj0BiasG (x : S100000x64.Idx → EReal) (w : S64x16.Idx → EReal) (b : S16.Idx → EReal) : S100000x16.Idx → EReal :=
  fun i => (∑ k : Fin 64, x (ix2 (i 0) k) * w (ix2 k (i 1))) + b (ix1 (i 1))

/-- The printed index maps, decided over the 20 points: the row-blocked windows are at block `t` on the rows and
    block 0 on the columns, the weights and the bias at block 0. -/
theorem proj0_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first output's block after the body, from the input blocks, entry by entry. -/
theorem proj0_block4 (x0 : Vec Ideal S5000x64 .f32) (x1 x2 : Vec Ideal S64x16 .f32) (x3 : Vec Ideal S16 .f32) (p : Fin 5000) (q : Fin 16) :
    out0_4 x0 x1 x2 x3 (ix2 p q) = ∑ k : Fin 64, arr S5000x64 x0 (ix2 p k) * arr S64x16 x1 (ix2 k q) := by
  unfold out0_4
  rw [View.canon_unit_zero proj0_zero2]
  simp only [View.ld_unit_zero (S := S5000x64) proj0_zero2, View.ld_unit_zero (S := S64x16) proj0_zero2]
  exact proj0_pay2_apply x0 x1 p q

/-- What point `t` writes back to the first output is block `t` of `proj0G` of the arrays as the region finds them. -/
theorem proj0_flushed4 (c : Dev nD) (t : Fin cfg0.N) :
    (dat0 (F := Ideal) V c).flushed 4 t
      = ((cfg0.win 4).blk t).view.read (Elt Ideal) (proj0G (V c main_arg0) (V c main_v4)) := by
  show (cfg0.win 4).cut (grid0.coords t) ((dat0 (F := Ideal) V c).after 4 t) = _
  rw [after0_4]
  obtain ⟨e00, e01, e10, e11, e20, e21, e30, e40, e41, e50, e51⟩ := proj0_index t
  funext y
  obtain ⟨p, q, rfl⟩ : ∃ (p : Fin 5000) (q : Fin 16), y = ix2 p q := ⟨y 0, y 1, eq_ix2 y⟩
  refine (proj0_block4 _ _ _ _ p q).trans ?_
  show (∑ k : Fin 64, arr S100000x64 (V c main_arg0) (((cfg0.win 0).blk t).view.emb (ix2 p k)) * arr S64x16 (V c main_v4) (((cfg0.win 1).blk t).view.emb (ix2 k q)))
    = ∑ k : Fin 64, arr S100000x64 (V c main_arg0) (ix2 ((((cfg0.win 4).blk t).view.emb (ix2 p q) : S100000x16.Idx) 0) k)
        * arr S64x16 (V c main_v4) (ix2 k ((((cfg0.win 4).blk t).view.emb (ix2 p q) : S100000x16.Idx) 1))
  refine Finset.sum_congr rfl fun k _ => ?_
  have h0 : (((cfg0.win 0).blk t).view.emb (ix2 p k) : S100000x64.Idx) = ix2 ((((cfg0.win 4).blk t).view.emb (ix2 p q) : S100000x16.Idx) 0) k := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  have h1 : (((cfg0.win 1).blk t).view.emb (ix2 k q) : S64x16.Idx) = ix2 k ((((cfg0.win 4).blk t).view.emb (ix2 p q) : S100000x16.Idx) 1) := by
    funext a; apply Fin.ext
    match a with
    | ⟨0, _⟩ => show win0_1.index t (0 : Fin 2) * 64 + 1 * k.val = k.val; omega
    | ⟨1, _⟩ => show win0_1.index t (1 : Fin 2) * 16 + 1 * q.val = win0_4.index t (1 : Fin 2) * 16 + 1 * q.val; omega
  exact congr (congrArg _ (congrArg (arr S100000x64 (V c main_arg0)) h0)) (congrArg (arr S64x16 (V c main_v4)) h1)

/-- An index of the first output array is in point `t`'s block iff each coordinate is in the block's range. -/
theorem proj0_mem_blk4 (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v15_0).slice (win0_4.rect t)).set ↔ _
  rw [View.set_slice_whole, Rect.mem_set_unit]
  exact Iff.rfl

/-- Every row is in the block of the point `row / 5000`. -/
theorem proj0_cover4 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨e00, e01, e10, e11, e20, e21, e30, e40, e41, e50, e51⟩ := proj0_index t
  refine ⟨t, flush0_4 t, ?_⟩
  rw [proj0_mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

/-- The first output array after the region. -/
theorem proj0_final4 (c : Dev nD) :
    (dat0 (F := Ideal) V c).arrAt 4 cfg0.N = proj0G (V c main_arg0) (V c main_v4) :=
  (dat0 (F := Ideal) V c).arrAt_eq_of_cover 4 (proj0G (V c main_arg0) (V c main_v4)) (fun t _ => proj0_flushed4 V c t) proj0_cover4

/-- The second output's block after the body, from the input blocks, entry by entry. -/
theorem proj0_block5 (x0 : Vec Ideal S5000x64 .f32) (x1 x2 : Vec Ideal S64x16 .f32) (x3 : Vec Ideal S16 .f32) (p : Fin 5000) (q : Fin 16) :
    out0_5 x0 x1 x2 x3 (ix2 p q)
      = (∑ k : Fin 64, arr S5000x64 x0 (ix2 p k) * arr S64x16 x2 (ix2 k q)) + arr S16 x3 (ix1 q) := by
  unfold out0_5
  rw [View.canon_unit_zero proj0_zero2]
  simp only [View.ld_unit_zero (S := S5000x64) proj0_zero2, View.ld_unit_zero (S := S64x16) proj0_zero2,
    View.ld_unit_zero (S := S16) proj0_zero1]
  exact proj0_pay3_apply x0 x2 x3 p q

/-- What point `t` writes back to the second output is block `t` of `proj0BiasG` of the arrays as the region finds them. -/
theorem proj0_flushed5 (c : Dev nD) (t : Fin cfg0.N) :
    (dat0 (F := Ideal) V c).flushed 5 t
      = ((cfg0.win 5).blk t).view.read (Elt Ideal) (proj0BiasG (V c main_arg0) (V c main_arg5) (V c main_arg6)) := by
  show (cfg0.win 5).cut (grid0.coords t) ((dat0 (F := Ideal) V c).after 5 t) = _
  rw [after0_5]
  obtain ⟨e00, e01, e10, e11, e20, e21, e30, e40, e41, e50, e51⟩ := proj0_index t
  funext y
  obtain ⟨p, q, rfl⟩ : ∃ (p : Fin 5000) (q : Fin 16), y = ix2 p q := ⟨y 0, y 1, eq_ix2 y⟩
  refine (proj0_block5 _ _ _ _ p q).trans ?_
  show (∑ k : Fin 64, arr S100000x64 (V c main_arg0) (((cfg0.win 0).blk t).view.emb (ix2 p k)) * arr S64x16 (V c main_arg5) (((cfg0.win 2).blk t).view.emb (ix2 k q)))
        + arr S16 (V c main_arg6) (((cfg0.win 3).blk t).view.emb (ix1 q))
    = (∑ k : Fin 64, arr S100000x64 (V c main_arg0) (ix2 ((((cfg0.win 5).blk t).view.emb (ix2 p q) : S100000x16.Idx) 0) k)
        * arr S64x16 (V c main_arg5) (ix2 k ((((cfg0.win 5).blk t).view.emb (ix2 p q) : S100000x16.Idx) 1)))
        + arr S16 (V c main_arg6) (ix1 ((((cfg0.win 5).blk t).view.emb (ix2 p q) : S100000x16.Idx) 1))
  have h3 : (((cfg0.win 3).blk t).view.emb (ix1 q) : S16.Idx) = ix1 ((((cfg0.win 5).blk t).view.emb (ix2 p q) : S100000x16.Idx) 1) := by
    funext a; apply Fin.ext
    match a with
    | ⟨0, _⟩ => show win0_3.index t (0 : Fin 1) * 16 + 1 * q.val = win0_5.index t (1 : Fin 2) * 16 + 1 * q.val; omega
  refine congr (congrArg _ (Finset.sum_congr rfl fun k _ => ?_)) (congrArg (arr S16 (V c main_arg6)) h3)
  have h0 : (((cfg0.win 0).blk t).view.emb (ix2 p k) : S100000x64.Idx) = ix2 ((((cfg0.win 5).blk t).view.emb (ix2 p q) : S100000x16.Idx) 0) k := by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  have h2 : (((cfg0.win 2).blk t).view.emb (ix2 k q) : S64x16.Idx) = ix2 k ((((cfg0.win 5).blk t).view.emb (ix2 p q) : S100000x16.Idx) 1) := by
    funext a; apply Fin.ext
    match a with
    | ⟨0, _⟩ => show win0_2.index t (0 : Fin 2) * 64 + 1 * k.val = k.val; omega
    | ⟨1, _⟩ => show win0_2.index t (1 : Fin 2) * 16 + 1 * q.val = win0_5.index t (1 : Fin 2) * 16 + 1 * q.val; omega
  exact congr (congrArg _ (congrArg (arr S100000x64 (V c main_arg0)) h0)) (congrArg (arr S64x16 (V c main_arg5)) h2)

/-- An index of the second output array is in point `t`'s block iff each coordinate is in the block's range. -/
theorem proj0_mem_blk5 (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v15_1).slice (win0_5.rect t)).set ↔ _
  rw [View.set_slice_whole, Rect.mem_set_unit]
  exact Iff.rfl

/-- Every row is in the block of the point `row / 5000`. -/
theorem proj0_cover5 (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨e00, e01, e10, e11, e20, e21, e30, e40, e41, e50, e51⟩ := proj0_index t
  refine ⟨t, flush0_5 t, ?_⟩
  rw [proj0_mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 16 ≤ (i 1).val ∧ (i 1).val < win0_5.index t (1 : Fin 2) * 16 + 16; omega

/-- The second output array after the region. -/
theorem proj0_final5 (c : Dev nD) :
    (dat0 (F := Ideal) V c).arrAt 5 cfg0.N = proj0BiasG (V c main_arg0) (V c main_arg5) (V c main_arg6) :=
  (dat0 (F := Ideal) V c).arrAt_eq_of_cover 5 (proj0BiasG (V c main_arg0) (V c main_arg5) (V c main_arg6)) (fun t _ => proj0_flushed5 V c t) proj0_cover5

/-! ## The region's two outputs -/

/-- Output window 4: features times the first weight window. -/
theorem reg0_xw (c : Dev nD) (n : Fin 100000) (j : Fin 16) :
    arr S100000x16 ((dat0 (F := Ideal) V c).arrAt 4 cfg0.N) (ix2 n j)
      = ∑ k : Fin 64, arr S100000x64 (V c main_arg0) (ix2 n k) * arr S64x16 (V c main_v4) (ix2 k j) := by
  rw [proj0_final4]

/-- Output window 5: features times the second weight window, plus the bias. -/
theorem reg0_skip (c : Dev nD) (n : Fin 100000) (j : Fin 16) :
    arr S100000x16 ((dat0 (F := Ideal) V c).arrAt 5 cfg0.N) (ix2 n j)
      = (∑ k : Fin 64, arr S100000x64 (V c main_arg0) (ix2 n k) * arr S64x16 (V c main_arg5) (ix2 k j))
        + arr S16 (V c main_arg6) (ix1 j) := by
  rw [proj0_final5]

end Cert.KernelIdeal.Regions

end
-- ==== Proof.Region1.lean ====
/-
  The end of layer 1: at node `n` and column `j` the output holds
  `max (((sg + sea · Wb) + deg · b) + skip) 0`: the gathered-and-summed projections `sg`, the summed edge features
  `sea` (row `n`, 16 of them) times a 16×16 matrix, the arriving-edge count `deg` (a column) times the bias, the skip
  term.  Stated at any contents `V` of the buffers on entry.
-/
import proofs.«431509_j48661979464283_3_alg».proof.Proof.Gen.KernelIdeal.Frame
import proofs.«431509_j48661979464283_3_alg».proof.Proof.Inputs
import proofs.«431509_j48661979464283_3_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Cert.EdgeConv Idealize.ShloMosaic Idealize.ShloMosaic.TcCoe Idealize.SL.Sem
open Idealize.ShloMosaic.ValueIdx
open Idealize.ShloMosaic.Pipeline (Dat)

/- the contents of the TensorCore's buffers when the region is entered: any -/
variable (V : (c : Dev nD) → (b : Ref sig .tc) → Buf (Elt Ideal) ((c : Thread nD τ).loc b))

namespace Layer1End

/-! ## The body at an index -/

/-- The product's left operand is read at the output's row … -/
theorem lhs_seaWb_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
/-- … and the summed column, -/
theorem lhs_seaWb_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
/-- the right operand at the summed row … -/
theorem rhs_seaWb_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
/-- … and the output's column. -/
theorem rhs_seaWb_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- The matrix product into a zero accumulator, at `(p, q)`: row `p` of the left operand against column `q` of the right. -/
theorem seaWb_apply (x : FVec Ideal S5000x16 .bf16) (w : FVec Ideal S16x16 .bf16) (p : Fin 5000) (q : Fin 16) :
    matmul (F := Ideal) dot_S5000x16_S16x16_S5000x16_1_0_0_1_n_n none x w (constant (F := Ideal) S5000x16 .f32 0x00000000#32) (ix2 p q)
      = ∑ k : Fin 16, x (ix2 p k) * w (ix2 k q) := by
  simp only [matmul]
  rw [Ideal.matmul_constant_zero_apply, ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q) ((ValueIdx.contrEquiv1 dot_S5000x16_S16x16_S5000x16_1_0_0_1_n_n 16 rfl rfl).symm k) = ix2 p k := funext fun a => Fin.ext (by
    match a with
    | ⟨0, _⟩ => exact lhs_seaWb_0 _ _
    | ⟨1, _⟩ => exact (lhs_seaWb_1 _ _).trans hk)
  have er : dot_S5000x16_S16x16_S5000x16_1_0_0_1_n_n.rhsIdx (ix2 p q) ((ValueIdx.contrEquiv1 dot_S5000x16_S16x16_S5000x16_1_0_0_1_n_n 16 rfl rfl).symm k) = ix2 k q := funext fun a => Fin.ext (by
    match a with
    | ⟨0, _⟩ => exact (rhs_seaWb_0 _ _).trans hk
    | ⟨1, _⟩ => exact rhs_seaWb_1 _ _)
  rw [el, er]

/-- The body's value at `(p, q)` of its block: the gathered sum plus row `p` of the summed edge features against column
    `q` of the matrix, plus the count of row `p` times the bias at `q`, plus the skip term, cut at zero from below. -/
theorem finish1_apply (v0 : Vec Ideal S5000x16 .f32) (v3 : Vec Ideal S16x16 .f32) (v7 : Vec Ideal S5000x1 .f32) (v9 : Vec Ideal S16 .f32)
    (v10 : Vec Ideal S5000x16 .f32) (v18 : Vec Ideal S5000x16 .f32) (p : Fin 5000) (q : Fin 16) :
    k1_pay1 (F := Ideal) v0 v3 v7 v9 v10 v18 (ix2 p q)
      = max ((((arr S5000x16 v10 (ix2 p q) + ∑ k : Fin 16, arr S5000x16 v0 (ix2 p k) * arr S16x16 v3 (ix2 k q))
          + arr S5000x1 v7 (ix2 p (0 : Fin 1)) * arr S16 v9 (ix1 q)) + arr S5000x16 v18 (ix2 p q))) 0 := by
  unfold k1_pay1
  rw [maximumf_apply, addf_apply, addf_apply, addf_apply, mulf_apply, broadcast_apply, seaWb_apply,
    broadcastTo_a1_ab_apply, broadcastTo_1b_ab_apply, shapeCast_a_1a_apply]
  simp only [shapeCast_self, truncf_apply]
  show max _ (Ideal.ofBits .f32 0x00000000#32) = _
  rw [Ideal.ofBits_zero_f32]

/-! ## From the blocks to the array -/

/-- The end of layer 1 at node `n` and column `j`, of the six arrays the region reads: the gathered sum, the summed edge
    features against the matrix, the count times the bias, the skip term, cut at zero from below. -/
def layer1End (sg sea : S100000x16.Idx → EReal) (deg : S100000x1.Idx → EReal) (skp : S100000x16.Idx → EReal)
    (wb : S16x16.Idx → EReal) (b : S16.Idx → EReal) (n : Fin 100000) (j : Fin 16) : EReal :=
  max ((((sg (ix2 n j) + ∑ k : Fin 16, sea (ix2 n k) * wb (ix2 k j)) + deg (ix2 n (0 : Fin 1)) * b (ix1 j)) + skp (ix2 n j))) 0

/-- The same as an array over the nodes and the columns. -/
def layer1EndArr (sg sea : S100000x16.Idx → EReal) (deg : S100000x1.Idx → EReal) (skp : S100000x16.Idx → EReal)
    (wb : S16x16.Idx → EReal) (b : S16.Idx → EReal) : S100000x16.Idx → EReal :=
  fun i => layer1End sg sea deg skp wb b (i 0) (i 1)

theorem zero2 : (![0, 0] : Fin 2 → Nat) = fun _ => 0 := funext fun a => by fin_cases a <;> rfl
theorem zero1 : (![0] : Fin 1 → Nat) = fun _ => 0 := funext fun a => by fin_cases a <;> rfl

/-- The body's value at `(p, q)` of a block is the end of layer 1 at `(n, j)` when the blocks hold, of the six arrays, the
    entries that `(n, j)` depends on: row `n` of the row-blocked ones at row `p`, column `j` of the matrix and the bias at `q`. -/
theorem finish1_block (sg sea : S100000x16.Idx → EReal) (deg : S100000x1.Idx → EReal) (skp : S100000x16.Idx → EReal)
    (wb : S16x16.Idx → EReal) (b : S16.Idx → EReal)
    (v0 : Vec Ideal S5000x16 .f32) (v3 : Vec Ideal S16x16 .f32) (v7 : Vec Ideal S5000x1 .f32) (v9 : Vec Ideal S16 .f32)
    (v10 : Vec Ideal S5000x16 .f32) (v18 : Vec Ideal S5000x16 .f32) (p : Fin 5000) (q : Fin 16) (n : Fin 100000) (j : Fin 16)
    (h10 : v10 (ix2 p q) = sg (ix2 n j)) (h0 : ∀ k : Fin 16, v0 (ix2 p k) = sea (ix2 n k))
    (h3 : ∀ k : Fin 16, v3 (ix2 k q) = wb (ix2 k j)) (h7 : v7 (ix2 p (0 : Fin 1)) = deg (ix2 n (0 : Fin 1)))
    (h9 : v9 (ix1 q) = b (ix1 j)) (h18 : v18 (ix2 p q) = skp (ix2 n j)) :
    k1_pay1 (F := Ideal) v0 v3 v7 v9 v10 v18 (ix2 p q) = layer1End sg sea deg skp wb b n j := by
  rw [finish1_apply]
  unfold layer1End
  show max ((((v10 (ix2 p q) + ∑ k : Fin 16, v0 (ix2 p k) * v3 (ix2 k q)) + v7 (ix2 p (0 : Fin 1)) * v9 (ix1 q)) + v18 (ix2 p q))) 0 = _
  rw [h10, h7, h9, h18, Finset.sum_congr rfl fun k _ => by rw [h0 k, h3 k]]

/-- The printed index maps, decided over the grid of twenty points: point `t` stages block row `t` of each row-blocked
    array and the whole of the matrix and of the bias. -/
theorem index1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- WHAT POINT `t` WRITES BACK is block `t` of the end of layer 1 of the six arrays as the region finds them. -/
theorem flushed1_eq (c : Dev nD) (t : Fin cfg1.N) :
    (dat1 (F := Ideal) V c).flushed 6 t = ((cfg1.win 6).blk t).view.read (Elt Ideal)
      (layer1EndArr (V c main_v19) (V c main_v10) (V c main_v14) (V c main_v15_1) (V c main_v5) (V c main_arg4)) := by
  show (cfg1.win 6).cut (grid1.coords t) ((dat1 V c).after 6 t) = _
  rw [after1_6]
  unfold out1_6
  rw [View.canon_unit_zero zero2]
  simp only [View.ld_unit_zero (S := S5000x16) zero2, View.ld_unit_zero (S := S16x16) zero2, View.ld_unit_zero (S := S5000x1) zero2,
    View.ld_unit_zero (S := S16) zero1]
  obtain ⟨a00, a01, a10, a11, a20, a21, a30, a31, a40, a41, a50, a60, a61⟩ := index1_facts t
  funext y
  obtain ⟨p, q, rfl⟩ : ∃ (p : Fin 5000) (q : Fin 16), y = ix2 p q := ⟨y 0, y 1, eq_ix2 y⟩
  show k1_pay1 (F := Ideal) (iblk1 V c 1 t) (iblk1 V c 4 t) (iblk1 V c 2 t) (iblk1 V c 5 t) (iblk1 V c 0 t) (iblk1 V c 3 t) (ix2 p q)
      = layer1End (V c main_v19) (V c main_v10) (V c main_v14) (V c main_v15_1) (V c main_v5) (V c main_arg4)
          ((((cfg1.win 6).blk t).view.emb (ix2 p q)) 0) ((((cfg1.win 6).blk t).view.emb (ix2 p q)) 1)
  refine finish1_block _ _ _ _ _ _ _ _ _ _ _ _ p q _ _ ?_ ?_ ?_ ?_ ?_ ?_
  · show V c main_v19 (((cfg1.win 0).blk t).view.emb (ix2 p q)) = _
    refine congrArg (V c main_v19 : S100000x16.Idx → EReal) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 16 + 1 * q.val = win1_6.index t (1 : Fin 2) * 16 + 1 * q.val; omega
  · intro k
    show V c main_v10 (((cfg1.win 1).blk t).view.emb (ix2 p k)) = _
    refine congrArg (V c main_v10 : S100000x16.Idx → EReal) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 16 + 1 * k.val = k.val; omega
  · intro k
    show V c main_v5 (((cfg1.win 4).blk t).view.emb (ix2 k q)) = _
    refine congrArg (V c main_v5 : S16x16.Idx → EReal) (funext fun a => Fin.ext ?_)
    match a with
    | ⟨0, _⟩ => show win1_4.index t (0 : Fin 2) * 16 + 1 * k.val = k.val; omega
    | ⟨1, _⟩ => show win1_4.index t (1 : Fin 2) * 16 + 1 * q.val = win1_6.index t (1 : Fin 2) * 16 + 1 * q.val; omega
  · show V c main_v14 (((cfg1.win 2).blk t).view.emb (ix2 p (0 : Fin 1))) = _
    refine congrArg (V c main_v14 : S100000x1.Idx → EReal) (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  · show V c main_arg4 (((cfg1.win 5).blk t).view.emb (ix1 q)) = _
    refine congrArg (V c main_arg4 : S16.Idx → EReal) (funext fun a => Fin.ext ?_)
    match a with
    | ⟨0, _⟩ => show win1_5.index t (0 : Fin 1) * 16 + 1 * q.val = win1_6.index t (1 : Fin 2) * 16 + 1 * q.val; omega
  · show V c main_v15_1 (((cfg1.win 3).blk t).view.emb (ix2 p q)) = _
    refine congrArg (V c main_v15_1 : S100000x16.Idx → EReal) (funext fun a => Fin.ext ?_)
    match a with
    | ⟨0, _⟩ => show win1_3.index t (0 : Fin 2) * 5000 + 1 * p.val = win1_6.index t (0 : Fin 2) * 5000 + 1 * p.val; omega
    | ⟨1, _⟩ => show win1_3.index t (1 : Fin 2) * 16 + 1 * q.val = win1_6.index t (1 : Fin 2) * 16 + 1 * q.val; omega

/-- An index of the array is in point `t`'s block iff each coordinate is in the block's range on its axis. -/
theorem mem_block1 (t : Fin cfg1.N) (i : S100000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v20).slice (win1_6.rect t)).set ↔ _
  rw [View.set_slice_whole, Rect.mem_set_unit]
  exact Iff.rfl

/-- Every row is in the block of some point: row `r` in that of point `r / 5000` (twenty blocks of 5000 rows are the
    100000 rows). -/
theorem cover1 (i : S100000x16.Idx) :
    ∃ t : Fin cfg1.N, (cfg1.win 6).flush t = true ∧ i ∈ ((cfg1.win 6).blk t).view.set := by
  have hN : cfg1.N = 20 := N_1
  have hi0 : (i 0).val < 100000 := idx2_lt0 i
  have hi1 : (i 1).val < 16 := idx2_lt1 i
  refine ⟨⟨(i 0).val / 5000, by rw [hN]; omega⟩, flush1_6 _, ?_⟩
  rw [mem_block1]
  obtain ⟨-, -, -, -, -, -, -, -, -, -, -, a60, a61⟩ := index1_facts ⟨(i 0).val / 5000, by rw [hN]; omega⟩
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [a60]; show (i 0).val / 5000 * 5000 ≤ (i 0).val ∧ (i 0).val < (i 0).val / 5000 * 5000 + 5000; omega
  | ⟨1, _⟩ =>
    show win1_6.index ⟨(i 0).val / 5000, _⟩ (1 : Fin 2) * 16 ≤ (i 1).val ∧ (i 1).val < win1_6.index ⟨(i 0).val / 5000, _⟩ (1 : Fin 2) * 16 + 16
    rw [a61]; omega

/-- THE ARRAY after the region: the end of layer 1 of the six arrays as the region finds them, at every node and column. -/
theorem array1_eq (c : Dev nD) : (dat1 (F := Ideal) V c).arrAt 6 cfg1.N
    = layer1EndArr (V c main_v19) (V c main_v10) (V c main_v14) (V c main_v15_1) (V c main_v5) (V c main_arg4) :=
  (dat1 (F := Ideal) V c).arrAt_eq_of_cover 6 _ (fun t _ => flushed1_eq V c t) cover1

end Layer1End

/-- Output window 6. -/
theorem reg1_h (c : Dev nD) (n : Fin 100000) (j : Fin 16) :
    arr S100000x16 ((dat1 (F := Ideal) V c).arrAt 6 cfg1.N) (ix2 n j)
      = max ((((arr S100000x16 (V c main_v19) (ix2 n j)
            + ∑ k : Fin 16, arr S100000x16 (V c main_v10) (ix2 n k) * arr S16x16 (V c main_v5) (ix2 k j))
          + arr S100000x1 (V c main_v14) (ix2 n (0 : Fin 1)) * arr S16 (V c main_arg4) (ix1 j))
        + arr S100000x16 (V c main_v15_1) (ix2 n j))) 0 := by
  rw [Layer1End.array1_eq]
  rfl

end Cert.KernelIdeal.Regions

end
-- ==== Proof.KernelHost0.lean ====
/-
  The host operations before the first region, read at an index, from any contents `W` of the buffers: the two rows
  of the edge array as vectors of words; the two halves of each message weight matrix; the edge features summed at
  each node (a row scatter-add onto zeros: the sum over the edges whose destination word, read signed, is the node)
  and the number of edges arriving at each node (the same scatter of a column of ones).
-/
import proofs.«431509_j48661979464283_3_alg».proof.Proof.Gen.KernelIdeal.Launch
import proofs.«431509_j48661979464283_3_alg».proof.Proof.Inputs
import proofs.«431509_j48661979464283_3_alg».proof.Proof.LibScatterAdd
import proofs.«431509_j48661979464283_3_alg».proof.Proof.LibGatherRows
import proofs.«431509_j48661979464283_3_alg».proof.Proof.LibCarry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host

open Cert.KernelIdeal Cert.KernelIdeal.Gen Cert.EdgeConv Idealize.ShloMosaic Idealize.ShloMosaic.TcCoe Idealize.SL.Sem
open Idealize.ShloMosaic.ValueIdx Idealize.ShloMosaic.StableHlo

/-! ## The layout operations of the stretch, read at an index -/

/-- Row 0 of a two-row array of words, as a vector. -/
theorem row0_apply (x : IVec S2x3200000 32) (r : Fin 3200000) :
    shapeCast S3200000 (extractStridedSlice S1x3200000 ![0, 0] x slices_S2x3200000_S1x3200000_0_0)
        shapeCasts_S1x3200000_S3200000 (ix1 r) = x (ix2 (0 : Fin 2) r) := by
  rw [shapeCast_apply _ shapeCasts_S1x3200000_S3200000 (ix1 r) (ix2 (0 : Fin 1) r) (by
    rewrite [Shape.rowMajor_val_two, Shape.rowMajor_val_one]; show 0 * 3200000 + r.val = r.val; omega)]
  exact extractStridedSlice_apply ![0, 0] x slices_S2x3200000_S1x3200000_0_0 (ix2 (0 : Fin 1) r) (ix2 (0 : Fin 2) r)
    (fun a => match a with
      | ⟨0, _⟩ => rfl
      | ⟨1, _⟩ => by show r.val = 0 + r.val; omega)

/-- Row 1 of a two-row array of words, as a vector. -/
theorem row1_apply (x : IVec S2x3200000 32) (r : Fin 3200000) :
    shapeCast S3200000 (extractStridedSlice S1x3200000 ![1, 0] x slices_S2x3200000_S1x3200000_1_0)
        shapeCasts_S1x3200000_S3200000 (ix1 r) = x (ix2 (1 : Fin 2) r) := by
  rw [shapeCast_apply _ shapeCasts_S1x3200000_S3200000 (ix1 r) (ix2 (0 : Fin 1) r) (by
    rewrite [Shape.rowMajor_val_two, Shape.rowMajor_val_one]; show 0 * 3200000 + r.val = r.val; omega)]
  exact extractStridedSlice_apply ![1, 0] x slices_S2x3200000_S1x3200000_1_0 (ix2 (0 : Fin 1) r) (ix2 (1 : Fin 2) r)
    (fun a => match a with
      | ⟨0, _⟩ => rfl
      | ⟨1, _⟩ => by show r.val = 0 + r.val; omega)

/-- A vector of words set up as a column: entry `(r, 0)` is entry `r`. -/
theorem col_apply (v : IVec S3200000 32) (r : Fin 3200000) :
    broadcastInDim S3200000x1 ![0] bcast_S3200000_S3200000x1_0 v (ix2 r (0 : Fin 1)) = v (ix1 r) :=
  broadcastInDim_apply _ bcast_S3200000_S3200000x1_0 v (ix2 r (0 : Fin 1)) (ix1 r) (fun a => match a with
    | ⟨0, _⟩ => by show r.val = if (3200000 : Nat) = 1 then 0 else r.val; rw [if_neg (by decide)])

/-- The pattern `0x3F800000` is the number one: sign 0, exponent 127 (the bias), fraction 0. -/
theorem ofBits_one_f32 : Ideal.ofBits .f32 0x3F800000#32 = 1 := by
  simp [Ideal.ofBits, Ideal.ieee]
  rw [← EReal.coe_mul, ← EReal.coe_one]
  congr 1
  norm_num

/-- A scalar spread over a shape is that scalar everywhere. -/
theorem splat_apply {t : Shape} (h : S_.BroadcastsInDim t ![]) (c : FVec Ideal S_ .f32) (j : t.Idx) :
    broadcastInDim t ![] h c j = c ix0 :=
  broadcastInDim_apply _ h c j ix0 (fun a => a.elim0)

/-- The host's accumulating row scatter at the extended reals, read at an entry (the sum form of `Cert.ScatterAdd.scatterAdd_rows`). -/
theorem hostScatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Host.scatterAdd (F := Ideal) (φ := .f32) d x idx upd (ix2 c e)
      = x (ix2 c e) + ∑ r : Fin N, if (idx (ix2 r (0 : Fin 1))).toInt = (c.val : ℤ) then upd (ix2 r e) else 0 :=
  Cert.ScatterAdd.scatterAdd_rows d huw hiw hsd hiv x idx upd c e

/-- The pattern `0x00000000` spread over a shape is zero everywhere. -/
theorem splat_zero {t : Shape} (h : S_.BroadcastsInDim t ![]) (j : t.Idx) :
    broadcastInDim t ![] h (constant (F := Ideal) S_ .f32 0x00000000#32) j = (0 : EReal) :=
  (splat_apply h _ j).trans Ideal.ofBits_zero_f32

/-- The pattern `0x3F800000` spread over a shape is one everywhere. -/
theorem splat_one {t : Shape} (h : S_.BroadcastsInDim t ![]) (j : t.Idx) :
    broadcastInDim t ![] h (constant (F := Ideal) S_ .f32 0x3F800000#32) j = (1 : EReal) :=
  (splat_apply h _ j).trans ofBits_one_f32

/-! ## The stretch's results -/

/- the buffers' contents before the stretch: any -/
variable (W : Valuation τ sig (Elt Ideal))

/-- The source words: row 0 of the edge array. -/
theorem host0_src (r : Fin 3200000) :
    warr S3200000 (after (hostOps0 (F := Ideal)) W (Proc.devRef .tc main_v1)) (ix1 r)
      = warr S2x3200000 (W (Proc.devRef .tc main_arg1)) (ix2 (0 : Fin 2) r) := by
  have e : after (hostOps0 (F := Ideal)) W (Proc.devRef .tc main_v1)
      = shapeCast S3200000 (extractStridedSlice S1x3200000 ![0, 0] (W (Proc.devRef .tc main_arg1))
          slices_S2x3200000_S1x3200000_0_0) shapeCasts_S1x3200000_S3200000 := by
    after_results_simp <;> rfl
  show after (hostOps0 (F := Ideal)) W (Proc.devRef .tc main_v1) (ix1 r) = W (Proc.devRef .tc main_arg1) (ix2 (0 : Fin 2) r)
  rw [e]
  exact row0_apply _ r

/-- The destination words: row 1 of the edge array. -/
theorem host0_dst (r : Fin 3200000) :
    warr S3200000 (after (hostOps0 (F := Ideal)) W (Proc.devRef .tc main_v3)) (ix1 r)
      = warr S2x3200000 (W (Proc.devRef .tc main_arg1)) (ix2 (1 : Fin 2) r) := by
  have e : after (hostOps0 (F := Ideal)) W (Proc.devRef .tc main_v3)
      = shapeCast S3200000 (extractStridedSlice S1x3200000 ![1, 0] (W (Proc.devRef .tc main_arg1))
          slices_S2x3200000_S1x3200000_1_0) shapeCasts_S1x3200000_S3200000 := by
    after_results_simp <;> rfl
  show after (hostOps0 (F := Ideal)) W (Proc.devRef .tc main_v3) (ix1 r) = W (Proc.devRef .tc main_arg1) (ix2 (1 : Fin 2) r)
  rw [e]
  exact row1_apply _ r

/-- Rows 0–63 of the first message weight matrix. -/
theorem host0_w1t (k : Fin 64) (j : Fin 16) :
    arr S64x16 (after (hostOps0 (F := Ideal)) W (Proc.devRef .tc main_v4)) (ix2 k j)
      = arr S80x16 (W (Proc.devRef .tc main_arg3)) (ix2 (⟨k.val, Nat.lt_of_lt_of_le k.isLt (by decide)⟩ : Fin 80) j) := by
  have e : after (hostOps0 (F := Ideal)) W (Proc.devRef .tc main_v4)
      = extractStridedSlice S64x16 ![0, 0] (W (Proc.devRef .tc main_arg3)) slices_S80x16_S64x16_0_0 := by
    after_results_simp <;> rfl
  show after (hostOps0 (F := Ideal)) W (Proc.devRef .tc main_v4) (ix2 k j) = W (Proc.devRef .tc main_arg3) (ix2 _ j)
  rw [e]
  exact extractStridedSlice_apply ![0, 0] _ slices_S80x16_S64x16_0_0 (ix2 k j) (ix2 _ j) (fun a => match a with
    | ⟨0, _⟩ => by show k.val = 0 + k.val; omega
    | ⟨1, _⟩ => by show j.val = 0 + j.val; omega)

/-- Rows 64–79 of the first message weight matrix. -/
theorem host0_w1b (k : Fin 16) (j : Fin 16) :
    arr S16x16 (after (hostOps0 (F := Ideal)) W (Proc.devRef .tc main_v5)) (ix2 k j)
      = arr S80x16 (W (Proc.devRef .tc main_arg3)) (ix2 (⟨64 + k.val, Nat.add_lt_add_left k.isLt 64⟩ : Fin 80) j) := by
  have e : after (hostOps0 (F := Ideal)) W (Proc.devRef .tc main_v5)
      = extractStridedSlice S16x16 ![64, 0] (W (Proc.devRef .tc main_arg3)) slices_S80x16_S16x16_64_0 := by
    after_results_simp <;> rfl
  show after (hostOps0 (F := Ideal)) W (Proc.devRef .tc main_v5) (ix2 k j) = W (Proc.devRef .tc main_arg3) (ix2 _ j)
  rw [e]
  exact extractStridedSlice_apply ![64, 0] _ slices_S80x16_S16x16_64_0 (ix2 k j) (ix2 _ j) (fun a => match a with
    | ⟨0, _⟩ => rfl
    | ⟨1, _⟩ => by show j.val = 0 + j.val; omega)

/-- Rows 0–15 of the second message weight matrix. -/
theorem host0_w2t (k : Fin 16) (j : Fin 16) :
    arr S16x16 (after (hostOps0 (F := Ideal)) W (Proc.devRef .tc main_v6)) (ix2 k j)
      = arr S32x16 (W (Proc.devRef .tc main_arg7)) (ix2 (⟨k.val, Nat.lt_of_lt_of_le k.isLt (by decide)⟩ : Fin 32) j) := by
  have e : after (hostOps0 (F := Ideal)) W (Proc.devRef .tc main_v6)
      = extractStridedSlice S16x16 ![0, 0] (W (Proc.devRef .tc main_arg7)) slices_S32x16_S16x16_0_0 := by
    after_results_simp <;> rfl
  show after (hostOps0 (F := Ideal)) W (Proc.devRef .tc main_v6) (ix2 k j) = W (Proc.devRef .tc main_arg7) (ix2 _ j)
  rw [e]
  exact extractStridedSlice_apply ![0, 0] _ slices_S32x16_S16x16_0_0 (ix2 k j) (ix2 _ j) (fun a => match a with
    | ⟨0, _⟩ => by show k.val = 0 + k.val; omega
    | ⟨1, _⟩ => by show j.val = 0 + j.val; omega)

/-- Rows 16–31 of the second message weight matrix. -/
theorem host0_w2b (k : Fin 16) (j : Fin 16) :
    arr S16x16 (after (hostOps0 (F := Ideal)) W (Proc.devRef .tc main_v7)) (ix2 k j)
      = arr S32x16 (W (Proc.devRef .tc main_arg7)) (ix2 (⟨16 + k.val, Nat.add_lt_add_left k.isLt 16⟩ : Fin 32) j) := by
  have e : after (hostOps0 (F := Ideal)) W (Proc.devRef .tc main_v7)
      = extractStridedSlice S16x16 ![16, 0] (W (Proc.devRef .tc main_arg7)) slices_S32x16_S16x16_16_0 := by
    after_results_simp <;> rfl
  show after (hostOps0 (F := Ideal)) W (Proc.devRef .tc main_v7) (ix2 k j) = W (Proc.devRef .tc main_arg7) (ix2 _ j)
  rw [e]
  exact extractStridedSlice_apply ![16, 0] _ slices_S32x16_S16x16_16_0 (ix2 k j) (ix2 _ j) (fun a => match a with
    | ⟨0, _⟩ => rfl
    | ⟨1, _⟩ => by show j.val = 0 + j.val; omega)

/-- The edge features summed at each node. -/
theorem host0_sea (n : Fin 100000) (k : Fin 16) :
    arr S100000x16 (after (hostOps0 (F := Ideal)) W (Proc.devRef .tc main_v10)) (ix2 n k)
      = ∑ r : Fin 3200000, if (warr S2x3200000 (W (Proc.devRef .tc main_arg1)) (ix2 (1 : Fin 2) r)).toInt = (n.val : ℤ)
          then arr S3200000x16 (W (Proc.devRef .tc main_arg2)) (ix2 r k) else 0 := by
  have e : after (hostOps0 (F := Ideal)) W (Proc.devRef .tc main_v10)
      = Host.scatterAdd (F := Ideal) scatter_S100000x16_S3200000x1_S3200000x16_1_0_0_1
          (broadcastInDim S100000x16 ![] bcast_S_S100000x16 (constant S_ .f32 0x00000000#32))
          (broadcastInDim S3200000x1 ![0] bcast_S3200000_S3200000x1_0
            (shapeCast S3200000 (extractStridedSlice S1x3200000 ![1, 0] (W (Proc.devRef .tc main_arg1))
              slices_S2x3200000_S1x3200000_1_0) shapeCasts_S1x3200000_S3200000))
          (W (Proc.devRef .tc main_arg2)) := by
    after_results_simp <;> rfl
  show after (hostOps0 (F := Ideal)) W (Proc.devRef .tc main_v10) (ix2 n k) = _
  rw [e]
  refine (hostScatterAdd_rows (C := 100000) (D := 16) (N := 3200000)
    scatter_S100000x16_S3200000x1_S3200000x16_1_0_0_1 rfl rfl rfl rfl _ _ _ n k).trans ?_
  rw [splat_zero, zero_add]
  refine Finset.sum_congr rfl fun r _ => ?_
  rw [col_apply, row1_apply]

/-- The number of edges arriving at each node. -/
theorem host0_deg (n : Fin 100000) :
    arr S100000x1 (after (hostOps0 (F := Ideal)) W (Proc.devRef .tc main_v14)) (ix2 n (0 : Fin 1))
      = ∑ r : Fin 3200000, if (warr S2x3200000 (W (Proc.devRef .tc main_arg1)) (ix2 (1 : Fin 2) r)).toInt = (n.val : ℤ)
          then (1 : EReal) else 0 := by
  have e : after (hostOps0 (F := Ideal)) W (Proc.devRef .tc main_v14)
      = Host.scatterAdd (F := Ideal) scatter_S100000x1_S3200000x1_S3200000x1_1_0_0_1
          (broadcastInDim S100000x1 ![] bcast_S_S100000x1 (constant S_ .f32 0x00000000#32))
          (broadcastInDim S3200000x1 ![0] bcast_S3200000_S3200000x1_0
            (shapeCast S3200000 (extractStridedSlice S1x3200000 ![1, 0] (W (Proc.devRef .tc main_arg1))
              slices_S2x3200000_S1x3200000_1_0) shapeCasts_S1x3200000_S3200000))
          (broadcastInDim S3200000x1 ![] bcast_S_S3200000x1 (constant S_ .f32 0x3F800000#32)) := by
    after_results_simp <;> rfl
  show after (hostOps0 (F := Ideal)) W (Proc.devRef .tc main_v14) (ix2 n (0 : Fin 1)) = _
  rw [e]
  refine (hostScatterAdd_rows (C := 100000) (D := 1) (N := 3200000)
    scatter_S100000x1_S3200000x1_S3200000x1_1_0_0_1 rfl rfl rfl rfl _ _ _ n (0 : Fin 1)).trans ?_
  rw [splat_zero, zero_add]
  refine Finset.sum_congr rfl fun r _ => ?_
  rw [col_apply, row1_apply, splat_one]

end Cert.KernelIdeal.Host

end
-- ==== Proof.KernelHost1.lean ====
/-
  The host operations between the first and the second region, read at an index, from any contents `W` of the
  buffers: a masked row gather of the projected node features by the source words (negative words counted from the
  end, rows out of range filled with a not-a-number), then a row scatter-add onto zeros by the destination words.
-/
import proofs.«431509_j48661979464283_3_alg».proof.Proof.Gen.KernelIdeal.Launch
import proofs.«431509_j48661979464283_3_alg».proof.Proof.Inputs
import proofs.«431509_j48661979464283_3_alg».proof.Proof.LibScatterAdd
import proofs.«431509_j48661979464283_3_alg».proof.Proof.LibGatherRows
import proofs.«431509_j48661979464283_3_alg».proof.Proof.LibCarry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host

open Cert.KernelIdeal Cert.KernelIdeal.Gen Cert.EdgeConv Idealize.ShloMosaic Idealize.ShloMosaic.TcCoe Idealize.SL.Sem
open Idealize.ShloMosaic.ValueIdx Idealize.ShloMosaic.StableHlo

/- the buffers' contents before the stretch: any -/
variable (W : Valuation τ sig (Elt Ideal))

/-! ## The stretch as a term over the contents before it -/

/-- The source words normalised (a negative word counted from the end), as a column. -/
private def colK (w : IVec S3200000 32) : IVec S3200000x1 32 :=
  broadcastInDim S3200000x1 ![0] bcast_S3200000_S3200000x1_0
    (select (cmpi .slt w (broadcastInDim S3200000 ![] bcast_S_S3200000 (constantI S_ 32 0#32)))
      (addi w (broadcastInDim S3200000 ![] bcast_S_S3200000 (constantI S_ 32 100000#32))) w)

/-- The range mask of the normalised words: `0 ≤ w ≤ 99999`, and-reduced over the unit axis. -/
private def maskK (w : IVec S3200000 32) : IVec S3200000 1 :=
  Host.reduce IntOp.andi
    (andi (cmpi .sge (colK w) (broadcastInDim S3200000x1 ![] bcast_S_S3200000x1 (constantI S_ 32 0#32)))
      (cmpi .sle (colK w) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The masked row gather: row `r` is the row of `x` the normalised word names where the mask is set, a
    not-a-number elsewhere. -/
private def takeK (x : FVec Ideal S100000x16 .f32) (w : IVec S3200000 32) : FVec Ideal S3200000x16 .f32 :=
  select (broadcastInDim S3200000x16 ![0] bcast_S3200000_S3200000x16_0 (maskK w))
    (Host.gather gather_S100000x16_S3200000x1_S3200000x16_1_0_n_n_0_1_116 x (colK w))
    (broadcastInDim S3200000x16 ![] bcast_S_S3200000x16 (constant (F := Ideal) S_ .f32 0x7FC00000#32))

/-- The gathered rows scatter-added onto zeros by the destination words. -/
private def sgK (x : FVec Ideal S100000x16 .f32) (w d : IVec S3200000 32) : FVec Ideal S100000x16 .f32 :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 d) (takeK x w)

/-! ## The term read at an index -/

/-- A fold by `and` over `i1` words that are all 1, from 1, is 1. -/
private theorem fold_andi_one {ι : Type} [DecidableEq ι] (S : Finset ι) (f : ι → BitVec 1)
    (h : ∀ i ∈ S, f i = 1#1) : S.fold IntOp.andi 1#1 f = 1#1 := by
  induction S using Finset.induction_on with
  | empty => rfl
  | insert a s ha ih =>
    rw [Finset.fold_insert ha, h a (Finset.mem_insert_self a s), ih fun i hi => h i (Finset.mem_insert_of_mem hi)]
    rfl

/-- A vector broadcast to a column reads, at `(r, 0)`, its entry `r`. -/
private theorem bcol_apply (d : IVec S3200000 32) (r : Fin 3200000) :
    broadcastInDim S3200000x1 ![0] bcast_S3200000_S3200000x1_0 d (ix2 r (0 : Fin 1)) = d (ix1 r) := by
  refine broadcastInDim_apply _ bcast_S3200000_S3200000x1_0 d (ix2 r (0 : Fin 1)) (ix1 r) fun a => ?_
  match a with
  | ⟨0, _⟩ => show r.val = if (3200000 : ℕ) = 1 then 0 else r.val; rw [if_neg (by decide)]

/-- Entry `(r, 0)` of the column is the source word of edge `r`, normalised. -/
private theorem colK_apply (w : IVec S3200000 32) (r : Fin 3200000) :
    colK w (ix2 r (0 : Fin 1)) = normW (w (ix1 r)) := by
  unfold colK
  rw [bcol_apply]
  rfl

/-- Where every source word names a node, the range mask is set at every edge: the normalised word lies in
    `[0, 99999]`, so both compares give 1 and the `and` over the unit axis, from 1, is 1. -/
private theorem maskK_apply (w : IVec S3200000 32) (hw : ∀ r : Fin 3200000, SrcOk (w (ix1 r))) (r : Fin 3200000) :
    maskK w (ix1 r) = 1#1 := by
  unfold maskK
  rw [Host.reduce_eq_fold]
  refine fold_andi_one _ _ fun i _ => ?_
  obtain ⟨a, b, rfl⟩ : ∃ a b, i = ix2 a b := ⟨i 0, i 1, eq_ix2 i⟩
  obtain rfl : b = 0 := Subsingleton.elim _ _
  have hr := normW_range _ (hw a)
  have h0 : (0#32 : BitVec 32).toInt = 0 := by decide
  have h9 : (99999#32 : BitVec 32).toInt = 99999 := by decide
  show IntOp.andi (IntOp.cmpi .sge (colK w (ix2 a (0 : Fin 1))) 0#32) (IntOp.cmpi .sle (colK w (ix2 a (0 : Fin 1))) 99999#32) = 1#1
  rw [colK_apply]
  exact IntOp.andi_eq_one.2 ⟨IntOp.cmpi_sge.2 (h0.trans_le hr.1), IntOp.cmpi_sle.2 (hr.2.trans_eq h9.symm)⟩

/-- Row `r` of the masked gather is the row of `x` that the normalised source word names. -/
private theorem takeK_apply (x : FVec Ideal S100000x16 .f32) (w : IVec S3200000 32)
    (hw : ∀ r : Fin 3200000, SrcOk (w (ix1 r))) (r : Fin 3200000) (j : Fin 16) :
    takeK x w (ix2 r j)
      = x (ix2 (⟨min (normW (w (ix1 r))).toInt.toNat (100000 - 1), by omega⟩ : Fin 100000) j) := by
  have hm : broadcastInDim S3200000x16 ![0] bcast_S3200000_S3200000x16_0 (maskK w) (ix2 r j) = 1#1 := by
    refine (broadcastInDim_apply _ bcast_S3200000_S3200000x16_0 (maskK w) (ix2 r j) (ix1 r) fun a => ?_).trans
      (maskK_apply w hw r)
    match a with
    | ⟨0, _⟩ => show r.val = if (3200000 : ℕ) = 1 then 0 else r.val; rw [if_neg (by decide)]
  unfold takeK
  show Scalar.select (broadcastInDim S3200000x16 ![0] bcast_S3200000_S3200000x16_0 (maskK w) (ix2 r j))
    (Host.gather gather_S100000x16_S3200000x1_S3200000x16_1_0_n_n_0_1_116 x (colK w) (ix2 r j)) _ = _
  rw [hm, Cert.LibGatherRows.gather_rows_apply (by decide) _ rfl rfl rfl rfl rfl rfl rfl]
  simp only [colK_apply]
  exact if_pos rfl

/-- At the ideal values the host's accumulating scatter is the sum form, for any shapes and dimension numbers. -/
private theorem hostScatterAdd_eq {s si su : Shape} {k : ℕ} (d : ScatterDims s si su) (x : FVec Ideal s .f32)
    (idx : IVec si k) (upd : FVec Ideal su .f32) :
    Host.scatterAdd d x idx upd = Ideal.hostScatterAdd d x idx upd := rfl

/-- The scatter-add of the gathered rows onto zeros, at `(n, j)`: the sum over the edges whose destination word is
    `n` of the gathered row's entry `j`. -/
private theorem sgK_apply (x : FVec Ideal S100000x16 .f32) (w d : IVec S3200000 32)
    (hw : ∀ r : Fin 3200000, SrcOk (w (ix1 r))) (n : Fin 100000) (j : Fin 16) :
    sgK x w d (ix2 n j)
      = ∑ r : Fin 3200000, if (d (ix1 r)).toInt = (n.val : ℤ)
          then x (ix2 (⟨min (normW (w (ix1 r))).toInt.toNat (100000 - 1), by omega⟩ : Fin 100000) j) else 0 := by
  unfold sgK
  rw [hostScatterAdd_eq, Cert.ScatterAdd.scatterAdd_rows _ rfl rfl rfl rfl]
  have hz : broadcastInDim S100000x16 ![] bcast_S_S100000x16 (constant (F := Ideal) S_ .f32 0x00000000#32) (ix2 n j) = 0 :=
    Ideal.ofBits_zero_f32
  rw [hz, zero_add]
  refine Finset.sum_congr rfl fun r _ => ?_
  rw [bcol_apply, takeK_apply x w hw r j]

/-- The result buffer of the two stretches is the scatter-add of the masked gather, as a term over the contents
    before them. -/
private theorem sg_eq : (after (hostOps1_1 (F := Ideal)) (after (hostOps1 (F := Ideal)) W) (Proc.devRef .tc main_v19) : FVec Ideal S100000x16 .f32)
    = sgK (W (Proc.devRef .tc main_v15_0)) (W (Proc.devRef .tc main_v1)) (W (Proc.devRef .tc main_v3)) := by
  unfold hostOps1
  simp only [TRef.nullary, TRef.unary, TRef.binary, TRef.ternary, TRef.toBuf, TRef.ofBuf, cast_eq]
  after_results_simp
  rfl

/-! ## The statement -/

/-- The gathered rows summed at each node.  Where every source word names a node the gather's range mask is all
    ones, so the masked gather is the gather: row `r` of it is the row of `main_v15_0` that the normalised source word
    names; the scatter-add onto zeros then sums, at node `n`, the rows of the edges whose destination word is `n`. -/
theorem host1_sg (hsrc : ∀ r : Fin 3200000, SrcOk (warr S3200000 (W (Proc.devRef .tc main_v1)) (ix1 r)))
    (n : Fin 100000) (j : Fin 16) :
    arr S100000x16 (after (hostOps1_1 (F := Ideal)) (after (hostOps1 (F := Ideal)) W) (Proc.devRef .tc main_v19)) (ix2 n j)
      = ∑ r : Fin 3200000, if (warr S3200000 (W (Proc.devRef .tc main_v3)) (ix1 r)).toInt = (n.val : ℤ)
          then arr S100000x16 (W (Proc.devRef .tc main_v15_0))
            (ix2 (⟨min (normW (warr S3200000 (W (Proc.devRef .tc main_v1)) (ix1 r))).toInt.toNat (100000 - 1), by omega⟩ : Fin 100000) j)
          else 0 := by
  exact (congrFun (sg_eq W) (ix2 n j)).trans (sgK_apply _ _ _ hsrc n j)

end Cert.KernelIdeal.Host

end
-- ==== Proof.KernelThreadA.lean ====
/-
  The kernel program's buffers, from the launch to the end of layer 1, in the specification's terms.

  The run's contents at each boundary are a fold from the launch memory: a host stretch applies its operations, a
  region replaces its output arrays by what its grid points wrote and leaves every other buffer alone.  Walking the
  fold (the stretches' values at an index, the regions' values at an index, and "nobody wrote this buffer" for what
  is carried along), the buffers at the exit of the second region hold: the hidden features `h1K`; and, carried
  from before for what follows, the word vectors, the summed edge features and arriving-edge counts, the halves of
  the second message weight matrix, and the arguments the later regions read.
-/
import proofs.«431509_j48661979464283_3_alg».proof.Proof.Gen.KernelIdeal.Frame
import proofs.«431509_j48661979464283_3_alg».proof.Proof.Inputs
import proofs.«431509_j48661979464283_3_alg».proof.Proof.Region0
import proofs.«431509_j48661979464283_3_alg».proof.Proof.Region1
import proofs.«431509_j48661979464283_3_alg».proof.Proof.KernelHost0
import proofs.«431509_j48661979464283_3_alg».proof.Proof.KernelHost1
import proofs.«431509_j48661979464283_3_alg».proof.Proof.LibCarry
import Idealize.ShloMosaic.Lib.StableHlo.Run
import Idealize.ShloMosaic.Lib.Pipeline.Value
import Idealize.ShloMosaic.Lib.ValueIdx

noncomputable section

namespace Cert.KernelIdeal.Thread

open Cert.KernelIdeal Cert.KernelIdeal.Gen Cert.EdgeConv Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification's inputs, read off the launch memory of device `c`. -/
def kIn (c : Dev nD) : Inputs EReal :=
  inputsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))

/-- Every source word of device `c`'s edge array names a node. -/
def SrcAll (c : Dev nD) : Prop :=
  ∀ r : Fin 3200000, SrcOk (warr S2x3200000 (m ((c.tc : Thread nD τ).loc main_arg1)) (ix2 (0 : Fin 2) r))

/-! ## Buffers carried along

Between the entry of region 0 (boundary `W1`) and the entry of region 1 (boundary `W4`) lie region 0 and two host
stretches.  A buffer that is none of region 0's arrays and that neither stretch writes holds at `W4` what it held at
`W1`; an argument that the first stretch does not write either holds what the launch memory holds. -/

set_option hygiene false in
/-- `keep_4_1 b` proves `W4 … b = W1 … b` for a literal buffer `b` that is no array of region 0 and that neither
    stretch after region 0 writes. -/
local macro "keep_4_1 " b:ident : tactic => `(tactic|
  calc W4 (F := Ideal) m ρ c (Proc.devRef .tc $b)
    _ = W3 (F := Ideal) m ρ c (Proc.devRef .tc $b) := by keep_host hostOps1_1
    _ = W2 (F := Ideal) m ρ c (Proc.devRef .tc $b) := by keep_host hostOps1
    _ = W1 (F := Ideal) m ρ c (Proc.devRef .tc $b) := W2_of_ne m ρ c $b (by decide))

set_option hygiene false in
/-- `keep_4_0 b` proves `W4 … b = m …` for a literal argument buffer `b` that is no array of region 0 and that no
    stretch before region 1 writes. -/
local macro "keep_4_0 " b:ident : tactic => `(tactic|
  calc W4 (F := Ideal) m ρ c (Proc.devRef .tc $b)
    _ = W3 (F := Ideal) m ρ c (Proc.devRef .tc $b) := by keep_host hostOps1_1
    _ = W2 (F := Ideal) m ρ c (Proc.devRef .tc $b) := by keep_host hostOps1
    _ = W1 (F := Ideal) m ρ c (Proc.devRef .tc $b) := W2_of_ne m ρ c $b (by decide)
    _ = W0 (F := Ideal) m ρ c (Proc.devRef .tc $b) := by keep_host hostOps0
    _ = m ((c.tc : Thread nD τ).loc $b) := rfl)

private theorem w4_v1 (c : Dev nD) :
    W4 (F := Ideal) m ρ c (Proc.devRef .tc main_v1) = W1 (F := Ideal) m ρ c (Proc.devRef .tc main_v1) := by keep_4_1 main_v1
private theorem w4_v3 (c : Dev nD) :
    W4 (F := Ideal) m ρ c (Proc.devRef .tc main_v3) = W1 (F := Ideal) m ρ c (Proc.devRef .tc main_v3) := by keep_4_1 main_v3
private theorem w4_v5 (c : Dev nD) :
    W4 (F := Ideal) m ρ c (Proc.devRef .tc main_v5) = W1 (F := Ideal) m ρ c (Proc.devRef .tc main_v5) := by keep_4_1 main_v5
private theorem w4_v6 (c : Dev nD) :
    W4 (F := Ideal) m ρ c (Proc.devRef .tc main_v6) = W1 (F := Ideal) m ρ c (Proc.devRef .tc main_v6) := by keep_4_1 main_v6
private theorem w4_v7 (c : Dev nD) :
    W4 (F := Ideal) m ρ c (Proc.devRef .tc main_v7) = W1 (F := Ideal) m ρ c (Proc.devRef .tc main_v7) := by keep_4_1 main_v7
private theorem w4_v10 (c : Dev nD) :
    W4 (F := Ideal) m ρ c (Proc.devRef .tc main_v10) = W1 (F := Ideal) m ρ c (Proc.devRef .tc main_v10) := by keep_4_1 main_v10
private theorem w4_v14 (c : Dev nD) :
    W4 (F := Ideal) m ρ c (Proc.devRef .tc main_v14) = W1 (F := Ideal) m ρ c (Proc.devRef .tc main_v14) := by keep_4_1 main_v14

private theorem w4_arg4 (c : Dev nD) :
    W4 (F := Ideal) m ρ c (Proc.devRef .tc main_arg4) = m ((c.tc : Thread nD τ).loc main_arg4) := by keep_4_0 main_arg4
private theorem w4_arg8 (c : Dev nD) :
    W4 (F := Ideal) m ρ c (Proc.devRef .tc main_arg8) = m ((c.tc : Thread nD τ).loc main_arg8) := by keep_4_0 main_arg8
private theorem w4_arg9 (c : Dev nD) :
    W4 (F := Ideal) m ρ c (Proc.devRef .tc main_arg9) = m ((c.tc : Thread nD τ).loc main_arg9) := by keep_4_0 main_arg9
private theorem w4_arg10 (c : Dev nD) :
    W4 (F := Ideal) m ρ c (Proc.devRef .tc main_arg10) = m ((c.tc : Thread nD τ).loc main_arg10) := by keep_4_0 main_arg10
private theorem w4_arg11 (c : Dev nD) :
    W4 (F := Ideal) m ρ c (Proc.devRef .tc main_arg11) = m ((c.tc : Thread nD τ).loc main_arg11) := by keep_4_0 main_arg11
private theorem w4_arg12 (c : Dev nD) :
    W4 (F := Ideal) m ρ c (Proc.devRef .tc main_arg12) = m ((c.tc : Thread nD τ).loc main_arg12) := by keep_4_0 main_arg12

/-! ## At the entry of region 0 (boundary `W1`): what the first stretch leaves -/

private theorem at1_x (c : Dev nD) (n : Fin 100000) (k : Fin 64) :
    arr S100000x64 (V1 (F := Ideal) m ρ c main_arg0) (ix2 n k) = (kIn m c).x n k := by
  have h : W1 (F := Ideal) m ρ c (Proc.devRef .tc main_arg0) = W0 (F := Ideal) m ρ c (Proc.devRef .tc main_arg0) := by
    keep_host hostOps0
  show arr S100000x64 (W1 (F := Ideal) m ρ c (Proc.devRef .tc main_arg0)) (ix2 n k) = _
  rw [h]; rfl

private theorem at1_ws1 (c : Dev nD) (k : Fin 64) (j : Fin 16) :
    arr S64x16 (V1 (F := Ideal) m ρ c main_arg5) (ix2 k j) = (kIn m c).Ws1 k j := by
  have h : W1 (F := Ideal) m ρ c (Proc.devRef .tc main_arg5) = W0 (F := Ideal) m ρ c (Proc.devRef .tc main_arg5) := by
    keep_host hostOps0
  show arr S64x16 (W1 (F := Ideal) m ρ c (Proc.devRef .tc main_arg5)) (ix2 k j) = _
  rw [h]; rfl

private theorem at1_bs1 (c : Dev nD) (j : Fin 16) :
    arr S16 (V1 (F := Ideal) m ρ c main_arg6) (ix1 j) = (kIn m c).bs1 j := by
  have h : W1 (F := Ideal) m ρ c (Proc.devRef .tc main_arg6) = W0 (F := Ideal) m ρ c (Proc.devRef .tc main_arg6) := by
    keep_host hostOps0
  show arr S16 (W1 (F := Ideal) m ρ c (Proc.devRef .tc main_arg6)) (ix1 j) = _
  rw [h]; rfl

private theorem at1_w1t (c : Dev nD) (k : Fin 64) (j : Fin 16) :
    arr S64x16 (V1 (F := Ideal) m ρ c main_v4) (ix2 k j) = W1t (kIn m c) k j :=
  Host.host0_w1t (W0 m ρ c) k j

/-! ## At the exit of region 0 (boundary `W2`) -/

/-- The source words pass region 0 untouched. -/
private theorem at2_src (c : Dev nD) (r : Fin 3200000) :
    warr S3200000 (W2 (F := Ideal) m ρ c (Proc.devRef .tc main_v1)) (ix1 r)
      = warr S2x3200000 (m ((c.tc : Thread nD τ).loc main_arg1)) (ix2 (0 : Fin 2) r) := by
  rw [W2_of_ne m ρ c main_v1 (by decide)]
  exact Host.host0_src (W0 m ρ c) r

/-- The destination words pass region 0 untouched. -/
private theorem at2_dst (c : Dev nD) (r : Fin 3200000) :
    warr S3200000 (W2 (F := Ideal) m ρ c (Proc.devRef .tc main_v3)) (ix1 r)
      = warr S2x3200000 (m ((c.tc : Thread nD τ).loc main_arg1)) (ix2 (1 : Fin 2) r) := by
  rw [W2_of_ne m ρ c main_v3 (by decide)]
  exact Host.host0_dst (W0 m ρ c) r

/-- Region 0's first output: the node features times the rows of `W1` that meet them. -/
private theorem at2_xw (c : Dev nD) (n : Fin 100000) (j : Fin 16) :
    arr S100000x16 (W2 (F := Ideal) m ρ c (Proc.devRef .tc main_v15_0)) (ix2 n j)
      = xw (kIn m c).x (W1t (kIn m c)) n j := by
  have h : W2 (F := Ideal) m ρ c (Proc.devRef .tc main_v15_0) = (dat0 (V1 m ρ) c).arrAt 4 cfg0.N := W2_arr m ρ c 4
  rw [h, Regions.reg0_xw]
  unfold xw
  exact Finset.sum_congr rfl fun k _ => by rw [at1_x, at1_w1t]

/-- Region 0's second output: the skip term of layer 1. -/
private theorem at2_skip (c : Dev nD) (n : Fin 100000) (j : Fin 16) :
    arr S100000x16 (W2 (F := Ideal) m ρ c (Proc.devRef .tc main_v15_1)) (ix2 n j)
      = skp (kIn m c).x (kIn m c).Ws1 (kIn m c).bs1 n j := by
  have h : W2 (F := Ideal) m ρ c (Proc.devRef .tc main_v15_1) = (dat0 (V1 m ρ) c).arrAt 5 cfg0.N := W2_arr m ρ c 5
  rw [h, Regions.reg0_skip, at1_bs1]
  unfold skp
  exact congrArg (· + (kIn m c).bs1 j) (Finset.sum_congr rfl fun k _ => by rw [at1_x, at1_ws1])

/-! ## At the entry of region 1 (boundary `W4`) -/

/-- A guarded read of the row a normalised word names: the guard's word, the row's word and the array may each be
    replaced by an equal one. -/
private theorem guarded_row_congr (A B : Fin 100000 → EReal) (hAB : ∀ i, A i = B i)
    {d d' : BitVec 32} (hd : d = d') {w w' : BitVec 32} (hw : w = w') (t : ℤ)
    (p : min (normW w).toInt.toNat (100000 - 1) < 100000) (p' : min (normW w').toInt.toNat (100000 - 1) < 100000) :
    (if d.toInt = t then A ⟨min (normW w).toInt.toNat (100000 - 1), p⟩ else 0)
      = if d'.toInt = t then B ⟨min (normW w').toInt.toNat (100000 - 1), p'⟩ else 0 := by
  subst hd; subst hw; rw [hAB]

/-- The projected node features, gathered along the edges by the source words and summed at the destinations.
    The source words are in range, so the gather reads row `src r`. -/
private theorem at4_sg (c : Dev nD) (hsrc : SrcAll m c) (n : Fin 100000) (j : Fin 16) :
    arr S100000x16 (V4 (F := Ideal) m ρ c main_v19) (ix2 n j)
      = seg (kIn m c) (fun r => xw (kIn m c).x (W1t (kIn m c)) ((kIn m c).src r) j) n := by
  have hs : ∀ r : Fin 3200000, SrcOk (warr S3200000 (W2 (F := Ideal) m ρ c (Proc.devRef .tc main_v1)) (ix1 r)) :=
    fun r => by rw [at2_src]; exact hsrc r
  refine (Host.host1_sg (W2 m ρ c) hs n j).trans ?_
  unfold seg
  refine Finset.sum_congr rfl fun r _ => ?_
  exact guarded_row_congr
    (fun i => arr S100000x16 (W2 (F := Ideal) m ρ c (Proc.devRef .tc main_v15_0)) (ix2 i j))
    (fun i => xw (kIn m c).x (W1t (kIn m c)) i j) (fun i => at2_xw m ρ c i j)
    (at2_dst m ρ c r) (at2_src m ρ c r) _ _ _

/-- The summed edge features. -/
private theorem at4_sea (c : Dev nD) (n : Fin 100000) (k : Fin 16) :
    arr S100000x16 (V4 (F := Ideal) m ρ c main_v10) (ix2 n k) = sea (kIn m c) n k := by
  show arr S100000x16 (W4 (F := Ideal) m ρ c (Proc.devRef .tc main_v10)) (ix2 n k) = _
  rw [w4_v10]
  refine (Host.host0_sea (W0 m ρ c) n k).trans ?_
  unfold sea seg
  exact Finset.sum_congr rfl fun r _ => rfl

/-- The arriving-edge counts. -/
private theorem at4_deg (c : Dev nD) (n : Fin 100000) :
    arr S100000x1 (V4 (F := Ideal) m ρ c main_v14) (ix2 n (0 : Fin 1)) = deg (kIn m c) n := by
  show arr S100000x1 (W4 (F := Ideal) m ρ c (Proc.devRef .tc main_v14)) (ix2 n (0 : Fin 1)) = _
  rw [w4_v14]
  refine (Host.host0_deg (W0 m ρ c) n).trans ?_
  unfold deg seg
  exact Finset.sum_congr rfl fun r _ => rfl

/-- The rows of `W1` that meet the edge features. -/
private theorem at4_w1b (c : Dev nD) (k : Fin 16) (j : Fin 16) :
    arr S16x16 (V4 (F := Ideal) m ρ c main_v5) (ix2 k j) = W1b (kIn m c) k j := by
  show arr S16x16 (W4 (F := Ideal) m ρ c (Proc.devRef .tc main_v5)) (ix2 k j) = _
  rw [w4_v5]
  exact Host.host0_w1b (W0 m ρ c) k j

private theorem at4_b1 (c : Dev nD) (j : Fin 16) :
    arr S16 (V4 (F := Ideal) m ρ c main_arg4) (ix1 j) = (kIn m c).b1 j := by
  show arr S16 (W4 (F := Ideal) m ρ c (Proc.devRef .tc main_arg4)) (ix1 j) = _
  rw [w4_arg4]; rfl

/-- The skip term of layer 1: neither stretch after region 0 writes it. -/
private theorem at4_skip (c : Dev nD) (n : Fin 100000) (j : Fin 16) :
    arr S100000x16 (V4 (F := Ideal) m ρ c main_v15_1) (ix2 n j)
      = skp (kIn m c).x (kIn m c).Ws1 (kIn m c).bs1 n j := by
  have h : W4 (F := Ideal) m ρ c (Proc.devRef .tc main_v15_1) = W2 (F := Ideal) m ρ c (Proc.devRef .tc main_v15_1) :=
    calc W4 (F := Ideal) m ρ c (Proc.devRef .tc main_v15_1)
      _ = W3 (F := Ideal) m ρ c (Proc.devRef .tc main_v15_1) := by keep_host hostOps1_1
      _ = W2 (F := Ideal) m ρ c (Proc.devRef .tc main_v15_1) := by keep_host hostOps1
  show arr S100000x16 (W4 (F := Ideal) m ρ c (Proc.devRef .tc main_v15_1)) (ix2 n j) = _
  rw [h]; exact at2_skip m ρ c n j

/-! ## At the exit of the second region (boundary `W5`) -/

/-- The hidden features. -/
theorem at5_h (c : Dev nD) (hsrc : SrcAll m c) (n : Fin 100000) (j : Fin 16) :
    arr S100000x16 (W5 (F := Ideal) m ρ c (Proc.devRef .tc main_v20)) (ix2 n j) = h1K (kIn m c) n j := by
  have h : W5 (F := Ideal) m ρ c (Proc.devRef .tc main_v20) = (dat1 (V4 m ρ) c).arrAt 6 cfg1.N := W5_arr m ρ c 6
  have hsum : (∑ k : Fin 16, arr S100000x16 (V4 (F := Ideal) m ρ c main_v10) (ix2 n k)
        * arr S16x16 (V4 (F := Ideal) m ρ c main_v5) (ix2 k j))
      = ∑ k : Fin 16, sea (kIn m c) n k * W1b (kIn m c) k j :=
    Finset.sum_congr rfl fun k _ => by rw [at4_sea, at4_w1b]
  rw [h, Regions.reg1_h, hsum, at4_sg m ρ c hsrc, at4_deg, at4_b1, at4_skip]
  rfl

theorem at5_w2t (c : Dev nD) (k : Fin 16) (j : Fin 16) :
    arr S16x16 (W5 (F := Ideal) m ρ c (Proc.devRef .tc main_v6)) (ix2 k j) = W2t (kIn m c) k j := by
  rw [W5_of_ne m ρ c main_v6 (by decide), w4_v6]
  exact Host.host0_w2t (W0 m ρ c) k j

theorem at5_w2b (c : Dev nD) (k : Fin 16) (j : Fin 16) :
    arr S16x16 (W5 (F := Ideal) m ρ c (Proc.devRef .tc main_v7)) (ix2 k j) = W2b (kIn m c) k j := by
  rw [W5_of_ne m ρ c main_v7 (by decide), w4_v7]
  exact Host.host0_w2b (W0 m ρ c) k j

theorem at5_ws2 (c : Dev nD) (k : Fin 16) (j : Fin 16) :
    arr S16x16 (W5 (F := Ideal) m ρ c (Proc.devRef .tc main_arg9)) (ix2 k j) = (kIn m c).Ws2 k j := by
  rw [W5_of_ne m ρ c main_arg9 (by decide), w4_arg9]; rfl

theorem at5_bs2 (c : Dev nD) (j : Fin 16) :
    arr S16 (W5 (F := Ideal) m ρ c (Proc.devRef .tc main_arg10)) (ix1 j) = (kIn m c).bs2 j := by
  rw [W5_of_ne m ρ c main_arg10 (by decide), w4_arg10]; rfl

theorem at5_b2 (c : Dev nD) (j : Fin 16) :
    arr S16 (W5 (F := Ideal) m ρ c (Proc.devRef .tc main_arg8)) (ix1 j) = (kIn m c).b2 j := by
  rw [W5_of_ne m ρ c main_arg8 (by decide), w4_arg8]; rfl

theorem at5_w3 (c : Dev nD) (j : Fin 16) (q : Fin 64) :
    arr S16x64 (W5 (F := Ideal) m ρ c (Proc.devRef .tc main_arg11)) (ix2 j q) = (kIn m c).W3 j q := by
  rw [W5_of_ne m ρ c main_arg11 (by decide), w4_arg11]; rfl

theorem at5_b3 (c : Dev nD) (q : Fin 64) :
    arr S64 (W5 (F := Ideal) m ρ c (Proc.devRef .tc main_arg12)) (ix1 q) = (kIn m c).b3 q := by
  rw [W5_of_ne m ρ c main_arg12 (by decide), w4_arg12]; rfl

/-- The source words. -/
theorem at5_src (c : Dev nD) (r : Fin 3200000) :
    warr S3200000 (W5 (F := Ideal) m ρ c (Proc.devRef .tc main_v1)) (ix1 r)
      = warr S2x3200000 (m ((c.tc : Thread nD τ).loc main_arg1)) (ix2 (0 : Fin 2) r) := by
  rw [W5_of_ne m ρ c main_v1 (by decide), w4_v1]
  exact Host.host0_src (W0 m ρ c) r

/-- The destination words. -/
theorem at5_dst (c : Dev nD) (r : Fin 3200000) :
    warr S3200000 (W5 (F := Ideal) m ρ c (Proc.devRef .tc main_v3)) (ix1 r)
      = warr S2x3200000 (m ((c.tc : Thread nD τ).loc main_arg1)) (ix2 (1 : Fin 2) r) := by
  rw [W5_of_ne m ρ c main_v3 (by decide), w4_v3]
  exact Host.host0_dst (W0 m ρ c) r

/-- The summed edge features: region 1 reads them through an input window and leaves them as they were. -/
theorem at5_sea (c : Dev nD) (n : Fin 100000) (k : Fin 16) :
    arr S100000x16 (W5 (F := Ideal) m ρ c (Proc.devRef .tc main_v10)) (ix2 n k) = sea (kIn m c) n k := by
  have h : W5 (F := Ideal) m ρ c (Proc.devRef .tc main_v10) = W4 (F := Ideal) m ρ c (Proc.devRef .tc main_v10) :=
    (W5_arr m ρ c 1).trans (((dat1 (V4 m ρ) c).arrAt_in 1 rfl _).trans (A_eq1 (V4 m ρ) c 1))
  rw [h]; exact at4_sea m ρ c n k

/-- The arriving-edge counts: region 1 reads them through an input window and leaves them as they were. -/
theorem at5_deg (c : Dev nD) (n : Fin 100000) :
    arr S100000x1 (W5 (F := Ideal) m ρ c (Proc.devRef .tc main_v14)) (ix2 n (0 : Fin 1)) = deg (kIn m c) n := by
  have h : W5 (F := Ideal) m ρ c (Proc.devRef .tc main_v14) = W4 (F := Ideal) m ρ c (Proc.devRef .tc main_v14) :=
    (W5_arr m ρ c 2).trans (((dat1 (V4 m ρ) c).arrAt_in 2 rfl _).trans (A_eq1 (V4 m ρ) c 2))
  rw [h]; exact at4_deg m ρ c n

end Cert.KernelIdeal.Thread

end
-- ==== Proof.KernelThreadB.lean ====
/-
  The kernel program's buffers from the end of layer 1 to the return, in the specification's terms: the third region
  projects the hidden features, the host gathers the projections along the edges and sums them at the destinations,
  and the fourth region adds the edge-feature term, the bias by arriving-edge count and the skip term and applies the
  last affine map.  The result buffer at the last boundary holds `outK`.
-/
import proofs.«431509_j48661979464283_3_alg».proof.Proof.Gen.KernelIdeal.Frame
import proofs.«431509_j48661979464283_3_alg».proof.Proof.Inputs
import proofs.«431509_j48661979464283_3_alg».proof.Proof.Region2
import proofs.«431509_j48661979464283_3_alg».proof.Proof.Region3
import proofs.«431509_j48661979464283_3_alg».proof.Proof.KernelHost3
import proofs.«431509_j48661979464283_3_alg».proof.Proof.KernelThreadA
import proofs.«431509_j48661979464283_3_alg».proof.Proof.LibCarry
import Idealize.ShloMosaic.Lib.StableHlo.Run
import Idealize.ShloMosaic.Lib.Pipeline.Value
import Idealize.ShloMosaic.Lib.ValueIdx

noncomputable section

namespace Cert.KernelIdeal.Thread

open Cert.KernelIdeal Cert.KernelIdeal.Gen Cert.EdgeConv Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Carried from the exit of the second region to the entry of the fourth: neither the third region nor the
    host operations after it write these buffers -/

theorem keep58_main_v10 (c : Dev nD) :
    W8 (F := Ideal) m ρ c (Proc.devRef .tc main_v10) = W5 (F := Ideal) m ρ c (Proc.devRef .tc main_v10) :=
  calc W8 (F := Ideal) m ρ c (Proc.devRef .tc main_v10)
    _ = W7 (F := Ideal) m ρ c (Proc.devRef .tc main_v10) := by keep_host hostOps3_1
    _ = W6 (F := Ideal) m ρ c (Proc.devRef .tc main_v10) := by keep_host hostOps3
    _ = W5 (F := Ideal) m ρ c (Proc.devRef .tc main_v10) := W6_of_ne m ρ c main_v10 (by decide)

theorem keep58_main_v14 (c : Dev nD) :
    W8 (F := Ideal) m ρ c (Proc.devRef .tc main_v14) = W5 (F := Ideal) m ρ c (Proc.devRef .tc main_v14) :=
  calc W8 (F := Ideal) m ρ c (Proc.devRef .tc main_v14)
    _ = W7 (F := Ideal) m ρ c (Proc.devRef .tc main_v14) := by keep_host hostOps3_1
    _ = W6 (F := Ideal) m ρ c (Proc.devRef .tc main_v14) := by keep_host hostOps3
    _ = W5 (F := Ideal) m ρ c (Proc.devRef .tc main_v14) := W6_of_ne m ρ c main_v14 (by decide)

theorem keep58_main_v7 (c : Dev nD) :
    W8 (F := Ideal) m ρ c (Proc.devRef .tc main_v7) = W5 (F := Ideal) m ρ c (Proc.devRef .tc main_v7) :=
  calc W8 (F := Ideal) m ρ c (Proc.devRef .tc main_v7)
    _ = W7 (F := Ideal) m ρ c (Proc.devRef .tc main_v7) := by keep_host hostOps3_1
    _ = W6 (F := Ideal) m ρ c (Proc.devRef .tc main_v7) := by keep_host hostOps3
    _ = W5 (F := Ideal) m ρ c (Proc.devRef .tc main_v7) := W6_of_ne m ρ c main_v7 (by decide)

theorem keep58_main_arg8 (c : Dev nD) :
    W8 (F := Ideal) m ρ c (Proc.devRef .tc main_arg8) = W5 (F := Ideal) m ρ c (Proc.devRef .tc main_arg8) :=
  calc W8 (F := Ideal) m ρ c (Proc.devRef .tc main_arg8)
    _ = W7 (F := Ideal) m ρ c (Proc.devRef .tc main_arg8) := by keep_host hostOps3_1
    _ = W6 (F := Ideal) m ρ c (Proc.devRef .tc main_arg8) := by keep_host hostOps3
    _ = W5 (F := Ideal) m ρ c (Proc.devRef .tc main_arg8) := W6_of_ne m ρ c main_arg8 (by decide)

theorem keep58_main_arg11 (c : Dev nD) :
    W8 (F := Ideal) m ρ c (Proc.devRef .tc main_arg11) = W5 (F := Ideal) m ρ c (Proc.devRef .tc main_arg11) :=
  calc W8 (F := Ideal) m ρ c (Proc.devRef .tc main_arg11)
    _ = W7 (F := Ideal) m ρ c (Proc.devRef .tc main_arg11) := by keep_host hostOps3_1
    _ = W6 (F := Ideal) m ρ c (Proc.devRef .tc main_arg11) := by keep_host hostOps3
    _ = W5 (F := Ideal) m ρ c (Proc.devRef .tc main_arg11) := W6_of_ne m ρ c main_arg11 (by decide)

theorem keep58_main_arg12 (c : Dev nD) :
    W8 (F := Ideal) m ρ c (Proc.devRef .tc main_arg12) = W5 (F := Ideal) m ρ c (Proc.devRef .tc main_arg12) :=
  calc W8 (F := Ideal) m ρ c (Proc.devRef .tc main_arg12)
    _ = W7 (F := Ideal) m ρ c (Proc.devRef .tc main_arg12) := by keep_host hostOps3_1
    _ = W6 (F := Ideal) m ρ c (Proc.devRef .tc main_arg12) := by keep_host hostOps3
    _ = W5 (F := Ideal) m ρ c (Proc.devRef .tc main_arg12) := W6_of_ne m ρ c main_arg12 (by decide)

/-- The third region's second output is not written by the host operations after it. -/
theorem keep68_main_v21_1 (c : Dev nD) :
    W8 (F := Ideal) m ρ c (Proc.devRef .tc main_v21_1) = W6 (F := Ideal) m ρ c (Proc.devRef .tc main_v21_1) :=
  calc W8 (F := Ideal) m ρ c (Proc.devRef .tc main_v21_1)
    _ = W7 (F := Ideal) m ρ c (Proc.devRef .tc main_v21_1) := by keep_host hostOps3_1
    _ = W6 (F := Ideal) m ρ c (Proc.devRef .tc main_v21_1) := by keep_host hostOps3

/-! ## At the exit of the third region (boundary `W6`) -/

/-- The source words. -/
theorem at6_src (c : Dev nD) (r : Fin 3200000) :
    warr S3200000 (W6 (F := Ideal) m ρ c (Proc.devRef .tc main_v1)) (ix1 r)
      = warr S2x3200000 (m ((c.tc : Thread nD τ).loc main_arg1)) (ix2 (0 : Fin 2) r) := by
  rw [W6_of_ne m ρ c main_v1 (by decide), at5_src]

/-- The destination words. -/
theorem at6_dst (c : Dev nD) (r : Fin 3200000) :
    warr S3200000 (W6 (F := Ideal) m ρ c (Proc.devRef .tc main_v3)) (ix1 r)
      = warr S2x3200000 (m ((c.tc : Thread nD τ).loc main_arg1)) (ix2 (1 : Fin 2) r) := by
  rw [W6_of_ne m ρ c main_v3 (by decide), at5_dst]

/-- The projected hidden features. -/
theorem at6_xw (c : Dev nD) (hsrc : SrcAll m c) (n : Fin 100000) (j : Fin 16) :
    arr S100000x16 (W6 (F := Ideal) m ρ c (Proc.devRef .tc main_v21_0)) (ix2 n j)
      = xw (h1K (kIn m c)) (W2t (kIn m c)) n j := by
  show arr S100000x16 (W6 (F := Ideal) m ρ c (Proc.devRef .tc (Pipeline.arrRef spec2 4))) (ix2 n j) = _
  rw [W6_arr, Regions.reg2_xw]
  unfold xw
  refine Finset.sum_congr rfl fun k _ => ?_
  show arr S100000x16 (W5 (F := Ideal) m ρ c (Proc.devRef .tc main_v20)) (ix2 n k)
      * arr S16x16 (W5 (F := Ideal) m ρ c (Proc.devRef .tc main_v6)) (ix2 k j) = _
  rw [at5_h m ρ c hsrc, at5_w2t]

/-- The skip term of layer 2. -/
theorem at6_skip (c : Dev nD) (hsrc : SrcAll m c) (n : Fin 100000) (j : Fin 16) :
    arr S100000x16 (W6 (F := Ideal) m ρ c (Proc.devRef .tc main_v21_1)) (ix2 n j)
      = skp (h1K (kIn m c)) (kIn m c).Ws2 (kIn m c).bs2 n j := by
  show arr S100000x16 (W6 (F := Ideal) m ρ c (Proc.devRef .tc (Pipeline.arrRef spec2 5))) (ix2 n j) = _
  rw [W6_arr, Regions.reg2_skip]
  unfold skp
  show (∑ k : Fin 16, arr S100000x16 (W5 (F := Ideal) m ρ c (Proc.devRef .tc main_v20)) (ix2 n k)
      * arr S16x16 (W5 (F := Ideal) m ρ c (Proc.devRef .tc main_arg9)) (ix2 k j))
      + arr S16 (W5 (F := Ideal) m ρ c (Proc.devRef .tc main_arg10)) (ix1 j) = _
  rw [at5_bs2]
  refine congrArg (· + (kIn m c).bs2 j) (Finset.sum_congr rfl fun k _ => ?_)
  rw [at5_h m ρ c hsrc, at5_ws2]

/-! ## At the entry of the fourth region (boundary `W8`) -/

/-- The projected hidden features gathered along the edges and summed at the destinations. -/
theorem at8_sg (c : Dev nD) (hsrc : SrcAll m c) (n : Fin 100000) (j : Fin 16) :
    arr S100000x16 (V8 (F := Ideal) m ρ c main_v25) (ix2 n j)
      = seg (kIn m c) (fun r => xw (h1K (kIn m c)) (W2t (kIn m c)) ((kIn m c).src r) j) n := by
  have hs : ∀ r : Fin 3200000, SrcOk (warr S3200000 (W6 (F := Ideal) m ρ c (Proc.devRef .tc main_v1)) (ix1 r)) := fun r => by
    rw [at6_src]; exact hsrc r
  refine (Host.host3_sg (W6 (F := Ideal) m ρ c) hs n j).trans ?_
  unfold seg
  refine Finset.sum_congr rfl fun r _ => ?_
  have hd : (warr S3200000 (W6 (F := Ideal) m ρ c (Proc.devRef .tc main_v3)) (ix1 r)).toInt = (kIn m c).dst r :=
    congrArg BitVec.toInt (at6_dst m ρ c r)
  have hi : (⟨min (normW (warr S3200000 (W6 (F := Ideal) m ρ c (Proc.devRef .tc main_v1)) (ix1 r))).toInt.toNat (100000 - 1),
      by omega⟩ : Fin 100000) = (kIn m c).src r :=
    Fin.ext (congrArg (fun w : BitVec 32 => min (normW w).toInt.toNat (100000 - 1)) (at6_src m ρ c r))
  rw [at6_xw m ρ c hsrc, hd, hi]

theorem at8_sea (c : Dev nD) (n : Fin 100000) (k : Fin 16) :
    arr S100000x16 (V8 (F := Ideal) m ρ c main_v10) (ix2 n k) = sea (kIn m c) n k := by
  show arr S100000x16 (W8 (F := Ideal) m ρ c (Proc.devRef .tc main_v10)) (ix2 n k) = _
  rw [keep58_main_v10, at5_sea]

theorem at8_deg (c : Dev nD) (n : Fin 100000) :
    arr S100000x1 (V8 (F := Ideal) m ρ c main_v14) (ix2 n (0 : Fin 1)) = deg (kIn m c) n := by
  show arr S100000x1 (W8 (F := Ideal) m ρ c (Proc.devRef .tc main_v14)) (ix2 n (0 : Fin 1)) = _
  rw [keep58_main_v14, at5_deg]

theorem at8_w2b (c : Dev nD) (k : Fin 16) (j : Fin 16) :
    arr S16x16 (V8 (F := Ideal) m ρ c main_v7) (ix2 k j) = W2b (kIn m c) k j := by
  show arr S16x16 (W8 (F := Ideal) m ρ c (Proc.devRef .tc main_v7)) (ix2 k j) = _
  rw [keep58_main_v7, at5_w2b]

theorem at8_b2 (c : Dev nD) (j : Fin 16) :
    arr S16 (V8 (F := Ideal) m ρ c main_arg8) (ix1 j) = (kIn m c).b2 j := by
  show arr S16 (W8 (F := Ideal) m ρ c (Proc.devRef .tc main_arg8)) (ix1 j) = _
  rw [keep58_main_arg8, at5_b2]

theorem at8_w3 (c : Dev nD) (j : Fin 16) (q : Fin 64) :
    arr S16x64 (V8 (F := Ideal) m ρ c main_arg11) (ix2 j q) = (kIn m c).W3 j q := by
  show arr S16x64 (W8 (F := Ideal) m ρ c (Proc.devRef .tc main_arg11)) (ix2 j q) = _
  rw [keep58_main_arg11, at5_w3]

theorem at8_b3 (c : Dev nD) (q : Fin 64) :
    arr S64 (V8 (F := Ideal) m ρ c main_arg12) (ix1 q) = (kIn m c).b3 q := by
  show arr S64 (W8 (F := Ideal) m ρ c (Proc.devRef .tc main_arg12)) (ix1 q) = _
  rw [keep58_main_arg12, at5_b3]

theorem at8_skip (c : Dev nD) (hsrc : SrcAll m c) (n : Fin 100000) (j : Fin 16) :
    arr S100000x16 (V8 (F := Ideal) m ρ c main_v21_1) (ix2 n j)
      = skp (h1K (kIn m c)) (kIn m c).Ws2 (kIn m c).bs2 n j := by
  show arr S100000x16 (W8 (F := Ideal) m ρ c (Proc.devRef .tc main_v21_1)) (ix2 n j) = _
  rw [keep68_main_v21_1, at6_skip m ρ c hsrc]

/-! ## The result -/

/-- The result buffer at the last boundary is the specification's split form. -/
theorem thr_out (c : Dev nD) (hsrc : SrcAll m c) (n : Fin 100000) (q : Fin 64) :
    arr S100000x64 (W9 (F := Ideal) m ρ c (Proc.devRef .tc main_v26)) (ix2 n q) = outK (kIn m c) n q := by
  show arr S100000x64 (W9 (F := Ideal) m ρ c (Proc.devRef .tc (Pipeline.arrRef spec3 8))) (ix2 n q) = _
  rw [W9_arr, Regions.reg3_out, at8_b3]
  unfold outK h2K aggK
  refine congrArg (· + (kIn m c).b3 q) (Finset.sum_congr rfl fun j _ => ?_)
  have hsum : (∑ k : Fin 16, arr S100000x16 (V8 (F := Ideal) m ρ c main_v10) (ix2 n k)
        * arr S16x16 (V8 (F := Ideal) m ρ c main_v7) (ix2 k j))
      = ∑ k : Fin 16, sea (kIn m c) n k * W2b (kIn m c) k j :=
    Finset.sum_congr rfl fun k _ => by rw [at8_sea, at8_w2b]
  rw [hsum, at8_sg m ρ c hsrc, at8_deg, at8_b2, at8_skip m ρ c hsrc, at8_w3]

end Cert.KernelIdeal.Thread

end
-- ==== Proof.RefLayer1.lean ====
/-
  The reference's first layer read at an index.  Per edge the source node's 64 features (a row gather by the
  normalised source word, clamped) are joined with the edge's 16 features and multiplied by the 80×16 message
  matrix, the bias added; a row scatter-add onto zeros sums at each node the edges whose destination word names it; the
  skip term is added and `max · 0` taken.  That is the specification's direct form `h1R`.
-/
import proofs.«431509_j48661979464283_3_alg».proof.Proof.Gen.ReferenceIdeal.Read
import proofs.«431509_j48661979464283_3_alg».proof.Proof.Inputs
import proofs.«431509_j48661979464283_3_alg».proof.Proof.LibScatterAdd
import proofs.«431509_j48661979464283_3_alg».proof.Proof.LibGatherRows

import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layers

open Cert.ReferenceIdeal Cert.ReferenceIdeal.Gen Cert.ReferenceIdeal.Read Cert.EdgeConv Idealize.ShloMosaic Idealize.ShloMosaic.TcCoe
open Idealize.ShloMosaic.ValueIdx

namespace Layer1

/-- The gather's index column at row `r` is the normalised source word of edge `r`. -/
theorem src_col (x1 : (⟨S2x3200000, .i32⟩ : BufTy).Contents (Elt Ideal)) (r : Fin 3200000) :
    warr S3200000x1 (val_main_v9 (F := Ideal) x1) (ix2 r (0 : Fin 1)) = normW (x1 (ix2 (0 : Fin 2) r)) := by
  show val_main_v9 (F := Ideal) x1 (ix2 r (0 : Fin 1)) = _
  rw [val_main_v9_apply, val_main_v8_apply, val_main_v5_apply, val_main_v7_apply, val_main_v4_apply, val_main_v6_apply,
    val_main_v1_apply, val_main_v0_apply]
  have e : idx_main_v0 (idx_main_v1 (idx_main_v9 (ix2 r (0 : Fin 1)))) = ix2 (0 : Fin 2) r :=
    funext fun a => Fin.ext (by
      match a with
      | ⟨0, _⟩ => rfl
      | ⟨1, _⟩ => exact Nat.mod_eq_of_lt r.isLt)
  rw [e]
  rfl

/-- The scatter's index column at row `r` is the destination word of edge `r`. -/
theorem dst_col (x1 : (⟨S2x3200000, .i32⟩ : BufTy).Contents (Elt Ideal)) (r : Fin 3200000) :
    warr S3200000x1 (val_main_v17 (F := Ideal) x1) (ix2 r (0 : Fin 1)) = x1 (ix2 (1 : Fin 2) r) := by
  show val_main_v17 (F := Ideal) x1 (ix2 r (0 : Fin 1)) = _
  rw [val_main_v17_apply, val_main_v3_apply, val_main_v2_apply]
  have e : idx_main_v2 (idx_main_v3 (idx_main_v17 (ix2 r (0 : Fin 1)))) = ix2 (1 : Fin 2) r :=
    funext fun a => Fin.ext (by
      match a with
      | ⟨0, _⟩ => rfl
      | ⟨1, _⟩ => exact Nat.mod_eq_of_lt r.isLt)
  rw [e]

/-- The gathered rows: row `r` of the gather is the feature row of the source node of edge `r`. -/
theorem gath_at (x0 : (⟨S100000x64, .f32⟩ : BufTy).Contents (Elt Ideal)) (x1 : (⟨S2x3200000, .i32⟩ : BufTy).Contents (Elt Ideal))
    (r : Fin 3200000) (k : Fin 64) :
    arr S3200000x64 (val_main_v10 (F := Ideal) x0 x1) (ix2 r k)
      = x0 (ix2 (⟨min (normW (x1 (ix2 (0 : Fin 2) r))).toInt.toNat (100000 - 1), by omega⟩ : Fin 100000) k) := by
  show val_main_v10 (F := Ideal) x0 x1 (ix2 r k) = _
  unfold val_main_v10
  generalize hy : val_main_v9 (F := Ideal) x1 = y
  have hy0 : y (ix2 r (0 : Fin 1)) = normW (x1 (ix2 (0 : Fin 2) r)) := by rw [← hy]; exact src_col x1 r
  rw [Cert.LibGatherRows.gather_rows_apply (R := 100000) (D := 64) (N := 3200000) (by decide)
    gather_S100000x64_S3200000x1_S3200000x64_1_0_n_n_0_1_164 rfl rfl rfl rfl rfl rfl rfl x0 y r k]
  simp only [hy0]

/-- The joined features of edge `r`: the source node's 64 features, then the edge's 16. -/
theorem cat_at (x0 : (⟨S100000x64, .f32⟩ : BufTy).Contents (Elt Ideal)) (x1 : (⟨S2x3200000, .i32⟩ : BufTy).Contents (Elt Ideal))
    (x2 : (⟨S3200000x16, .f32⟩ : BufTy).Contents (Elt Ideal)) (r : Fin 3200000) (k : Fin (64 + 16)) :
    arr S3200000x80 (val_main_v11 (F := Ideal) x0 x1 x2) (ix2 r k)
      = Fin.addCases
          (fun k' : Fin 64 => arr S100000x64 x0
            (ix2 (⟨min (normW (x1 (ix2 (0 : Fin 2) r))).toInt.toNat (100000 - 1), by omega⟩ : Fin 100000) k'))
          (fun k' : Fin 16 => arr S3200000x16 x2 (ix2 r k')) k := by
  show val_main_v11 (F := Ideal) x0 x1 x2 (ix2 r k) = _
  unfold val_main_v11
  have hy : ∀ k' : Fin 64, val_main_v10 (F := Ideal) x0 x1 (ix2 r k')
      = x0 (ix2 (⟨min (normW (x1 (ix2 (0 : Fin 2) r))).toInt.toNat (100000 - 1), by omega⟩ : Fin 100000) k') :=
    fun k' => gath_at x0 x1 r k'
  generalize val_main_v10 (F := Ideal) x0 x1 = y at hy ⊢
  refine Fin.addCases (fun k' => ?_) (fun k' => ?_) k
  · rw [Fin.addCases_left]
    exact (concatenate_pair_apply_left 1 y x2 concatenates_S3200000x64_S3200000x16_S3200000x80_d1 _ rfl (ix2 r k')
      (fun b => by
        match b with
        | ⟨0, _⟩ => rfl
        | ⟨1, _⟩ => rfl)).trans (hy k')
  · rw [Fin.addCases_right]
    exact concatenate_pair_apply_right 1 y x2 concatenates_S3200000x64_S3200000x16_S3200000x80_d1 _ rfl rfl (ix2 r k')
      (fun b hb => by
        match b with
        | ⟨0, _⟩ => rfl
        | ⟨1, _⟩ => exact absurd rfl hb)
      (by show k'.val + 64 = 64 + k'.val; omega)

/-- What edge `r` sends: its joined features times the message matrix, plus the bias. -/
theorem msg_at (x0 : (⟨S100000x64, .f32⟩ : BufTy).Contents (Elt Ideal)) (x1 : (⟨S2x3200000, .i32⟩ : BufTy).Contents (Elt Ideal))
    (x2 : (⟨S3200000x16, .f32⟩ : BufTy).Contents (Elt Ideal)) (x3 : (⟨S80x16, .f32⟩ : BufTy).Contents (Elt Ideal))
    (x4 : (⟨S16, .f32⟩ : BufTy).Contents (Elt Ideal)) (r : Fin 3200000) (j : Fin 16) :
    val_main_v15 (F := Ideal) x0 x1 x2 x3 x4 (ix2 r j)
      = (∑ k : Fin (64 + 16),
          Fin.addCases
            (fun k' : Fin 64 => arr S100000x64 x0
              (ix2 (⟨min (normW (x1 (ix2 (0 : Fin 2) r))).toInt.toNat (100000 - 1), by omega⟩ : Fin 100000) k'))
            (fun k' : Fin 16 => arr S3200000x16 x2 (ix2 r k')) k * arr S80x16 x3 (ix2 k j))
        + arr S16 x4 (ix1 j) := by
  rw [val_main_v15_apply, val_main_v12_apply, val_main_v14_apply, val_main_v13_apply, Ideal.addf_def]
  refine congrArg₂ (· + ·) (Finset.sum_congr rfl fun k _ => ?_) (congrArg x4 (funext fun a => Fin.ext (by
    match a with
    | ⟨0, _⟩ => rfl)))
  have el : lidx_main_v12 (ix2 r j) k = ix2 r k := funext fun a => Fin.ext (by
    match a with
    | ⟨0, _⟩ => rfl
    | ⟨1, _⟩ => rfl)
  have er : ridx_main_v12 (ix2 r j) k = ix2 k j := funext fun a => Fin.ext (by
    match a with
    | ⟨0, _⟩ => rfl
    | ⟨1, _⟩ => rfl)
  rw [el, er]
  exact congrArg (· * x3 (ix2 k j)) (cat_at x0 x1 x2 r k)

/-- At the ideal instance the host's accumulating scatter is the exact sum. -/
theorem hostScatterAdd_eq {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

/-- What arrives at node `n`: the sum of what the edges whose destination word names `n` send. -/
theorem scat_at (x0 : (⟨S100000x64, .f32⟩ : BufTy).Contents (Elt Ideal)) (x1 : (⟨S2x3200000, .i32⟩ : BufTy).Contents (Elt Ideal))
    (x2 : (⟨S3200000x16, .f32⟩ : BufTy).Contents (Elt Ideal)) (x3 : (⟨S80x16, .f32⟩ : BufTy).Contents (Elt Ideal))
    (x4 : (⟨S16, .f32⟩ : BufTy).Contents (Elt Ideal)) (n : Fin 100000) (j : Fin 16) :
    val_main_v18 (F := Ideal) x0 x1 x2 x3 x4 (ix2 n j)
      = ∑ r : Fin 3200000, if (warr S2x3200000 x1 (ix2 (1 : Fin 2) r)).toInt = (n.val : ℤ)
          then arr S3200000x16 (val_main_v15 (F := Ideal) x0 x1 x2 x3 x4) (ix2 r j) else 0 := by
  unfold val_main_v18
  generalize val_main_v15 (F := Ideal) x0 x1 x2 x3 x4 = u
  generalize hw : val_main_v17 (F := Ideal) x1 = w
  have hw0 : ∀ r : Fin 3200000, w (ix2 r (0 : Fin 1)) = x1 (ix2 (1 : Fin 2) r) := fun r => by rw [← hw]; exact dst_col x1 r
  rw [hostScatterAdd_eq,
    Cert.ScatterAdd.scatterAdd_rows (C := 100000) (D := 16) (N := 3200000)
      scatter_S100000x16_S3200000x1_S3200000x16_1_0_0_1 rfl rfl rfl rfl (val_main_v16 (F := Ideal)) w u n j,
    val_main_v16_apply, val_main_cst_apply, Ideal.ofBits_def, Ideal.ofBits_zero_f32, zero_add]
  refine Finset.sum_congr rfl fun r _ => ?_
  rw [hw0 r]

/-- The skip term at node `n`. -/
theorem skip_at (x0 : (⟨S100000x64, .f32⟩ : BufTy).Contents (Elt Ideal)) (x5 : (⟨S64x16, .f32⟩ : BufTy).Contents (Elt Ideal))
    (x6 : (⟨S16, .f32⟩ : BufTy).Contents (Elt Ideal)) (n : Fin 100000) (j : Fin 16) :
    val_main_v22 (F := Ideal) x0 x5 x6 (ix2 n j)
      = (∑ k : Fin 64, arr S100000x64 x0 (ix2 n k) * arr S64x16 x5 (ix2 k j)) + arr S16 x6 (ix1 j) := by
  rw [val_main_v22_apply, val_main_v19_apply, val_main_v21_apply, val_main_v20_apply, Ideal.addf_def]
  refine congrArg₂ (· + ·) (Finset.sum_congr rfl fun k _ => ?_) (congrArg x6 (funext fun a => Fin.ext (by
    match a with
    | ⟨0, _⟩ => rfl)))
  have el : lidx_main_v19 (ix2 n j) k = ix2 n k := funext fun a => Fin.ext (by
    match a with
    | ⟨0, _⟩ => rfl
    | ⟨1, _⟩ => rfl)
  have er : ridx_main_v19 (ix2 n j) k = ix2 k j := funext fun a => Fin.ext (by
    match a with
    | ⟨0, _⟩ => rfl
    | ⟨1, _⟩ => rfl)
  rw [el, er]

end Layer1

open Layer1

/-- The hidden features after layer 1. -/
theorem ref_h1 (x0 : (⟨S100000x64, .f32⟩ : BufTy).Contents (Elt Ideal)) (x1 : (⟨S2x3200000, .i32⟩ : BufTy).Contents (Elt Ideal))
    (x2 : (⟨S3200000x16, .f32⟩ : BufTy).Contents (Elt Ideal)) (x3 : (⟨S80x16, .f32⟩ : BufTy).Contents (Elt Ideal))
    (x4 : (⟨S16, .f32⟩ : BufTy).Contents (Elt Ideal)) (x5 : (⟨S64x16, .f32⟩ : BufTy).Contents (Elt Ideal))
    (x6 : (⟨S16, .f32⟩ : BufTy).Contents (Elt Ideal)) (x7 : (⟨S32x16, .f32⟩ : BufTy).Contents (Elt Ideal))
    (x8 : (⟨S16, .f32⟩ : BufTy).Contents (Elt Ideal)) (x9 : (⟨S16x16, .f32⟩ : BufTy).Contents (Elt Ideal))
    (x10 : (⟨S16, .f32⟩ : BufTy).Contents (Elt Ideal)) (x11 : (⟨S16x64, .f32⟩ : BufTy).Contents (Elt Ideal))
    (x12 : (⟨S64, .f32⟩ : BufTy).Contents (Elt Ideal))
    (n : Fin 100000) (j : Fin 16) :
    arr S100000x16 (val_main_v24 (F := Ideal) x0 x1 x2 x3 x4 x5 x6) (ix2 n j)
      = h1R (inputsOf x0 x1 x2 x3 x4 x5 x6 x7 x8 x9 x10 x11 x12) n j := by
  show val_main_v24 (F := Ideal) x0 x1 x2 x3 x4 x5 x6 (ix2 n j) = _
  rw [val_main_v24_apply, val_main_v23_apply, val_main_call0_v0_apply, val_main_call0_cst_apply, scat_at, skip_at,
    Ideal.maximumf_def, Ideal.addf_def, Ideal.ofBits_def, Ideal.ofBits_zero_f32, h1R]
  refine congrArg₂ max (congrArg₂ (· + ·) ?_ rfl) rfl
  rw [aggR, seg]
  exact Finset.sum_congr rfl fun r _ => if_congr Iff.rfl (msg_at x0 x1 x2 x3 x4 r j) rfl

end Cert.ReferenceIdeal.Layers

end
-- ==== Proof.RefLayer2.lean ====
/-
  The reference's second layer and last affine map read at an index: the same message passing over the hidden
  features (a 32×16 message matrix), the skip term, then the 16×64 affine map.  With layer 1 read as `h1R` this is
  the specification's direct form `outR`.
-/
import proofs.«431509_j48661979464283_3_alg».proof.Proof.Gen.ReferenceIdeal.Read
import proofs.«431509_j48661979464283_3_alg».proof.Proof.Inputs
import proofs.«431509_j48661979464283_3_alg».proof.Proof.LibScatterAdd
import proofs.«431509_j48661979464283_3_alg».proof.Proof.LibGatherRows
import proofs.«431509_j48661979464283_3_alg».proof.Proof.RefLayer1
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layers

open Cert.ReferenceIdeal Cert.ReferenceIdeal.Gen Cert.ReferenceIdeal.Read Cert.EdgeConv Idealize.ShloMosaic Idealize.ShloMosaic.TcCoe
open Idealize.ShloMosaic.ValueIdx

namespace Layer2

section Stages
variable (x0 : (⟨S100000x64, .f32⟩ : BufTy).Contents (Elt Ideal)) (x1 : (⟨S2x3200000, .i32⟩ : BufTy).Contents (Elt Ideal))
    (x2 : (⟨S3200000x16, .f32⟩ : BufTy).Contents (Elt Ideal)) (x3 : (⟨S80x16, .f32⟩ : BufTy).Contents (Elt Ideal))
    (x4 : (⟨S16, .f32⟩ : BufTy).Contents (Elt Ideal)) (x5 : (⟨S64x16, .f32⟩ : BufTy).Contents (Elt Ideal))
    (x6 : (⟨S16, .f32⟩ : BufTy).Contents (Elt Ideal)) (x7 : (⟨S32x16, .f32⟩ : BufTy).Contents (Elt Ideal))
    (x8 : (⟨S16, .f32⟩ : BufTy).Contents (Elt Ideal)) (x9 : (⟨S16x16, .f32⟩ : BufTy).Contents (Elt Ideal))
    (x10 : (⟨S16, .f32⟩ : BufTy).Contents (Elt Ideal)) (x11 : (⟨S16x64, .f32⟩ : BufTy).Contents (Elt Ideal))
    (x12 : (⟨S64, .f32⟩ : BufTy).Contents (Elt Ideal))

/-- The last affine map: the result at `(n, q)` is the row of layer 2 at `n` times column `q` of the 16×64 matrix, plus the bias. -/
theorem v48_read (n : Fin 100000) (q : Fin 64) :
    arr S100000x64 (val_main_v48 (F := Ideal) x0 x1 x2 x3 x4 x5 x6 x7 x8 x9 x10 x11 x12) (ix2 n q)
      = (∑ j : Fin 16, arr S100000x16 (val_main_v44 (F := Ideal) x0 x1 x2 x3 x4 x5 x6 x7 x8 x9 x10) (ix2 n j)
            * arr S16x64 x11 (ix2 j q)) + arr S64 x12 (ix1 q) := by
  show val_main_v48 (F := Ideal) x0 x1 x2 x3 x4 x5 x6 x7 x8 x9 x10 x11 x12 (ix2 n q) = _
  rw [val_main_v48_apply, val_main_v45_apply, val_main_v47_apply, val_main_v46_apply]
  generalize val_main_v44 (F := Ideal) x0 x1 x2 x3 x4 x5 x6 x7 x8 x9 x10 = y
  have e1 : ∀ k : Fin 16, lidx_main_v45 (ix2 n q) k = ix2 n k := fun k => funext fun a => Fin.ext (by
    match a with | ⟨0, _⟩ => rfl | ⟨1, _⟩ => rfl)
  have e2 : ∀ k : Fin 16, ridx_main_v45 (ix2 n q) k = ix2 k q := fun k => funext fun a => Fin.ext (by
    match a with | ⟨0, _⟩ => rfl | ⟨1, _⟩ => rfl)
  have e3 : idx_main_v46 (idx_main_v47 (ix2 n q)) = ix1 q := funext fun a => Fin.ext (by
    match a with | ⟨0, _⟩ => rfl)
  simp only [e1, e2, e3]
  rfl

/-- Layer 2 at `(n, j)`: what the scatter gathered there plus the skip term over the hidden features. -/
theorem v44_read (n : Fin 100000) (j : Fin 16) :
    arr S100000x16 (val_main_v44 (F := Ideal) x0 x1 x2 x3 x4 x5 x6 x7 x8 x9 x10) (ix2 n j)
      = arr S100000x16 (val_main_v39 (F := Ideal) x0 x1 x2 x3 x4 x5 x6 x7 x8) (ix2 n j)
        + ((∑ k : Fin 16, arr S100000x16 (val_main_v24 (F := Ideal) x0 x1 x2 x3 x4 x5 x6) (ix2 n k) * arr S16x16 x9 (ix2 k j))
            + arr S16 x10 (ix1 j)) := by
  show val_main_v44 (F := Ideal) x0 x1 x2 x3 x4 x5 x6 x7 x8 x9 x10 (ix2 n j) = _
  rw [val_main_v44_apply, val_main_v43_apply, val_main_v40_apply, val_main_v42_apply, val_main_v41_apply]
  generalize val_main_v39 (F := Ideal) x0 x1 x2 x3 x4 x5 x6 x7 x8 = y39
  generalize val_main_v24 (F := Ideal) x0 x1 x2 x3 x4 x5 x6 = y24
  have e1 : ∀ k : Fin 16, lidx_main_v40 (ix2 n j) k = ix2 n k := fun k => funext fun a => Fin.ext (by
    match a with | ⟨0, _⟩ => rfl | ⟨1, _⟩ => rfl)
  have e2 : ∀ k : Fin 16, ridx_main_v40 (ix2 n j) k = ix2 k j := fun k => funext fun a => Fin.ext (by
    match a with | ⟨0, _⟩ => rfl | ⟨1, _⟩ => rfl)
  have e3 : idx_main_v41 (idx_main_v42 (ix2 n j)) = ix1 j := funext fun a => Fin.ext (by
    match a with | ⟨0, _⟩ => rfl)
  simp only [e1, e2, e3]
  rfl

/-- The message of edge `r` at column `j`: the joined features times the 32×16 matrix, plus the bias. -/
theorem v36_read (r : Fin 3200000) (j : Fin 16) :
    arr S3200000x16 (val_main_v36 (F := Ideal) x0 x1 x2 x3 x4 x5 x6 x7 x8) (ix2 r j)
      = (∑ k : Fin 32, arr S3200000x32 (val_main_v32 (F := Ideal) x0 x1 x2 x3 x4 x5 x6) (ix2 r k) * arr S32x16 x7 (ix2 k j))
          + arr S16 x8 (ix1 j) := by
  show val_main_v36 (F := Ideal) x0 x1 x2 x3 x4 x5 x6 x7 x8 (ix2 r j) = _
  rw [val_main_v36_apply, val_main_v33_apply, val_main_v35_apply, val_main_v34_apply]
  generalize val_main_v32 (F := Ideal) x0 x1 x2 x3 x4 x5 x6 = y32
  have e1 : ∀ k : Fin 32, lidx_main_v33 (ix2 r j) k = ix2 r k := fun k => funext fun a => Fin.ext (by
    match a with | ⟨0, _⟩ => rfl | ⟨1, _⟩ => rfl)
  have e2 : ∀ k : Fin 32, ridx_main_v33 (ix2 r j) k = ix2 k j := fun k => funext fun a => Fin.ext (by
    match a with | ⟨0, _⟩ => rfl | ⟨1, _⟩ => rfl)
  have e3 : idx_main_v34 (idx_main_v35 (ix2 r j)) = ix1 j := funext fun a => Fin.ext (by
    match a with | ⟨0, _⟩ => rfl)
  simp only [e1, e2, e3]
  rfl

/-- The joined features of edge `r`: for a column below 16 the gathered hidden feature, otherwise the edge feature. -/
theorem v32_left (r : Fin 3200000) (k : Fin 16) :
    arr S3200000x32 (val_main_v32 (F := Ideal) x0 x1 x2 x3 x4 x5 x6) (ix2 r (Fin.castAdd 16 k))
      = arr S3200000x16 (val_main_v31 (F := Ideal) x0 x1 x2 x3 x4 x5 x6) (ix2 r k) := by
  show val_main_v32 (F := Ideal) x0 x1 x2 x3 x4 x5 x6 (ix2 r (Fin.castAdd 16 k)) = _
  unfold val_main_v32
  generalize val_main_v31 (F := Ideal) x0 x1 x2 x3 x4 x5 x6 = y31
  exact concatenate_pair_apply_left (1 : Fin 2) y31 x2 concatenates_S3200000x16_S3200000x16_S3200000x32_d1
    (ix2 r (Fin.castAdd 16 k)) rfl (ix2 r k) (fun b => by match b with | ⟨0, _⟩ => rfl | ⟨1, _⟩ => rfl)

/-- A column at or past 16 of the joined features is the edge feature, 16 columns less. -/
theorem v32_right (r : Fin 3200000) (k : Fin 16) :
    arr S3200000x32 (val_main_v32 (F := Ideal) x0 x1 x2 x3 x4 x5 x6) (ix2 r (Fin.natAdd 16 k))
      = arr S3200000x16 x2 (ix2 r k) := by
  show val_main_v32 (F := Ideal) x0 x1 x2 x3 x4 x5 x6 (ix2 r (Fin.natAdd 16 k)) = _
  unfold val_main_v32
  generalize val_main_v31 (F := Ideal) x0 x1 x2 x3 x4 x5 x6 = y31
  exact concatenate_pair_apply_right (1 : Fin 2) y31 x2 concatenates_S3200000x16_S3200000x16_S3200000x32_d1
    (ix2 r (Fin.natAdd 16 k)) rfl rfl (ix2 r k)
    (fun b hb => by match b with | ⟨0, _⟩ => rfl | ⟨1, _⟩ => exact absurd rfl hb)
    (by show k.val + 16 = 16 + k.val; omega)

/-- The joined features of edge `r` as the case split the specification writes. -/
theorem v32_read (r : Fin 3200000) (k : Fin (16 + 16)) :
    arr S3200000x32 (val_main_v32 (F := Ideal) x0 x1 x2 x3 x4 x5 x6) (ix2 r k)
      = Fin.addCases (fun k' => arr S3200000x16 (val_main_v31 (F := Ideal) x0 x1 x2 x3 x4 x5 x6) (ix2 r k'))
          (fun k' => arr S3200000x16 x2 (ix2 r k')) k := by
  induction k using Fin.addCases with
  | left k' => rw [Fin.addCases_left]; exact v32_left x0 x1 x2 x3 x4 x5 x6 r k'
  | right k' => rw [Fin.addCases_right]; exact v32_right x0 x1 x2 x3 x4 x5 x6 r k'

/-- The index column of the gather at `(r, 0)` is the normalised source word of edge `r`. -/
theorem v30_read (r : Fin 3200000) :
    warr S3200000x1 (val_main_v30 (F := Ideal) x1) (ix2 r (0 : Fin 1)) = normW (warr S2x3200000 x1 (ix2 (0 : Fin 2) r)) := by
  show val_main_v30 (F := Ideal) x1 (ix2 r (0 : Fin 1)) = _
  rw [val_main_v30_apply, val_main_v29_apply, val_main_v26_apply, val_main_v28_apply, val_main_v25_apply, val_main_v27_apply,
    val_main_c_1_apply, val_main_c_2_apply, val_main_v1_apply, val_main_v0_apply]
  have e : idx_main_v0 (idx_main_v1 (idx_main_v30 (ix2 r (0 : Fin 1)))) = ix2 (0 : Fin 2) r := funext fun a => Fin.ext (by
    match a with
    | ⟨0, _⟩ => rfl
    | ⟨1, _⟩ => exact Nat.mod_eq_of_lt r.isLt)
  rw [e]
  rfl

/-- The gathered hidden features of edge `r` are those of its source node. -/
theorem v31_read (r : Fin 3200000) (k : Fin 16) :
    arr S3200000x16 (val_main_v31 (F := Ideal) x0 x1 x2 x3 x4 x5 x6) (ix2 r k)
      = arr S100000x16 (val_main_v24 (F := Ideal) x0 x1 x2 x3 x4 x5 x6)
          (ix2 ((inputsOf x0 x1 x2 x3 x4 x5 x6 x7 x8 x9 x10 x11 x12).src r) k) := by
  show val_main_v31 (F := Ideal) x0 x1 x2 x3 x4 x5 x6 (ix2 r k) = _
  unfold val_main_v31
  generalize val_main_v24 (F := Ideal) x0 x1 x2 x3 x4 x5 x6 = y24
  rw [Cert.LibGatherRows.gather_rows_apply (by omega) gather_S100000x16_S3200000x1_S3200000x16_1_0_n_n_0_1_116
    rfl rfl rfl rfl rfl rfl rfl y24 (val_main_v30 (F := Ideal) x1) r k]
  refine congrArg (fun i : Fin 100000 => y24 (ix2 i k)) (Fin.ext ?_)
  show min (val_main_v30 (F := Ideal) x1 (ix2 r (0 : Fin 1))).toInt.toNat (100000 - 1)
    = min (normW (x1 (ix2 (0 : Fin 2) r))).toInt.toNat (100000 - 1)
  rw [show val_main_v30 (F := Ideal) x1 (ix2 r (0 : Fin 1)) = normW (x1 (ix2 (0 : Fin 2) r)) from v30_read x1 r]

/-- The index column of the scatter at `(r, 0)` is the destination word of edge `r`. -/
theorem v38_read (r : Fin 3200000) :
    warr S3200000x1 (val_main_v38 (F := Ideal) x1) (ix2 r (0 : Fin 1)) = warr S2x3200000 x1 (ix2 (1 : Fin 2) r) := by
  show val_main_v38 (F := Ideal) x1 (ix2 r (0 : Fin 1)) = _
  rw [val_main_v38_apply, val_main_v3_apply, val_main_v2_apply]
  exact congrArg x1 (funext fun a => Fin.ext (by
    match a with
    | ⟨0, _⟩ => rfl
    | ⟨1, _⟩ => exact Nat.mod_eq_of_lt r.isLt))

/-- The operand of the scatter is zero everywhere. -/
theorem v37_read (i : S100000x16.Idx) : arr S100000x16 (val_main_v37 (F := Ideal)) i = 0 := by
  show val_main_v37 (F := Ideal) i = _
  rw [val_main_v37_apply, val_main_cst_3_apply, Ideal.ofBits_def, Ideal.ofBits_zero_f32]

/-- What the scatter leaves at `(n, j)`: the sum of the messages of the edges whose destination word names `n`. -/
theorem v39_read (n : Fin 100000) (j : Fin 16) :
    arr S100000x16 (val_main_v39 (F := Ideal) x0 x1 x2 x3 x4 x5 x6 x7 x8) (ix2 n j)
      = ∑ r : Fin 3200000, if (warr S2x3200000 x1 (ix2 (1 : Fin 2) r)).toInt = (n.val : ℤ)
          then arr S3200000x16 (val_main_v36 (F := Ideal) x0 x1 x2 x3 x4 x5 x6 x7 x8) (ix2 r j) else 0 := by
  show val_main_v39 (F := Ideal) x0 x1 x2 x3 x4 x5 x6 x7 x8 (ix2 n j) = _
  unfold val_main_v39
  generalize val_main_v36 (F := Ideal) x0 x1 x2 x3 x4 x5 x6 x7 x8 = u
  generalize hw : val_main_v38 (F := Ideal) x1 = w
  have hw0 : ∀ r : Fin 3200000, w (ix2 r (0 : Fin 1)) = x1 (ix2 (1 : Fin 2) r) := fun r => by
    rw [← hw]; exact v38_read x1 r
  rw [Layer1.hostScatterAdd_eq,
    Cert.ScatterAdd.scatterAdd_rows (C := 100000) (D := 16) (N := 3200000)
      scatter_S100000x16_S3200000x1_S3200000x16_1_0_0_1 rfl rfl rfl rfl (val_main_v37 (F := Ideal)) w u n j,
    show val_main_v37 (F := Ideal) (ix2 n j) = 0 from v37_read _, zero_add]
  refine Finset.sum_congr rfl fun r _ => ?_
  rw [hw0 r]

/-- Layer 2 read at `(n, j)` is the specification's direct form. -/
theorem h2_read (n : Fin 100000) (j : Fin 16) :
    arr S100000x16 (val_main_v44 (F := Ideal) x0 x1 x2 x3 x4 x5 x6 x7 x8 x9 x10) (ix2 n j)
      = h2R (inputsOf x0 x1 x2 x3 x4 x5 x6 x7 x8 x9 x10 x11 x12) n j := by
  rw [v44_read]
  unfold h2R
  refine congrArg₂ (fun a b : EReal => a + b) ?_ ?_
  · rw [v39_read]
    unfold aggR seg
    refine Finset.sum_congr rfl fun r _ => ?_
    refine if_congr Iff.rfl ?_ rfl
    rw [v36_read]
    refine congrArg₂ (fun a b : EReal => a + b) (Finset.sum_congr rfl fun k _ =>
      congrArg₂ (fun a b : EReal => a * b) ?_ rfl) rfl
    refine (v32_read x0 x1 x2 x3 x4 x5 x6 r k).trans ?_
    refine congrArg (fun f : Fin 16 → EReal => Fin.addCases (m := 16) (n := 16) (motive := fun _ => EReal) f
      (fun k' => arr S3200000x16 x2 (ix2 r k')) k) (funext fun k' => ?_)
    rw [v31_read x0 x1 x2 x3 x4 x5 x6 x7 x8 x9 x10 x11 x12 r k']
    exact ref_h1 x0 x1 x2 x3 x4 x5 x6 x7 x8 x9 x10 x11 x12 _ k'
  · unfold skp
    exact congrArg₂ (fun a b : EReal => a + b) (Finset.sum_congr rfl fun k _ =>
      congrArg₂ (fun a b : EReal => a * b) (ref_h1 x0 x1 x2 x3 x4 x5 x6 x7 x8 x9 x10 x11 x12 n k) rfl) rfl

end Stages

end Layer2

/-- The reference's result. -/
theorem ref_out (x0 : (⟨S100000x64, .f32⟩ : BufTy).Contents (Elt Ideal)) (x1 : (⟨S2x3200000, .i32⟩ : BufTy).Contents (Elt Ideal))
    (x2 : (⟨S3200000x16, .f32⟩ : BufTy).Contents (Elt Ideal)) (x3 : (⟨S80x16, .f32⟩ : BufTy).Contents (Elt Ideal))
    (x4 : (⟨S16, .f32⟩ : BufTy).Contents (Elt Ideal)) (x5 : (⟨S64x16, .f32⟩ : BufTy).Contents (Elt Ideal))
    (x6 : (⟨S16, .f32⟩ : BufTy).Contents (Elt Ideal)) (x7 : (⟨S32x16, .f32⟩ : BufTy).Contents (Elt Ideal))
    (x8 : (⟨S16, .f32⟩ : BufTy).Contents (Elt Ideal)) (x9 : (⟨S16x16, .f32⟩ : BufTy).Contents (Elt Ideal))
    (x10 : (⟨S16, .f32⟩ : BufTy).Contents (Elt Ideal)) (x11 : (⟨S16x64, .f32⟩ : BufTy).Contents (Elt Ideal))
    (x12 : (⟨S64, .f32⟩ : BufTy).Contents (Elt Ideal))
    (n : Fin 100000) (q : Fin 64) :
    arr S100000x64 (val_main_v48 (F := Ideal) x0 x1 x2 x3 x4 x5 x6 x7 x8 x9 x10 x11 x12) (ix2 n q)
      = outR (inputsOf x0 x1 x2 x3 x4 x5 x6 x7 x8 x9 x10 x11 x12) n q := by
  rw [Layer2.v48_read]
  unfold outR
  refine congrArg₂ (fun a b : EReal => a + b) (Finset.sum_congr rfl fun j _ => ?_) rfl
  rw [Layer2.h2_read x0 x1 x2 x3 x4 x5 x6 x7 x8 x9 x10 x11 x12 n j]
  rfl

end Cert.ReferenceIdeal.Layers

end
-- ==== Proof.PreDecode.lean ====
/-
  What the precondition says, decoded.  The printed predicate is a conjunction of thirteen `jnp.all`s: for each of the
  twelve float arrays "every entry's absolute value is below +∞", and for row 0 of the edge array "every word is at
  least -100000 and below 100000, read signed".  An extended real whose absolute value is below +∞ is neither
  infinity, so every float input is a real number; and every source word names a node.

  The road: the conjunction of one-bit words is 1 exactly when each conjunct is; a reduction by `and` to a single
  word that is 1 makes every reduced entry 1; an entry of the float test is `max x (-x) < ⊤` on the extended reals,
  which excludes both infinities; an entry of the word test is the two signed comparisons against -100000 and 100000,
  and the vector it reads is row 0 of the edge array.
-/
import proofs.«431509_j48661979464283_3_alg».proof.Pre_finite_inputs
import proofs.«431509_j48661979464283_3_alg».proof.Proof.Inputs
import Idealize.ShloMosaic.Lib.ReduceAll
import Idealize.ShloMosaic.Lib.StableHlo.Predicate
import Idealize.ShloMosaic.Lib.Pipeline.Value
import Idealize.ShloMosaic.Lib.ValueIdx
import Idealize.ShloMosaic.PureOps.Ideal.Laws

noncomputable section

namespace Cert.PreDecode

open Cert.Pre_finite_inputs Cert.EdgeConv Idealize.ShloMosaic Idealize.ShloMosaic.ValueIdx

/-- The scalar shape has one index. -/
instance : Subsingleton S_.Idx := ⟨fun a b => funext fun d => d.elim0⟩

/-- The pattern `0x7F800000` is `+∞`. -/
theorem ofBits_inf : Ideal.ofBits .f32 0x7F800000#32 = (⊤ : EReal) := by
  simp [Ideal.ofBits, Ideal.ieee]

/-- An extended real whose absolute value is below `+∞` is neither infinity. -/
theorem ne_top_bot_of_abs_lt_top (x : EReal) (h : max x (-x) < ⊤) : x ≠ ⊤ ∧ x ≠ ⊥ := by
  constructor
  · rintro rfl; simp at h
  · rintro rfl; simp at h

/-- An array all of whose entries pass "absolute value below the broadcast `+∞`" has no infinite entry. -/
theorem finite_of_all {S : Shape} (hb : (⟨0, ![]⟩ : Shape).BroadcastsInDim S ![])
    (a : FVec Ideal S .f32)
    (h : ∀ i, cmpf .olt (Host.absf a) (broadcastInDim S ![] hb (constant (⟨0, ![]⟩ : Shape) .f32 0x7F800000#32)) i = 1#1)
    (i : S.Idx) : a i ≠ (⊤ : EReal) ∧ a i ≠ (⊥ : EReal) := by
  have hi := h i
  simp only [cmpf, Host.absf, broadcastInDim, constant] at hi
  change Ideal.cmp .olt (max (a i) (-(a i))) (Ideal.ofBits .f32 0x7F800000#32) = 1#1 at hi
  rw [ofBits_inf] at hi
  simp only [Ideal.cmp] at hi
  have hlt : max (a i) (-(a i)) < (⊤ : EReal) := by
    simpa [StableHlo.Predicate.ofBool_eq_one_iff] using hi
  exact ne_top_bot_of_abs_lt_top _ hlt

/-- A word that passes "at least -100000 and below 100000, read signed" lies in that range. -/
theorem range_of_cmp (w : BitVec 32)
    (h : IntOp.andi (IntOp.cmpi .sge w 4294867296#32) (IntOp.cmpi .slt w 100000#32) = 1#1) :
    (-100000 : ℤ) ≤ w.toInt ∧ w.toInt < 100000 := by
  obtain ⟨h1, h2⟩ := IntOp.andi_eq_one.1 h
  rw [IntOp.cmpi_sge] at h1
  rw [IntOp.cmpi_slt] at h2
  have e1 : (4294867296#32 : BitVec 32).toInt = -100000 := by decide
  have e2 : (100000#32 : BitVec 32).toInt = 100000 := by decide
  rw [e1] at h1
  rw [e2] at h2
  exact ⟨h1, h2⟩

/-- Row 0 of a two-row array, sliced out and reshaped to a vector, read at `r` is the array at `(0, r)`. -/
theorem row0_apply {α : Type} {N : Nat}
    (hs : (⟨2, ![2, N]⟩ : Shape).Slices ![0, 0] (⟨2, ![1, N]⟩ : Shape))
    (hc : (⟨2, ![1, N]⟩ : Shape).ShapeCasts (⟨1, ![N]⟩ : Shape))
    (a : (⟨2, ![2, N]⟩ : Shape).Idx → α) (r : Fin N) :
    shapeCast (⟨1, ![N]⟩ : Shape) (extractStridedSlice (⟨2, ![1, N]⟩ : Shape) ![0, 0] a hs) hc (ix1 r)
      = a (ix2 (0 : Fin 2) r) := by
  rw [shapeCast_apply _ hc (ix1 r) (ix2 (0 : Fin 1) r)
    (by rw [Shape.rowMajor_val_two, Shape.rowMajor_val_one]; show (0 : Nat) * N + r.val = r.val; omega)]
  exact extractStridedSlice_apply ![0, 0] a hs (ix2 (0 : Fin 1) r) (ix2 (0 : Fin 2) r)
    (fun d => match d with
      | ⟨0, _⟩ => by simp
      | ⟨1, _⟩ => by simp)

/-- A conjunction of two one-bit arrays is 1 at an index exactly when both are. -/
theorem andi_apply_eq_one {s : Shape} (x y : IVec s 1) (i : s.Idx) :
    andi x y i = 1#1 ↔ x i = 1#1 ∧ y i = 1#1 := IntOp.andi_eq_one

variable [Cert.Pre_finite_inputs.Facts]

/-- Under the precondition every float input is real and every source word names a node. -/
theorem pre_decode
    (a0 : FVec Ideal S100000x64 .f32) (a1 : IVec S2x3200000 32) (a2 : FVec Ideal S3200000x16 .f32)
    (a3 : FVec Ideal S80x16 .f32) (a4 : FVec Ideal S16 .f32) (a5 : FVec Ideal S64x16 .f32) (a6 : FVec Ideal S16 .f32)
    (a7 : FVec Ideal S32x16 .f32) (a8 : FVec Ideal S16 .f32) (a9 : FVec Ideal S16x16 .f32) (a10 : FVec Ideal S16 .f32)
    (a11 : FVec Ideal S16x64 .f32) (a12 : FVec Ideal S64 .f32)
    (h : Cert.Pre_finite_inputs.fn (F := Ideal) a0 a1 a2 a3 a4 a5 a6 a7 a8 a9 a10 a11 a12 = fun _ => 1#1) :
    (inputsOf a0 a1 a2 a3 a4 a5 a6 a7 a8 a9 a10 a11 a12).IsReal
      ∧ ∀ r : Fin 3200000, SrcOk (warr S2x3200000 a1 (ix2 (0 : Fin 2) r)) := by
  have h0 := congrFun h ix0
  dsimp only [fn, fn_part1, fn_part2, fn_part3, fn_part4] at h0
  obtain ⟨h0, e1⟩ := (andi_apply_eq_one _ _ _).1 h0
  obtain ⟨h0, e12⟩ := (andi_apply_eq_one _ _ _).1 h0
  obtain ⟨h0, e11⟩ := (andi_apply_eq_one _ _ _).1 h0
  obtain ⟨h0, e10⟩ := (andi_apply_eq_one _ _ _).1 h0
  obtain ⟨h0, e9⟩ := (andi_apply_eq_one _ _ _).1 h0
  obtain ⟨h0, e8⟩ := (andi_apply_eq_one _ _ _).1 h0
  obtain ⟨h0, e7⟩ := (andi_apply_eq_one _ _ _).1 h0
  obtain ⟨h0, e6⟩ := (andi_apply_eq_one _ _ _).1 h0
  obtain ⟨h0, e5⟩ := (andi_apply_eq_one _ _ _).1 h0
  obtain ⟨h0, e4⟩ := (andi_apply_eq_one _ _ _).1 h0
  obtain ⟨h0, e3⟩ := (andi_apply_eq_one _ _ _).1 h0
  obtain ⟨e0, e2⟩ := (andi_apply_eq_one _ _ _).1 h0
  have f0 := finite_of_all _ a0 (Host.reduce_andi_all _ _ _ _ _ e0)
  have f2 := finite_of_all _ a2 (Host.reduce_andi_all _ _ _ _ _ e2)
  have f3 := finite_of_all _ a3 (Host.reduce_andi_all _ _ _ _ _ e3)
  have f4 := finite_of_all _ a4 (Host.reduce_andi_all _ _ _ _ _ e4)
  have f5 := finite_of_all _ a5 (Host.reduce_andi_all _ _ _ _ _ e5)
  have f6 := finite_of_all _ a6 (Host.reduce_andi_all _ _ _ _ _ e6)
  have f7 := finite_of_all _ a7 (Host.reduce_andi_all _ _ _ _ _ e7)
  have f8 := finite_of_all _ a8 (Host.reduce_andi_all _ _ _ _ _ e8)
  have f9 := finite_of_all _ a9 (Host.reduce_andi_all _ _ _ _ _ e9)
  have f10 := finite_of_all _ a10 (Host.reduce_andi_all _ _ _ _ _ e10)
  have f11 := finite_of_all _ a11 (Host.reduce_andi_all _ _ _ _ _ e11)
  have f12 := finite_of_all _ a12 (Host.reduce_andi_all _ _ _ _ _ e12)
  refine ⟨?_, fun r => ?_⟩
  · exact Inputs.isReal_of_finite (inputsOf a0 a1 a2 a3 a4 a5 a6 a7 a8 a9 a10 a11 a12)
      (fun n k => f0 (ix2 n k)) (fun r k => f2 (ix2 r k)) (fun k j => f3 (ix2 k j)) (fun j => f4 (ix1 j))
      (fun k j => f5 (ix2 k j)) (fun j => f6 (ix1 j)) (fun k j => f7 (ix2 k j)) (fun j => f8 (ix1 j))
      (fun k j => f9 (ix2 k j)) (fun j => f10 (ix1 j)) (fun k j => f11 (ix2 k j)) (fun j => f12 (ix1 j))
  · have hr := Host.reduce_andi_all _ _ _ _ _ e1 (ix1 r)
    have hw : IntOp.andi (IntOp.cmpi .sge (a1 (ix2 (0 : Fin 2) r)) 4294867296#32)
        (IntOp.cmpi .slt (a1 (ix2 (0 : Fin 2) r)) 100000#32) = 1#1 := by
      rw [← row0_apply Facts.slices_S2x3200000_S1x3200000_0_0 Facts.shapeCasts_S1x3200000_S3200000 a1 r]
      exact hr
    exact range_of_cmp _ hw

end Cert.PreDecode

end
-- ==== Proof.lean ====
/-
  The certificate of a two-layer edge convolution on a graph of 100000 nodes and 3200000 edges.

  The reference sends along every edge the affine image of the source node's features joined with the edge's
  features, sums at every node what arrives, adds a skip term, and does this twice (`max · 0` after the first layer, a
  last affine map after the second).  The kernel program multiplies the node features by the rows of the message
  matrix that meet them BEFORE they travel (in a region of 20 row blocks), lets the host gather the 16 projected
  columns along the edges and sum them at the destinations, sums the edge features at every node once and multiplies
  that sum by the other rows of the message matrix, and accounts for the message bias by the number of arriving edges.

  On the extended reals these are the same function of the inputs wherever every float input is a real number
  (sums of products distribute over the reals, and every operation involved commutes with the inclusion of the reals)
  and every source word names a node (the kernel program's gather fills a row whose index is out of range with a
  not-a-number, the reference's clamps it).  Both conditions are what the precondition says.

  The three frames are the generated ones (the reference's is its generated run with the result dropped); the ideal
  pass rewrote nothing, so `preserves` is `True`.  For `algebraic`: the kernel program's run ends with the result
  buffer at the last boundary's contents (KernelRun), which the fold through the four regions and the host stretches
  reads as the split form `outK` of the inputs (Region0–3, KernelHost0/1/3, KernelThreadA/B); the reference's run ends
  at its composed term, which its stages read as the direct form `outR` (RefLayer1/2); `outK = outR` on real inputs
  (Spec), which the precondition provides (PreDecode).
-/
import proofs.«431509_j48661979464283_3_alg».proof.Defs
import proofs.«431509_j48661979464283_3_alg».proof.Proof.Gen.Kernel
import proofs.«431509_j48661979464283_3_alg».proof.Proof.Gen.Kernel.Skeleton
import proofs.«431509_j48661979464283_3_alg».proof.Proof.Gen.Kernel.Launch
import proofs.«431509_j48661979464283_3_alg».proof.Proof.Gen.Kernel.Points
import proofs.«431509_j48661979464283_3_alg».proof.Proof.Gen.Kernel.Frame
import proofs.«431509_j48661979464283_3_alg».proof.Proof.Gen.KernelIdeal
import proofs.«431509_j48661979464283_3_alg».proof.Proof.Gen.KernelIdeal.Skeleton
import proofs.«431509_j48661979464283_3_alg».proof.Proof.Gen.KernelIdeal.Launch
import proofs.«431509_j48661979464283_3_alg».proof.Proof.Gen.KernelIdeal.Points
import proofs.«431509_j48661979464283_3_alg».proof.Proof.Gen.KernelIdeal.Frame
import proofs.«431509_j48661979464283_3_alg».proof.Proof.Gen.ReferenceIdeal
import proofs.«431509_j48661979464283_3_alg».proof.Proof.Gen.ReferenceIdeal.Run
import proofs.«431509_j48661979464283_3_alg».proof.Proof.Gen.ReferenceIdeal.Read
import proofs.«431509_j48661979464283_3_alg».proof.Proof.Gen.Pre_finite_inputs
import proofs.«431509_j48661979464283_3_alg».proof.Proof.KernelRun
import proofs.«431509_j48661979464283_3_alg».proof.Proof.KernelThreadB
import proofs.«431509_j48661979464283_3_alg».proof.Proof.RefLayer2
import proofs.«431509_j48661979464283_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeConv

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at one array: the kernel program's at the split form of its inputs, the reference's at the direct
    form of inputs that agree with them, and the two forms agree where the precondition holds. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v26),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨hreal, hsrc⟩ := Cert.PreDecode.pre_decode _ _ _ _ _ _ _ _ _ _ _ _ _ (hpre c)
  obtain ⟨e0, e1, e2, e3, e4, e5, e6, e7, e8, e9, e10, e11, e12⟩ := hagree c
  rw [Cert.ReferenceIdeal.Read.val_main_v48_eq, e0, e1, e2, e3, e4, e5, e6, e7, e8, e9, e10, e11, e12]
  funext i
  obtain ⟨n, q, rfl⟩ : ∃ (n : Fin 100000) (q : Fin 64), i = ix2 n q := ⟨i 0, i 1, eq_ix2 i⟩
  exact ((Cert.ReferenceIdeal.Layers.ref_out _ _ _ _ _ _ _ _ _ _ _ _ _ n q).trans
    (outK_eq_outR _ hreal n q).symm).trans (Cert.KernelIdeal.Thread.thr_out m ρ c hsrc n q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
